-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_
  bcast_S_S16x11008 : S_.BroadcastsInDim S16x11008 (![] : Fin 0 → Fin S16x11008.rank)
  reducesTo_S16x11008_S_d0_1 : S16x11008.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S11008x16 .f32) (main_arg8 : FVec F S16x11008 .f32) (main_arg9 : FVec F S4096x16 .f32) (main_v33 : IVec S_ 1) : IVec S_ 1 :=
  let main_v34 : FVec F S11008x16 .f32 := Host.absf main_arg7
  let main_cst_12 : FVec F S_ .f32 := constant S_ .f32 0x7F800000#32
  let main_v35 : FVec F S11008x16 .f32 := broadcastInDim S11008x16 ![] bcast_S_S11008x16 main_cst_12
  let main_v36 : IVec S11008x16 1 := cmpf .olt main_v34 main_v35
  let main_c_13 : IVec S_ 1 := constantI S_ 1 1#1
  let main_v37 : IVec S_ 1 := (fun x v => Host.reduce IntOp.andi x v reducesTo_S11008x16_S_d0_1 h_S_) main_v36 main_c_13
  let main_v38 : IVec S_ 1 := andi main_v33 main_v37
  let main_v39 : FVec F S16x11008 .f32 := Host.absf main_arg8
  let main_cst_14 : FVec F S_ .f32 := constant S_ .f32 0x7F800000#32
  let main_v40 : FVec F S16x11008 .f32 := broadcastInDim S16x11008 ![] bcast_S_S16x11008 main_cst_14
  let main_v41 : IVec S16x11008 1 := cmpf .olt main_v39 main_v40
  let main_c_15 : IVec S_ 1 := constantI S_ 1 1#1
  let main_v42 : IVec S_ 1 := (fun x v => Host.reduce IntOp.andi x v reducesTo_S16x11008_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S11008x16 .f32 := Host.absf main_arg5
  let main_cst_8 : FVec F S_ .f32 := constant S_ .f32 0x7F800000#32
  let main_v25 : FVec F S11008x16 .f32 := broadcastInDim S11008x16 ![] bcast_S_S11008x16 main_cst_8
  let main_v26 : IVec S11008x16 1 := cmpf .olt main_v24 main_v25
  let main_c_9 : IVec S_ 1 := constantI S_ 1 1#1
  let main_v27 : IVec S_ 1 := (fun x v => Host.reduce IntOp.andi x v reducesTo_S11008x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S11008x4096 .f32) (main_arg2 : FVec F S11008x4096 .f32) (main_arg3 : FVec F S4096x11008 .f32) (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S8192x4096 : Shape := ⟨2, ![8192, 4096]⟩
abbrev S8192x11008 : Shape := ⟨2, ![8192, 11008]⟩
abbrev S1024x4096 : Shape := ⟨2, ![1024, 4096]⟩
abbrev S256x4096 : Shape := ⟨2, ![256, 4096]⟩
abbrev S256x16 : Shape := ⟨2, ![256, 16]⟩
abbrev S1024x256 : Shape := ⟨2, ![1024, 256]⟩
abbrev S4096x256 : Shape := ⟨2, ![4096, 256]⟩
abbrev S1024x16 : Shape := ⟨2, ![1024, 16]⟩
abbrev S16x256 : Shape := ⟨2, ![16, 256]⟩
abbrev S512x256 : Shape := ⟨2, ![512, 256]⟩
abbrev S512x4096 : Shape := ⟨2, ![512, 4096]⟩
abbrev S512x16 : Shape := ⟨2, ![512, 16]⟩

abbrev nBuf : Space → Nat
  | .hbm => 24
  | .vmem => 25
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S8192x4096, .f32⟩
  | .hbm, ⟨11, _⟩ => ⟨S8192x4096, .bf16⟩
  | .hbm, ⟨12, _⟩ => ⟨S11008x4096, .bf16⟩
  | .hbm, ⟨13, _⟩ => ⟨S11008x4096, .bf16⟩
  | .hbm, ⟨14, _⟩ => ⟨S4096x11008, .bf16⟩
  | .hbm, ⟨15, _⟩ => ⟨S16x4096, .bf16⟩
  | .hbm, ⟨16, _⟩ => ⟨S11008x16, .bf16⟩
  | .hbm, ⟨17, _⟩ => ⟨S16x4096, .bf16⟩
  | .hbm, ⟨18, _⟩ => ⟨S11008x16, .bf16⟩
  | .hbm, ⟨19, _⟩ => ⟨S16x11008, .bf16⟩
  | .hbm, ⟨20, _⟩ => ⟨S4096x16, .bf16⟩
  | .hbm, ⟨21, _⟩ => ⟨S8192x11008, .bf16⟩
  | .hbm, ⟨22, _⟩ => ⟨S8192x4096, .f32⟩
  | .hbm, ⟨23, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S16x4096, .bf16⟩
  | .local _ .vmem, ⟨7, _⟩ => ⟨S256x16, .bf16⟩
  | .local _ .vmem, ⟨8, _⟩ => ⟨S256x16, .bf16⟩
  | .local _ .vmem, ⟨9, _⟩ => ⟨S16x4096, .bf16⟩
  | .local _ .vmem, ⟨10, _⟩ => ⟨S256x16, .bf16⟩
  | .local _ .vmem, ⟨11, _⟩ => ⟨S256x16, .bf16⟩
  | .local _ .vmem, ⟨12, _⟩ => ⟨S1024x256, .bf16⟩
  | .local _ .vmem, ⟨13, _⟩ => ⟨S1024x256, .bf16⟩
  | .local _ .vmem, ⟨14, _⟩ => ⟨S512x256, .bf16⟩
  | .local _ .vmem, ⟨15, _⟩ => ⟨S512x256, .bf16⟩
  | .local _ .vmem, ⟨16, _⟩ => ⟨S4096x256, .bf16⟩
  | .local _ .vmem, ⟨17, _⟩ => ⟨S4096x256, .bf16⟩
  | .local _ .vmem, ⟨18, _⟩ => ⟨S16x256, .bf16⟩
  | .local _ .vmem, ⟨19, _⟩ => ⟨S16x256, .bf16⟩
  | .local _ .vmem, ⟨20, _⟩ => ⟨S4096x16, .bf16⟩
  | .local _ .vmem, ⟨21, _⟩ => ⟨S512x4096, .f32⟩
  | .local _ .vmem, ⟨22, _⟩ => ⟨S512x4096, .f32⟩
  | .local _ .vmem, ⟨23, _⟩ => ⟨S512x4096, .f32⟩
  | .local _ .vmem, ⟨24, _⟩ => ⟨S512x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S16x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 43], ![false, false]⟩

def k1_cond2 (i : grid1.Coords) : BitVec 1 :=
  let arg1 : BitVec 32 := BitVec.ofNat 32 (i 1).val
  let c42_i32 : BitVec 32 := 42#32
  let v23 : BitVec 1 := Scalar.cmpi .eq arg1 c42_i32
  let v24 : BitVec 32 := Scalar.extui v23
  let c0_i32_15 : BitVec 32 := 0#32
  let v25 : BitVec 1 := Scalar.cmpi .ne v24 c0_i32_15
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S4096x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x2048x4096_S8192x4096 : S4x2048x4096.ShapeCasts S8192x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S256x16_S256x16_0_0 : ∀ a, (![0, 0] : Fin 2 → Nat) a + S256x16.size a ≤ S256x16.size a
  h_S256x16 : 0 < S256x16.numel
  shapeCasts_S256x16_S256x16 : S256x16.ShapeCasts S256x16
  transposes_S256x4096_p1_0_S4096x256 : S256x4096.Transposes [1, 0] S4096x256
  transposes_S16x4096_p1_0_S4096x16 : S16x4096.Transposes [1, 0] S4096x16
  transposes_S256x16_p1_0_S16x256 : S256x16.Transposes [1, 0] S16x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  transposes_S4096x256_p1_0_S256x4096 : S4096x256.Transposes [1, 0] S256x4096
  transposes_S16x256_p1_0_S256x16 : S16x256.Transposes [1, 0] S256x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  transposes_S4096x16_p1_0_S16x4096 : S4096x16.Transposes [1, 0] S16x4096
  shapeCasts_S8192x4096_S4x2048x4096 : S8192x4096.ShapeCasts S4x2048x4096
  dot_S1024x4096_S4096x256_S1024x256_1_0_0_1_n_n_wf : DotDims.WF S1024x4096 S4096x256 S1024x256 [1] [0] [0] [1] [] []
  dot_S1024x4096_S4096x16_S1024x16_1_0_0_1_n_n_wf : DotDims.WF S1024x4096 S4096x16 S1024x16 [1] [0] [0] [1] [] []
  dot_S1024x16_S16x256_S1024x256_1_0_0_1_n_n_wf : DotDims.WF S1024x16 S16x256 S1024x256 [1] [0] [0] [1] [] []
  dot_S512x256_S256x4096_S512x4096_1_0_0_1_n_n_wf : DotDims.WF S512x256 S256x4096 S512x4096 [1] [0] [0] [1] [] []
  dot_S512x256_S256x16_S512x16_1_0_0_1_n_n_wf : DotDims.WF S512x256 S256x16 S512x16 [1] [0] [0] [1] [] []
  dot_S512x16_S16x4096_S512x4096_1_0_0_1_n_n_wf : DotDims.WF S512x16 S16x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .bf16 = 32 ∨ (Rect.block (s := S16x4096) S16x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S11008x16.size a
  hwx0_4 : ∀ i : grid0.Coords, EltTy.bits .bf16 = 32 ∨ (Rect.block (s := S11008x16) S256x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x4096.size a ≤ S16x4096.size a
  hwx0_5 : ∀ i : grid0.Coords, EltTy.bits .bf16 = 32 ∨ (Rect.block (s := S16x4096) S16x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S11008x16.size a
  hwx0_6 : ∀ i : grid0.Coords, EltTy.bits .bf16 = 32 ∨ (Rect.block (s := S11008x16) S256x16.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x11008.size a
  hwx0_7 : ∀ i : grid0.Coords, EltTy.bits .bf16 = 32 ∨ (Rect.block (s := S8192x11008) S1024x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x11008.size a
  hwx1_0 : ∀ i : grid1.Coords, EltTy.bits .bf16 = 32 ∨ (Rect.block (s := S8192x11008) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .bf16 = 32 ∨ (Rect.block (s := S4096x11008) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x11008.size a
  hwx1_2 : ∀ i : grid1.Coords, EltTy.bits .bf16 = 32 ∨ (Rect.block (s := S16x11008) S16x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S4096x16.size a
  hwx1_3 : ∀ i : grid1.Coords, EltTy.bits .bf16 = 32 ∨ (Rect.block (s := S4096x16) S4096x16.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S8192x4096.size a
  hwx1_4 : ∀ i : grid1.Coords, EltTy.bits .f32 = 32 ∨ (Rect.block (s := S8192x4096) S512x4096.size (cc1_transform_4 i) (hinb1_4 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v11) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S4096x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S4x2048x11008 : Shape := ⟨3, ![4, 2048, 11008]⟩
abbrev S4x2048x16 : Shape := ⟨3, ![4, 2048, 16]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S4x2048x11008, .f32⟩
  | .hbm, ⟨11, _⟩ => ⟨S4x2048x16, .f32⟩
  | .hbm, ⟨12, _⟩ => ⟨S4x2048x11008, .f32⟩
  | .hbm, ⟨13, _⟩ => ⟨S_, .f32⟩
  | .hbm, ⟨14, _⟩ => ⟨S4x2048x11008, .f32⟩
  | .hbm, ⟨15, _⟩ => ⟨S4x2048x11008, .f32⟩
  | .hbm, ⟨16, _⟩ => ⟨S4x2048x11008, .f32⟩
  | .hbm, ⟨17, _⟩ => ⟨S4x2048x11008, .f32⟩
  | .hbm, ⟨18, _⟩ => ⟨S4x2048x16, .f32⟩
  | .hbm, ⟨19, _⟩ => ⟨S4x2048x11008, .f32⟩
  | .hbm, ⟨20, _⟩ => ⟨S_, .f32⟩
  | .hbm, ⟨21, _⟩ => ⟨S4x2048x11008, .f32⟩
  | .hbm, ⟨22, _⟩ => ⟨S4x2048x11008, .f32⟩
  | .hbm, ⟨23, _⟩ => ⟨S4x2048x11008, .f32⟩
  | .hbm, ⟨24, _⟩ => ⟨S4x2048x11008, .f32⟩
  | .hbm, ⟨25, _⟩ => ⟨S4x2048x11008, .f32⟩
  | .hbm, ⟨26, _⟩ => ⟨S_, .f32⟩
  | .hbm, ⟨27, _⟩ => ⟨S4x2048x11008, .f32⟩
  | .hbm, ⟨28, _⟩ => ⟨S4x2048x11008, .f32⟩
  | .hbm, ⟨29, _⟩ => ⟨S_, .f32⟩
  | .hbm, ⟨30, _⟩ => ⟨S4x2048x11008, .f32⟩
  | .hbm, ⟨31, _⟩ => ⟨S4x2048x11008, .f32⟩
  | .hbm, ⟨32, _⟩ => ⟨S4x2048x11008, .f32⟩
  | .hbm, ⟨33, _⟩ => ⟨S4x2048x11008, .f32⟩
  | .hbm, ⟨34, _⟩ => ⟨S4x2048x4096, .f32⟩
  | .hbm, ⟨35, _⟩ => ⟨S4x2048x16, .f32⟩
  | .hbm, ⟨36, _⟩ => ⟨S4x2048x4096, .f32⟩
  | .hbm, ⟨37, _⟩ => ⟨S_, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  bcast_S_S4x2048x11008 : S_.BroadcastsInDim S4x2048x11008 (![] : Fin 0 → Fin S4x2048x11008.rank)
  bcast_S_S4x2048x4096 : S_.BroadcastsInDim S4x2048x4096 (![] : Fin 0 → Fin S4x2048x4096.rank)
  dot_S4x2048x4096_S11008x4096_S4x2048x11008_2_1_01_0_n_n_wf : DotDims.WF S4x2048x4096 S11008x4096 S4x2048x11008 [2] [1] [0, 1] [0] [] []
  dot_S4x2048x4096_S16x4096_S4x2048x16_2_1_01_0_n_n_wf : DotDims.WF S4x2048x4096 S16x4096 S4x2048x16 [2] [1] [0, 1] [0] [] []
  dot_S4x2048x16_S11008x16_S4x2048x11008_2_1_01_0_n_n_wf : DotDims.WF S4x2048x16 S11008x16 S4x2048x11008 [2] [1] [0, 1] [0] [] []
  dot_S4x2048x11008_S4096x11008_S4x2048x4096_2_1_01_0_n_n_wf : DotDims.WF S4x2048x11008 S4096x11008 S4x2048x4096 [2] [1] [0, 1] [0] [] []
  dot_S4x2048x11008_S16x11008_S4x2048x16_2_1_01_0_n_n_wf : DotDims.WF S4x2048x11008 S16x11008 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S11008x16_S4x2048x11008_2_1_01_0_n_n : DotDims S4x2048x16 S11008x16 S4x2048x11008 where
  lhsContracting := [2]
  rhsContracting := [1]
  lhsNonContracting := [0, 1]
  rhsNonContracting := [0]
  lhsBatch := []
  rhsBatch := []
  wf := dot_S4x2048x16_S11008x16_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf
def dot_S4x2048x11008_S16x11008_S4x2048x16_2_1_01_0_n_n : DotDims S4x2048x11008 S16x11008 S4x2048x16 where
  lhsContracting := [2]
  rhsContracting := [1]
  lhsNonContracting := [0, 1]
  rhsNonContracting := [0]
  lhsBatch := []
  rhsBatch := []
  wf := dot_S4x2048x11008_S16x11008_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Kernel.GateBody.lean ====
import proofs.«104832_j13503377178799_1_alg».proof.Proof.Gen.Kernel.Launch
import proofs.«104832_j13503377178799_1_alg».proof.Proof.Gen.Kernel.Skeleton
import proofs.«104832_j13503377178799_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The gate region's body, frame half

The first pallas_call of the feed-forward block computes, per grid point `(i, j)` of an 8 x 43 grid, the block
`silu(x·w1ᵀ + 2·(x·a1ᵀ)·b1ᵀ) * (x·w3ᵀ + 2·(x·a3ᵀ)·b3ᵀ)` of the gated hidden activations. Its body loads the seven
input blocks whole (the row block of `x`, the two weight blocks, the two pairs of adapter factors), computes, and
stores the whole output block once. Here: the windows' blocks at a point read off the arrays the region finds
(`iblk0`), what the one store leaves in the output's buffer as a function of the seven input blocks (`gateOut`), the
body's triple on arbitrary whole staging buffers (`sound_kernel0`), the pipeline's proof data (`dat0`) and its body
obligation (`body_obligation0`). Everything is stated at any float model `F` and at a parameter `V`, the buffer contents
when the region is entered.
-/

-- membership in a rectangle of long axes: the elaborator's structural look recurses once per coordinate
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the gate region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of `x`): its current staging buffer holds its block at every point, whether the pipeline
    fetched it there or not (not fetched, the block index has not moved), for any proof data whose array is `V`'s
    and whose body leaves the block in place; the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the block of `w1`): its current staging buffer holds its block at every point, whether the pipeline
    fetched it there or not (not fetched, the block index has not moved), for any proof data whose array is `V`'s
    and whose body leaves the block in place; the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the block of `w3`): its current staging buffer holds its block at every point, whether the pipeline
    fetched it there or not (not fetched, the block index has not moved), for any proof data whose array is `V`'s
    and whose body leaves the block in place; the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the factor `a1`): its current staging buffer holds its block at every point, whether the pipeline
    fetched it there or not (not fetched, the block index has not moved), for any proof data whose array is `V`'s
    and whose body leaves the block in place; the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the block of `b1`): its current staging buffer holds its block at every point, whether the pipeline
    fetched it there or not (not fetched, the block index has not moved), for any proof data whose array is `V`'s
    and whose body leaves the block in place; the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the factor `a3`): its current staging buffer holds its block at every point, whether the pipeline
    fetched it there or not (not fetched, the block index has not moved), for any proof data whose array is `V`'s
    and whose body leaves the block in place; the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the block of `b3`): its current staging buffer holds its block at every point, whether the pipeline
    fetched it there or not (not fetched, the block index has not moved), for any proof data whose array is `V`'s
    and whose body leaves the block in place; the window is uncut and never idle. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every access of the body is of a whole block: the rectangles of the loads, one per block shape, -/
abbrev xRect : Rect S1024x4096 := Rect.unit (s := S1024x4096) ![0, 0] S1024x4096.size inb_S1024x4096_S1024x4096_0_0
abbrev wRect : Rect S256x4096 := Rect.unit (s := S256x4096) ![0, 0] S256x4096.size inb_S256x4096_S256x4096_0_0
abbrev aRect : Rect S16x4096 := Rect.unit (s := S16x4096) ![0, 0] S16x4096.size inb_S16x4096_S16x4096_0_0
abbrev bRect : Rect S256x16 := Rect.unit (s := S256x16) ![0, 0] S256x16.size inb_S256x16_S256x16_0_0
/-- and the one store's rectangle, the whole output block. -/
abbrev gateRect : Rect S1024x256 := Rect.unit (s := S1024x256) ![0, 0] S1024x256.size inb_S1024x256_S1024x256_0_0

/-! ## What the body leaves in the output window's buffer -/

/-- The output's staging buffer after the body, from the seven input blocks `x, w1, w3, a1, b1, a3, b3`: its one
    store, whose payload is the product of the linear branch over `w3, a3, b3` and the gated branch over
    `w1, a1, b1`, rounded to bf16. -/
def gateOut (x0 : Vec F S1024x4096 .bf16) (x1 x2 : Vec F S256x4096 .bf16) (x3 : Vec F S16x4096 .bf16) (x4 : Vec F S256x16 .bf16)
    (x5 : Vec F S16x4096 .bf16) (x6 : Vec F S256x16 .bf16) : Vec F S1024x256 .bf16 :=
  View.canon [⟨gateRect, k0_pay1 (k0_pay3 (View.ld x0 xRect) (View.ld x2 wRect) (View.ld x5 aRect) (View.ld x6 bRect))
    (k0_pay4 (View.ld x0 xRect) (View.ld x1 wRect) (View.ld x3 aRect) (View.ld x4 bRect))⟩]

/-- The one store is of the whole block, so it covers the buffer. -/
theorem gateCover (p0 : Vec F S1024x256 .bf16) (y : S1024x256.Idx) :
    ∃ pc ∈ ([⟨gateRect, p0⟩] : List (View.Piece (Elt F) S1024x256 .bf16)), y ∈ pc.1.set :=
  View.cover_of_tiled [⟨gateRect, p0⟩] S1024x256.size (by rfl) y

/-! ## The body's triple -/
set_option maxHeartbeats 1000000 in
/-- The body on whole staging buffers, the seven inputs' at read contents `x0 … x6` and the output's at anything, runs to
    the continuation holding the inputs' as they were and the output's at `gateOut` of the inputs': it is its seven
    whole-block loads, a load of the output buffer whose value is not used, and the one store. -/
theorem sound_kernel0 (c : Dev nD) (E : Set ℕ) (i : grid0.Coords) (arg2 : Memref sig .tc .vmem S1024x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S16x4096 .bf16) (harg5 : arg5.IsWhole) (arg6 : Memref sig .tc .vmem S256x16 .bf16) (harg6 : arg6.IsWhole) (arg7 : Memref sig .tc .vmem S16x4096 .bf16) (harg7 : arg7.IsWhole) (arg8 : Memref sig .tc .vmem S256x16 .bf16) (harg8 : arg8.IsWhole) (arg9 : Memref sig .tc .vmem S1024x256 .bf16) (harg9 : arg9.IsWhole)
    (x0 : Vec F S1024x4096 .bf16) (x1 x2 : Vec F S256x4096 .bf16) (x3 : Vec F S16x4096 .bf16) (x4 : Vec F S256x16 .bf16) (x5 : Vec F S16x4096 .bf16) (x6 : Vec F S256x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gateOut x0 x1 x2 x3 x4 x5 x6)) -∗ K ⟨⟩))
      ⊢ wp frame (wpE (defs₀ (F := F)) Variants.none c none) E (cc0__gate_kernel i arg2 harg2 arg3 harg3 arg4 harg4 arg5 harg5 arg6 harg6 arg7 harg7 arg8 harg8 arg9 harg9) K := by
  simp only [cc0__gate_kernel_eq_skeleton]; unfold cc0__gate_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (gateCover _)

/-! ## The pipeline's proof data -/

/-- The proof data of the gate pipeline on core `c`: the arrays as the region finds them (`V`); after the body at point
    `t` each input's buffer still at its block and the output's at `gateOut` of the seven input blocks; the invariant is
    the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => gateOut (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = gateOut (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies; the invariant and the
    core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.DownShared.lean ====
/- What the three whole-body runs of the down-projection kernel (custom_call 1, grid 16 x 43) share: each window's
   block at a point read off the region-entry contents, the two branch conditions of the body in closed form over
   the grid (the reset at the first step of the hidden axis, the output store at its last step), where the output
   window is idle, the staging and scratch memrefs, and the region invariant with the two carried scratch
   accumulators owned at some contents. -/
import proofs.«104832_j13503377178799_1_alg».proof.Proof.Gen.Kernel.Launch
import proofs.«104832_j13503377178799_1_alg».proof.Proof.Gen.Kernel.Skeleton
import proofs.«104832_j13503377178799_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: unfetched, the block index
    has not moved; the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: unfetched, the block index
    has not moved; the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: unfetched, the block index
    has not moved; the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place: unfetched, the block index
    has not moved; the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (the reset of the two accumulators), from the grid coordinates:
    the hidden-axis step is 0. -/
abbrev cond1_0 (i : grid1.Coords) : Prop := (Scalar.cmpi .ne (Scalar.extui (Scalar.cmpi .eq (BitVec.ofNat 32 (i 1).val) 0#32)) 0#32) = 1#1
/-- It holds at the points ≡ 0 (mod 43). -/
theorem hcond1_0 : ∀ t : Fin cfg1.N, cond1_0 (grid1.coords t) ↔ t.val % 43 = 0 :=
  (by decide +kernel : ∀ t : Fin grid1.N, cond1_0 (grid1.coords t) ↔ t.val % 43 = 0)

/-- The condition of the body's second `scf.if` (the output store): the hidden-axis step is 42, the last. -/
abbrev cond1_1 (i : grid1.Coords) : Prop := k1_cond2 i = 1#1
/-- It holds at the points ≡ 42 (mod 43). -/
theorem hcond1_1 : ∀ t : Fin cfg1.N, cond1_1 (grid1.coords t) ↔ t.val % 43 = 42 :=
  (by decide +kernel : ∀ t : Fin grid1.N, cond1_1 (grid1.coords t) ↔ t.val % 43 = 42)

/-! ## Where the windows are idle -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- The output window is idle exactly where the second condition fails. -/
theorem idle1_4_iff (i : grid1.Coords) : cfg1.idle 4 i = true ↔ ¬cond1_1 i := by
  show (!(k1_cond2 i == 1#1)) = true ↔ ¬(k1_cond2 i = 1#1)
  simp only [Bool.not_eq_true', beq_eq_false_iff_ne, ne_eq]
/-- At the first step of the hidden axis the output is idle: the body stores nothing into it. -/
theorem idleAt1_4_First : ∀ t : Fin cfg1.N, cond1_0 (grid1.coords t) → ¬cond1_1 (grid1.coords t) → cfg1.idle 4 (grid1.coords t) = true :=
  fun t _ h1 => (idle1_4_iff _).mpr h1
/-- and the pipeline does not write its block back. -/
theorem noFlush1_4_First : ∀ t : Fin cfg1.N, cond1_0 (grid1.coords t) → ¬cond1_1 (grid1.coords t) → (cfg1.win 4).flush t = false :=
  fun t _ h1 => by
    rw [← Bool.not_eq_true, flush1_4 t, ← hcond1_1 t]; exact h1
/-- At a middle step the output is idle, -/
theorem idleAt1_4_Mid : ∀ t : Fin cfg1.N, ¬cond1_0 (grid1.coords t) → ¬cond1_1 (grid1.coords t) → cfg1.idle 4 (grid1.coords t) = true :=
  fun t _ h1 => (idle1_4_iff _).mpr h1
/-- and the pipeline does not write its block back. -/
theorem noFlush1_4_Mid : ∀ t : Fin cfg1.N, ¬cond1_0 (grid1.coords t) → ¬cond1_1 (grid1.coords t) → (cfg1.win 4).flush t = false :=
  fun t _ h1 => by
    rw [← Bool.not_eq_true, flush1_4 t, ← hcond1_1 t]; exact h1
/-- At the last step the output is live: the body stores into it. -/
theorem liveAt1_4_Last : ∀ t : Fin cfg1.N, ¬cond1_0 (grid1.coords t) → cond1_1 (grid1.coords t) → cfg1.idle 4 (grid1.coords t) = false :=
  fun t _ h1 => by
    rw [← Bool.not_eq_true, idle1_4_iff]; exact not_not_intro h1

/-! ## The staging and scratch memrefs -/

/-- One staging buffer of the output window, through which its contents are stated. -/
abbrev VO1_4 : View sig .tc .vmem S512x4096 .f32 := (Memref.whole cc1_stg4_0 : Memref sig .tc .vmem S512x4096 .f32).view
/-- Each window's current staging memref at point `t`, spelled as the pipeline passes it, and its wholeness. -/
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x16 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
/-- The two scratch operands: the accumulator of the down projection and the accumulator of the adapter's inner
    product, whole scoped buffers of the kernel's own, carried from point to point. -/
abbrev scM1_0 : Memref sig .tc .vmem S512x4096 .f32 := Memref.whole cc1_scratch0
abbrev scM1_1 : Memref sig .tc .vmem S512x16 .f32 := Memref.whole cc1_scratch1
/-- The same as views: what each holds is stated through them. -/
abbrev VS1_0 : View sig .tc .vmem S512x4096 .f32 := scM1_0.view
abbrev VS1_1 : View sig .tc .vmem S512x16 .f32 := scM1_1.view

/-- The region invariant with the scratch operands as memrefs owned at some contents: the other call's staging
    buffers at some contents each, the two accumulators, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Frame

end
-- ==== Proof.Kernel.DownRunFirst.lean ====
/- The whole-body run of the down-projection kernel at the first step of the hidden axis: both accumulators are reset,
   then take this step's products; the output is not stored. -/
import proofs.«104832_j13503377178799_1_alg».proof.Proof.Kernel.DownShared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two carried accumulators, as pieces (last store first), AT THE FIRST STEP of the hidden axis (the reset taken, the
    output store not taken), with the proof that on whole memrefs — the three streamed inputs at their contents, the
    unread fourth input and the idle output at contents handed back untouched, the two accumulators at anything — the body
    runs to the continuation holding the inputs and the output as they were and each accumulator with its pieces written:
    the reset stores zeros into both, then each is read back and stored with this step's product added. The printed
    function is its skeleton, which the symbolic run executes, each conditional decided by the case's hypotheses; the
    pieces are the witness the run finds. -/
noncomputable def kernelRun1_First (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) :
    Σ' (LS0 : List (View.Piece (Elt F) S512x4096 .f32)), { LS1 : List (View.Piece (Elt F) S512x16 .f32) //
      ∀ (x3 : Vec F S4096x16 .bf16) (xi4 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__down_kernel i arg2 harg2 arg3 harg3 arg4 harg4 arg5 harg5 arg6 harg6 arg7 harg7 arg8 harg8) K } := by
  refine ⟨?_, ?_, fun x3 xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Frame

end
-- ==== Proof.Kernel.DownRunMid.lean ====
/- The whole-body run of the down-projection kernel at a middle step of the hidden axis: both accumulators take this
   step's products on top of what they held; the output is not stored. -/
import proofs.«104832_j13503377178799_1_alg».proof.Proof.Kernel.DownRunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two carried accumulators, as pieces (last store first), AT A MIDDLE STEP of the hidden axis (neither the reset nor the output
    store taken), with the proof that on whole memrefs — the three streamed inputs at their contents, the unread fourth
    input and the idle output at contents handed back untouched, the two accumulators at what the step before left — the
    body runs to the continuation holding the inputs and the output as they were and each accumulator with its piece
    written: what it held with this step's product added. -/
noncomputable def kernelRun1_Mid (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) :
    Σ' (LS0 : List (View.Piece (Elt F) S512x4096 .f32)), { LS1 : List (View.Piece (Elt F) S512x16 .f32) //
      ∀ (x3 : Vec F S4096x16 .bf16) (xi4 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__down_kernel i arg2 harg2 arg3 harg3 arg4 harg4 arg5 harg5 arg6 harg6 arg7 harg7 arg8 harg8) K } := by
  refine ⟨?_, ?_, fun x3 xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Frame

end
-- ==== Proof.Kernel.DownRunLast.lean ====
/- The whole-body run of the down-projection kernel at the last step of the hidden axis: both accumulators take this
   step's products, then the output is stored from them and the fourth input. -/
import proofs.«104832_j13503377178799_1_alg».proof.Proof.Kernel.DownRunMid

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two carried accumulators and in the output's staging memref, as pieces (last store first), AT THE LAST STEP of the hidden axis (the reset not taken,
    the output store taken), with the proof that on whole memrefs — the four inputs at their contents, the output at anything,
    the two accumulators at what the step before left — the body runs to the continuation holding the inputs as they were,
    each accumulator with its piece written, and the output's buffer with its piece written: the finished down-projection
    accumulator plus twice the adapter's second product. -/
noncomputable def kernelRun1_Last (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) :
    Σ' (L4 : List (View.Piece (Elt F) S512x4096 .f32)) (LS0 : List (View.Piece (Elt F) S512x4096 .f32)), { LS1 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__down_kernel i arg2 harg2 arg3 harg3 arg4 harg4 arg5 harg5 arg6 harg6 arg7 harg7 arg8 harg8) K } := by
  refine ⟨?_, ?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Frame

end
-- ==== Proof.Kernel.DownBody.lean ====
import proofs.«104832_j13503377178799_1_alg».proof.Proof.Kernel.DownRunLast

/-!
# The down-projection region, point by point

The second pallas_call walks a 16 × 43 grid: 16 row blocks of 512 rows, and for each of them the 43
blocks of 256 hidden columns. Two accumulators live in scratch memory and are carried from one step of
the hidden axis to the next: the 512 × 4096 partial product with the down-projection weight and the
512 × 16 partial product with the adapter's first factor. At the first hidden step both are reset to zero
and then updated; at every step they are updated; at the last hidden step they are combined into the
output block, which is the only moment the output window is stored and written back.

This module states what the output's staging buffer and the two accumulators hold after each grid point
(`outsAt1`, by recursion on the point: a middle or last step reads what the step before left), the
region's invariant (`PhiS1`: both accumulators owned at exactly those contents), the proof data of the
pipeline (`dat1`) and the body obligation (`body_obligation1`), over any contents `V` of the arrays at
the region's entry and any number model `F`.
-/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the output's buffer and in the two accumulators -/

/-- At the first step of the hidden axis nothing is stored into the output block: the window is idle there and is not
    written back, so this value (no pieces, read back over arbitrary contents) is never consulted. -/
def out1_First_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) : Vec F S512x4096 .f32 :=
  VO1_4.read (Elt F) (VO1_4.writes (Elt F) VO1_4.junk [])

/-- The stores of the first step of the hidden axis into the 512 × 4096 accumulator are whole-block stores: they cover it. -/
theorem scover1_First_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) (y : S512x4096.Idx) :
    ∃ pc ∈ (kernelRun1_First c i arg2 harg2 arg3 harg3 arg4 harg4 arg5 harg5 arg6 harg6 arg7 harg7 arg8 harg8 hc0 hc1 x0 x1 x2).1, y ∈ pc.1.set :=
  View.cover_of_tiledL (kernelRun1_First c i arg2 harg2 arg3 harg3 arg4 harg4 arg5 harg5 arg6 harg6 arg7 harg7 arg8 harg8 hc0 hc1 x0 x1 x2).1 S512x4096.size (by sl_kernel_rfl) y

/-- What the first step of the hidden axis leaves in the 512 × 4096 accumulator. -/
def sout1_First_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) : Vec F S512x4096 .f32 :=
  VS1_0.read (Elt F) (VS1_0.writes (Elt F) VS1_0.junk (kernelRun1_First c i arg2 harg2 arg3 harg3 arg4 harg4 arg5 harg5 arg6 harg6 arg7 harg7 arg8 harg8 hc0 hc1 x0 x1 x2).1)

/-- The stores of the first step of the hidden axis into the 512 × 16 accumulator are whole-block stores: they cover it. -/
theorem scover1_First_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) (y : S512x16.Idx) :
    ∃ pc ∈ (kernelRun1_First c i arg2 harg2 arg3 harg3 arg4 harg4 arg5 harg5 arg6 harg6 arg7 harg7 arg8 harg8 hc0 hc1 x0 x1 x2).2.1, y ∈ pc.1.set :=
  View.cover_of_tiledL (kernelRun1_First c i arg2 harg2 arg3 harg3 arg4 harg4 arg5 harg5 arg6 harg6 arg7 harg7 arg8 harg8 hc0 hc1 x0 x1 x2).2.1 S512x16.size (by sl_kernel_rfl) y

/-- What the first step of the hidden axis leaves in the 512 × 16 accumulator. -/
def sout1_First_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) : Vec F S512x16 .f32 :=
  VS1_1.read (Elt F) (VS1_1.writes (Elt F) VS1_1.junk (kernelRun1_First c i arg2 harg2 arg3 harg3 arg4 harg4 arg5 harg5 arg6 harg6 arg7 harg7 arg8 harg8 hc0 hc1 x0 x1 x2).2.1)

/-- At a middle step of the hidden axis nothing is stored into the output block: the window is idle there and is not
    written back, so this value (no pieces, read back over arbitrary contents) is never consulted. -/
def out1_Mid_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) : Vec F S512x4096 .f32 :=
  VO1_4.read (Elt F) (VO1_4.writes (Elt F) VO1_4.junk [])

/-- The stores of a middle step of the hidden axis into the 512 × 4096 accumulator are whole-block stores: they cover it. -/
theorem scover1_Mid_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) (y : S512x4096.Idx) :
    ∃ pc ∈ (kernelRun1_Mid c i arg2 harg2 arg3 harg3 arg4 harg4 arg5 harg5 arg6 harg6 arg7 harg7 arg8 harg8 hc0 hc1 x0 x1 x2 xs0 xs1).1, y ∈ pc.1.set :=
  View.cover_of_tiledL (kernelRun1_Mid c i arg2 harg2 arg3 harg3 arg4 harg4 arg5 harg5 arg6 harg6 arg7 harg7 arg8 harg8 hc0 hc1 x0 x1 x2 xs0 xs1).1 S512x4096.size (by sl_kernel_rfl) y

/-- What a middle step of the hidden axis leaves in the 512 × 4096 accumulator. -/
def sout1_Mid_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) : Vec F S512x4096 .f32 :=
  VS1_0.read (Elt F) (VS1_0.writes (Elt F) VS1_0.junk (kernelRun1_Mid c i arg2 harg2 arg3 harg3 arg4 harg4 arg5 harg5 arg6 harg6 arg7 harg7 arg8 harg8 hc0 hc1 x0 x1 x2 xs0 xs1).1)

/-- The stores of a middle step of the hidden axis into the 512 × 16 accumulator are whole-block stores: they cover it. -/
theorem scover1_Mid_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) (y : S512x16.Idx) :
    ∃ pc ∈ (kernelRun1_Mid c i arg2 harg2 arg3 harg3 arg4 harg4 arg5 harg5 arg6 harg6 arg7 harg7 arg8 harg8 hc0 hc1 x0 x1 x2 xs0 xs1).2.1, y ∈ pc.1.set :=
  View.cover_of_tiledL (kernelRun1_Mid c i arg2 harg2 arg3 harg3 arg4 harg4 arg5 harg5 arg6 harg6 arg7 harg7 arg8 harg8 hc0 hc1 x0 x1 x2 xs0 xs1).2.1 S512x16.size (by sl_kernel_rfl) y

/-- What a middle step of the hidden axis leaves in the 512 × 16 accumulator. -/
def sout1_Mid_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) : Vec F S512x16 .f32 :=
  VS1_1.read (Elt F) (VS1_1.writes (Elt F) VS1_1.junk (kernelRun1_Mid c i arg2 harg2 arg3 harg3 arg4 harg4 arg5 harg5 arg6 harg6 arg7 harg7 arg8 harg8 hc0 hc1 x0 x1 x2 xs0 xs1).2.1)

/-- At the last step of the hidden axis the one store into the output block is of the whole block: its pieces cover it. -/
theorem cover1_Last_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) (y : S512x4096.Idx) :
    ∃ pc ∈ (kernelRun1_Last c i arg2 harg2 arg3 harg3 arg4 harg4 arg5 harg5 arg6 harg6 arg7 harg7 arg8 harg8 hc0 hc1 x0 x1 x2 x3 xs0 xs1).1, y ∈ pc.1.set :=
  View.cover_of_tiledL (kernelRun1_Last c i arg2 harg2 arg3 harg3 arg4 harg4 arg5 harg5 arg6 harg6 arg7 harg7 arg8 harg8 hc0 hc1 x0 x1 x2 x3 xs0 xs1).1 S512x4096.size (by sl_kernel_rfl) y

/-- What the last hidden step leaves in the output's staging buffer: the stored block. -/
def out1_Last_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) : Vec F S512x4096 .f32 :=
  VO1_4.read (Elt F) (VO1_4.writes (Elt F) VO1_4.junk (kernelRun1_Last c i arg2 harg2 arg3 harg3 arg4 harg4 arg5 harg5 arg6 harg6 arg7 harg7 arg8 harg8 hc0 hc1 x0 x1 x2 x3 xs0 xs1).1)

/-- The stores of the last step of the hidden axis into the 512 × 4096 accumulator are whole-block stores: they cover it. -/
theorem scover1_Last_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) (y : S512x4096.Idx) :
    ∃ pc ∈ (kernelRun1_Last c i arg2 harg2 arg3 harg3 arg4 harg4 arg5 harg5 arg6 harg6 arg7 harg7 arg8 harg8 hc0 hc1 x0 x1 x2 x3 xs0 xs1).2.1, y ∈ pc.1.set :=
  View.cover_of_tiledL (kernelRun1_Last c i arg2 harg2 arg3 harg3 arg4 harg4 arg5 harg5 arg6 harg6 arg7 harg7 arg8 harg8 hc0 hc1 x0 x1 x2 x3 xs0 xs1).2.1 S512x4096.size (by sl_kernel_rfl) y

/-- What the last step of the hidden axis leaves in the 512 × 4096 accumulator. -/
def sout1_Last_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) : Vec F S512x4096 .f32 :=
  VS1_0.read (Elt F) (VS1_0.writes (Elt F) VS1_0.junk (kernelRun1_Last c i arg2 harg2 arg3 harg3 arg4 harg4 arg5 harg5 arg6 harg6 arg7 harg7 arg8 harg8 hc0 hc1 x0 x1 x2 x3 xs0 xs1).2.1)

/-- The stores of the last step of the hidden axis into the 512 × 16 accumulator are whole-block stores: they cover it. -/
theorem scover1_Last_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) (y : S512x16.Idx) :
    ∃ pc ∈ (kernelRun1_Last c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_Last c i arg2 harg2 arg3 harg3 arg4 harg4 arg5 harg5 arg6 harg6 arg7 harg7 arg8 harg8 hc0 hc1 x0 x1 x2 x3 xs0 xs1).2.2.1 S512x16.size (by sl_kernel_rfl) y

/-- What the last step of the hidden axis leaves in the 512 × 16 accumulator. -/
def sout1_Last_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) : Vec F S512x16 .f32 :=
  VS1_1.read (Elt F) (VS1_1.writes (Elt F) VS1_1.junk (kernelRun1_Last c i arg2 harg2 arg3 harg3 arg4 harg4 arg5 harg5 arg6 harg6 arg7 harg7 arg8 harg8 hc0 hc1 x0 x1 x2 x3 xs0 xs1).2.2.1)

/-! ## What the output and the accumulators hold after each point -/

/-- THE ACCUMULATION. After the body at position `n` of the grid: the output window's staging buffer, the
    512 × 4096 accumulator and the 512 × 16 accumulator. The closed forms of the two conditions select the case
    at `n`; a middle or last step runs over what position `n - 1` left in the two accumulators (nothing writes the
    scratch between two points). No point is both a first and a last hidden step (43 > 1). -/
def outsAt1 (c : Dev nD) : (n : ℕ) → n < cfg1.N → Vec F S512x4096 .f32 × Vec F S512x4096 .f32 × Vec F S512x16 .f32
  | 0, hn => (out1_First_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_First_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_First_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (out1_First_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_First_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_First_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_Last_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_Last_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_Last_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_Mid_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_Mid_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_Mid_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a first hidden step: that case's contents (the accumulators are reset, so nothing earlier is read). -/
theorem outsAt1_First (c : Dev nD) (t : Fin cfg1.N) (h0 : t.val % 43 = 0) (h1 : ¬t.val % 43 = 42) :
    outsAt1 V c t.val t.isLt = (out1_First_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_First_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_First_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle hidden step: that case's contents, over what the point before left in the accumulators. -/
theorem outsAt1_Mid (c : Dev nD) (t : Fin cfg1.N) (h0 : ¬t.val % 43 = 0) (h1 : ¬t.val % 43 = 42) :
    outsAt1 V c t.val t.isLt = (out1_Mid_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_Mid_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_Mid_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last hidden step: that case's contents, over what the point before left in the accumulators. -/
theorem outsAt1_Last (c : Dev nD) (t : Fin cfg1.N) (h0 : ¬t.val % 43 = 0) (h1 : t.val % 43 = 42) :
    outsAt1 V c t.val t.isLt = (out1_Last_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_Last_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_Last_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- What this region holds of the core's scoped memory and never looks at: the fourteen staging buffers of the
    first call, each whole at some contents, and the generator register at some state. -/
def rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ r, prngReg c r))

/-- The core's scoped memory outside this call's own staging buffers, with the two accumulators held as `P0` and
    `P1` say. -/
def scoped1With (c : Dev nD) (P0 P1 : sProp 𝕄) : sProp 𝕄 :=
  iprop(rest1 (F := F) c ∗ P0 ∗ P1)

/-- The class's invariant splits into the untouched rest and the two accumulators at some contents, -/
theorem PhiA1_open (c : Dev nD) :
    (Pipeline.ΦA spec1 c : sProp 𝕄) ⊢ scoped1With c iprop(∃ d, owns (c : Thread nD τ) scM1_0 fullShare d) iprop(∃ d, owns (c : Thread nD τ) scM1_1 fullShare d) := by
  rw [PhiA1_eq]; unfold scoped1With rest1
  iintro ⟨⟨HR0, HR1, HR2, HR3, HR4, HR5, HR6, HR7, HR8, HR9, HR10, HR11, HR12, HR13, HS0, HS1⟩, Hg⟩
  isplitr [HS0 HS1]
  · isplitr [Hg]
    swap; · iexact Hg
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    iexact HR13
  isplitl [HS0]; · iexact HS0
  iexact HS1

/-- and is put back together from them. -/
theorem PhiA1_close (c : Dev nD) :
    scoped1With c iprop(∃ d, owns (c : Thread nD τ) scM1_0 fullShare d) iprop(∃ d, owns (c : Thread nD τ) scM1_1 fullShare d) ⊢ (Pipeline.ΦA spec1 c : sProp 𝕄) := by
  rw [PhiA1_eq]; unfold scoped1With rest1
  iintro ⟨⟨⟨HR0, HR1, HR2, HR3, HR4, HR5, HR6, HR7, HR8, HR9, HR10, HR11, HR12, HR13⟩, Hg⟩, HS0, HS1⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HS0]; · iexact HS0
  iexact HS1

/-- `scoped1With` is monotone in what it says of the two accumulators: the rest rides along. -/
theorem scoped1With_mono (c : Dev nD) {P0 P1 Q0 Q1 : sProp 𝕄} (h0 : P0 ⊢ Q0) (h1 : P1 ⊢ Q1) :
    scoped1With (F := F) c P0 P1 ⊢ scoped1With (F := F) c Q0 Q1 :=
  Idealize.SL.BI.sep_mono (Idealize.SL.BI.Entails.refl _) (Idealize.SL.BI.sep_mono h0 h1)

/-- The region invariant before position `n`. Before the first point of the grid it is the class's invariant
    (both accumulators at anything). Afterwards both accumulators are owned at exactly what the point before left in
    them (`outsAt1`'s second and third components); the first call's staging buffers and the generator register
    ride along untouched. -/
def PhiS1 (c : Dev nD) : (n : ℕ) → n ≤ cfg1.N → sProp 𝕄
  | 0, _ => Pipeline.ΦA spec1 c
  | n + 1, hn => scoped1With c (owns (c : Thread nD τ) scM1_0 fullShare ((outsAt1 V c n hn).2.1)) (owns (c : Thread nD τ) scM1_1 fullShare ((outsAt1 V c n hn).2.2))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = scoped1With c (owns (c : Thread nD τ) scM1_0 fullShare ((outsAt1 V c n hn).2.1)) (owns (c : Thread nD τ) scM1_1 fullShare ((outsAt1 V c n hn).2.2)) := rfl

/-- Before a point that is not the first of the grid: the accumulators at what the point before left. -/
theorem PhiS1_pos (c : Dev nD) (n : ℕ) (h : n ≤ cfg1.N) (hz : n ≠ 0) :
    PhiS1 V c n h = scoped1With c (owns (c : Thread nD τ) scM1_0 fullShare ((outsAt1 V c (n - 1) (by omega)).2.1)) (owns (c : Thread nD τ) scM1_1 fullShare ((outsAt1 V c (n - 1) (by omega)).2.2)) := by
  cases n with
  | zero => exact absurd rfl hz
  | succ n => rfl

/-- At any position the invariant gives both accumulators at SOME contents: what a first hidden step needs (it
    overwrites them whole), and what the region hands back at its end. -/
theorem PhiS1_forget (c : Dev nD) (n : ℕ) (h : n ≤ cfg1.N) :
    PhiS1 V c n h ⊢ scoped1With c iprop(∃ d, owns (c : Thread nD τ) scM1_0 fullShare d) iprop(∃ d, owns (c : Thread nD τ) scM1_1 fullShare d) := by
  cases n with
  | zero => exact PhiA1_open c
  | succ n =>
    refine scoped1With_mono c ?_ ?_
    · iintro H; iexists _; iexact H
    · iintro H; iexists _; iexact H

/-! ## The pipeline's proof data -/

/-- The proof data of the second call's pipeline on core `c`: the arrays as the region finds them (`V`); after the
    body at point `t` each input's buffer still at its block and the output's at `outsAt1`'s first component; the
    invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' staging buffers hold their blocks (`before1_W`); the closed forms say which
    case the point is in. At a first hidden step the invariant is only asked for the accumulators at SOME contents
    (`PhiS1_forget`: at the grid's first point that is the class's invariant, later what the row block before left):
    the reset overwrites them. At a middle or last step the invariant hands over the accumulators at what the point
    before left (`PhiS1_pos`), which is what `outsAt1` runs the case over. Each case's run then applies; the
    accumulators come back with their pieces written, which cover them, so they are owned at this point's contents
    (`PhiS1_succ`); the output's buffer comes back untouched where it is idle and with its covering store at a last
    step; the first call's staging buffers and the generator register are framed; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [PhiS1_castSucc V c t]
  by_cases h0 : t.val % 43 = 0
  · by_cases h1 : t.val % 43 = 42
    · exfalso; omega
    · rw [Dat.leavesExact_idle (dat1 V c) 4 t (idleAt1_4_First t ((hcond1_0 t).mpr h0) (fun h => h1 ((hcond1_1 t).mp h))) (noFlush1_4_First t ((hcond1_0 t).mpr h0) (fun h => h1 ((hcond1_1 t).mp h)))]
      rw [outsAt1_First V c t h0 h1]
      unfold sout1_First_0 sout1_First_1; (try dsimp only)
      refine (sep_mono_left (PhiS1_forget V c _ _)).trans ?_
      unfold scoped1With
      iintro ⟨⟨HR, HS0, HS1⟩, Ho, ⟨%d0, H0⟩, ⟨%d1, H1⟩, ⟨%d2, H2⟩, ⟨%d3, H3⟩, ⟨%d4, H4⟩⟩
      iapply ((kernelRun1_First c (grid1.coords t) _ _ _ _ _ _ _ _ _ _ _ _ _ _ ((hcond1_0 t).mpr h0) (fun h => h1 ((hcond1_1 t).mp h)) (iblk1 V c 0 t) (iblk1 V c 1 t) (iblk1 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1]
      · isplitl [HR]; · iexact HR
        isplitl [HS0]
        · unfold owns; iexists _; isplitr
          swap; · iexact HS0
          ipureintro; exact View.read_writes_of_cover _ _ _ _ _ (scover1_First_0 c _ _ _ _ _ _ _ _ _ _ _ _ _ _ _ _ _ _ _ _)
        · unfold owns; iexists _; isplitr
          swap; · iexact HS1
          ipureintro; exact View.read_writes_of_cover _ _ _ _ _ (scover1_First_1 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 43 = 42
    · rw [show (dat1 V c).leavesExact 4 t = owns (c : Thread nD τ) (ms1_4 t) fullShare ((dat1 V c).after 4 t) from by
        unfold Dat.leavesExact; rw [liveAt1_4_Last t (fun h => h0 ((hcond1_0 t).mp h)) ((hcond1_1 t).mpr h1)], after1_4]
      rw [outsAt1_Last V c t h0 h1]
      unfold out1_Last_4 sout1_Last_0 sout1_Last_1; (try dsimp only)
      rw [PhiS1_pos V c _ _ hz]
      unfold scoped1With
      iintro ⟨⟨HR, HS0, HS1⟩, Ho, ⟨%d0, H0⟩, ⟨%d1, H1⟩, ⟨%d2, H2⟩, ⟨%d3, H3⟩, ⟨%d4, H4⟩⟩
      iapply ((kernelRun1_Last c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1]
      · isplitl [HR]; · iexact HR
        isplitl [HS0]
        · unfold owns; iexists _; isplitr
          swap; · iexact HS0
          ipureintro; exact View.read_writes_of_cover _ _ _ _ _ (scover1_Last_0 c _ _ _ _ _ _ _ _ _ _ _ _ _ _ _ _ _ _ _ _ _ _ _)
        · unfold owns; iexists _; isplitr
          swap; · iexact HS1
          ipureintro; exact View.read_writes_of_cover _ _ _ _ _ (scover1_Last_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_Last_4 c _ _ _ _ _ _ _ _ _ _ _ _ _ _ _ _ _ _ _ _ _ _ _)
    · rw [Dat.leavesExact_idle (dat1 V c) 4 t (idleAt1_4_Mid t (fun h => h0 ((hcond1_0 t).mp h)) (fun h => h1 ((hcond1_1 t).mp h))) (noFlush1_4_Mid t (fun h => h0 ((hcond1_0 t).mp h)) (fun h => h1 ((hcond1_1 t).mp h)))]
      rw [outsAt1_Mid V c t h0 h1]
      unfold sout1_Mid_0 sout1_Mid_1; (try dsimp only)
      rw [PhiS1_pos V c _ _ hz]
      unfold scoped1With
      iintro ⟨⟨HR, HS0, HS1⟩, Ho, ⟨%d0, H0⟩, ⟨%d1, H1⟩, ⟨%d2, H2⟩, ⟨%d3, H3⟩, ⟨%d4, H4⟩⟩
      iapply ((kernelRun1_Mid c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1]
      · isplitl [HR]; · iexact HR
        isplitl [HS0]
        · unfold owns; iexists _; isplitr
          swap; · iexact HS0
          ipureintro; exact View.read_writes_of_cover _ _ _ _ _ (scover1_Mid_0 c _ _ _ _ _ _ _ _ _ _ _ _ _ _ _ _ _ _ _ _ _ _)
        · unfold owns; iexists _; isplitr
          swap; · iexact HS1
          ipureintro; exact View.read_writes_of_cover _ _ _ _ _ (scover1_Mid_1 c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the accumulators hold is forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  exact (PhiS1_forget V c _ _).trans (PhiA1_close c)

/-- The same after the last point. -/
theorem hout1 (c : Dev nD) : (dat1 V c).Φ (Fin.last cfg1.N) ⊢ Pipeline.ΦA spec1 c :=
  Phi_out1 V c _

end Cert.Kernel.Frame

end
-- ==== Proof.Kernel.TwoRegions.lean ====
/-
  The two kernel regions run one after the other: the gate kernel writes the gated hidden rows into one array, the
  down-projection kernel reads that array and writes the result rows. Between the regions a core holds every
  unscoped buffer whole: the arrays the host lines before the regions made, then the gate kernel's output array at
  what its 344 write-backs leave, then the down kernel's output array at what its 16 write-backs leave. Each region
  takes its windows' arrays out of those buffers at entry and puts them back at exit; the generator register and the
  core's empty debt ride along. Nothing is owed between cores and neither kernel has a semaphore of its own.
-/
import proofs.«104832_j13503377178799_1_alg».proof.Proof.Kernel.GateBody
import proofs.«104832_j13503377178799_1_alg».proof.Proof.Kernel.DownBody
import proofs.«104832_j13503377178799_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the regions' boundaries -/

/-- What the gate kernel finds: the launch memory after the host lines before the regions. -/
abbrev atGate : (c : Dev nD) → (b : Ref sig .tc) → Buf (Elt F) ((c : Thread nD τ).loc b) := fun c b => V1 m c b

/-- The gated hidden rows: the gate kernel's output array after its last point. -/
def gateArr (c : Dev nD) : Buf (Elt F) ((c : Thread nD τ).loc main_v11) := (dat0 (atGate m) c).arrAt 7 cfg0.N

/-- What the down kernel finds: the same buffers with the gated rows in place. -/
def midVal (c : Dev nD) : Valuation τ sig (Elt F) := Function.update (V1 m c) main_v11 (gateArr m c)
abbrev atDown : (c : Dev nD) → (b : Ref sig .tc) → Buf (Elt F) ((c : Thread nD τ).loc b) := fun c b => midVal m c b

/-- The result rows: the down kernel's output array after its last point. -/
def downArr (c : Dev nD) : Buf (Elt F) ((c : Thread nD τ).loc main_v12) := (dat1 (atDown m) c).arrAt 4 cfg1.N

/-- What the regions leave in the arrays they write, as the conditional run wants it: a family over every
    reference, read only at the two output arrays. -/
def outs : Outs (F := F) := fun _ r c =>
  if h : r = main_v11 then h ▸ gateArr m c
  else if h' : r = main_v12 then h' ▸ downArr m c
  else m ((c : Thread nD τ).loc r)

theorem outs_gate (c : Dev nD) : outs m 2 main_v11 c = gateArr m c := by
  unfold outs; rw [dif_pos rfl]
theorem outs_down (c : Dev nD) : outs m 3 main_v12 c = downArr m c := by
  unfold outs; rw [dif_neg (by decide), dif_pos rfl]

theorem V2_eq (c : Dev nD) : V2 m (outs m) c = midVal m c := by
  show Function.update (V1 m c) main_v11 (outs m 2 main_v11 c) = _
  rw [outs_gate]; rfl

/-! ## What each region's exit contents are, buffer by buffer -/

/-- After the gate region each of its arrays holds what the pipeline leaves: an input as entered, the output the
    gated rows. -/
theorem exit0_arr (c : Dev nD) (w : Fin cfg0.W) : (dat0 (atGate m) c).arrAt w cfg0.N = V2 m (outs m) c (Pipeline.arrRef spec0 w) :=
  match w with
  | ⟨0, _⟩ => ((dat0 (atGate m) c).arrAt_in 0 rfl _).trans ((A_eq0 (atGate m) c 0).trans (V2_of m (outs m) c _ (by decide)).symm)
  | ⟨1, _⟩ => ((dat0 (atGate m) c).arrAt_in 1 rfl _).trans ((A_eq0 (atGate m) c 1).trans (V2_of m (outs m) c _ (by decide)).symm)
  | ⟨2, _⟩ => ((dat0 (atGate m) c).arrAt_in 2 rfl _).trans ((A_eq0 (atGate m) c 2).trans (V2_of m (outs m) c _ (by decide)).symm)
  | ⟨3, _⟩ => ((dat0 (atGate m) c).arrAt_in 3 rfl _).trans ((A_eq0 (atGate m) c 3).trans (V2_of m (outs m) c _ (by decide)).symm)
  | ⟨4, _⟩ => ((dat0 (atGate m) c).arrAt_in 4 rfl _).trans ((A_eq0 (atGate m) c 4).trans (V2_of m (outs m) c _ (by decide)).symm)
  | ⟨5, _⟩ => ((dat0 (atGate m) c).arrAt_in 5 rfl _).trans ((A_eq0 (atGate m) c 5).trans (V2_of m (outs m) c _ (by decide)).symm)
  | ⟨6, _⟩ => ((dat0 (atGate m) c).arrAt_in 6 rfl _).trans ((A_eq0 (atGate m) c 6).trans (V2_of m (outs m) c _ (by decide)).symm)
  | ⟨7, _⟩ => by
    rw [V2_eq]
    show gateArr m c = Function.update (V1 m c) (Proc.devRef .tc main_v11) (gateArr m c) (Proc.devRef .tc main_v11)
    rw [Function.update_self]

/-- Every other buffer is as entered. -/
theorem exit0_rest (c : Dev nD) : ∀ b : Ref sig .tc, b ∉ Finset.univ.image (Pipeline.arrRef spec0) → V2 m (outs m) c b = V1 m c b :=
  fun b hb => V2_of m (outs m) c b (by
    intro h
    rw [List.mem_singleton] at h
    subst h
    exact hb (Finset.mem_image.mpr ⟨7, Finset.mem_univ _, rfl⟩))

/-- After the down region each of its arrays holds what the pipeline leaves: an input as entered (the gated rows
    among them), the output the result rows. -/
theorem exit1_arr (c : Dev nD) (w : Fin cfg1.W) : (dat1 (atDown m) c).arrAt w cfg1.N = V3 m (outs m) c (Pipeline.arrRef spec1 w) :=
  match w with
  | ⟨0, _⟩ => ((dat1 (atDown m) c).arrAt_in 0 rfl _).trans ((A_eq1 (atDown m) c 0).trans ((congrFun (V2_eq m c) _).symm.trans (V3_of m (outs m) c _ (by decide)).symm))
  | ⟨1, _⟩ => ((dat1 (atDown m) c).arrAt_in 1 rfl _).trans ((A_eq1 (atDown m) c 1).trans ((congrFun (V2_eq m c) _).symm.trans (V3_of m (outs m) c _ (by decide)).symm))
  | ⟨2, _⟩ => ((dat1 (atDown m) c).arrAt_in 2 rfl _).trans ((A_eq1 (atDown m) c 2).trans ((congrFun (V2_eq m c) _).symm.trans (V3_of m (outs m) c _ (by decide)).symm))
  | ⟨3, _⟩ => ((dat1 (atDown m) c).arrAt_in 3 rfl _).trans ((A_eq1 (atDown m) c 3).trans ((congrFun (V2_eq m c) _).symm.trans (V3_of m (outs m) c _ (by decide)).symm))
  | ⟨4, _⟩ => by
    show downArr m c = Function.update (V2 m (outs m) c) (Proc.devRef .tc main_v12) (outs m 3 main_v12 c) (Proc.devRef .tc main_v12)
    rw [Function.update_self, outs_down]

theorem exit1_rest (c : Dev nD) : ∀ b : Ref sig .tc, b ∉ Finset.univ.image (Pipeline.arrRef spec1) → V3 m (outs m) c b = V2 m (outs m) c b :=
  fun b hb => V3_of m (outs m) c b (by
    intro h
    rw [List.mem_singleton] at h
    subst h
    exact hb (Finset.mem_image.mpr ⟨4, Finset.mem_univ _, rfl⟩))

/-! ## The regions' proof data and the thread state -/

/-- Both pipelines' proof data, each at its region's entry contents: a literal match on the pipeline's index. -/
def pdats : (p : Fin 2) → (c : Dev nD) → Dat τ (Elt F) Unit ℕ (Pipeline.UD sig nD τ) ℕ (cfgs p) c
  | ⟨0, _⟩ => fun c => dat0 (atGate m) c
  | ⟨1, _⟩ => fun c => dat1 (atDown m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's empty debt. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

-- a library lemma stated over the pinned configuration unifies with the printed one only when unification may unfold
-- plain definitions in a metavariable's type
set_option backward.isDefEq.respectTransparency.types false in
/-- THE GATE REGION over the thread state: entered with every unscoped buffer at what the host lines left, left with
    the gated rows in place. Its arrays are split out of the unscoped buffers and put back at the exit contents; the
    generator register goes into the class invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atGate m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (fun b => V1 m c b) (fun b => V2 m (outs m) c b) ((pdats m 0 c).arrAt · cfg0.N) (fun w => exit0_arr m c w) (exit0_rest m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- THE DOWN-PROJECTION REGION over the thread state: entered with the gated rows in place, left with the result rows
    in place. Its invariant carries the two accumulators from point to point; before the first point and after the
    last it is the class invariant, the accumulators at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atDown m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (atDown m) c)
    unfold Pipeline.ΦA
    iintro ⟨Hp, -, Hr⟩
    isplitl [Hr]; · iexact Hr
    iexact Hp
  hout c := by
    rw [Pipeline.ownSems0_none]
    refine (hout1 (atDown m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (fun b => V2 m (outs m) c b) (fun b => V3 m (outs m) c b) ((pdats m 1 c).arrAt · cfg1.N) (fun w => exit1_arr m c w) (exit1_rest m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

/-! ## The frame -/

/-- Every weakly fair execution of @main ends, without a fault, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m embL () 𝒱₀ L lv (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.Frame

end
-- ==== Proof.KernelIdeal.GateBody.lean ====
import proofs.«104832_j13503377178799_1_alg».proof.Proof.Gen.KernelIdeal.Launch
import proofs.«104832_j13503377178799_1_alg».proof.Proof.Gen.KernelIdeal.Skeleton
import proofs.«104832_j13503377178799_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The gate region's body, frame half

The first pallas_call of the feed-forward block computes, per grid point `(i, j)` of an 8 x 43 grid, the block
`silu(x·w1ᵀ + 2·(x·a1ᵀ)·b1ᵀ) * (x·w3ᵀ + 2·(x·a3ᵀ)·b3ᵀ)` of the gated hidden activations. Its body loads the seven
input blocks whole (the row block of `x`, the two weight blocks, the two pairs of adapter factors), computes, and
stores the whole output block once. Here: the windows' blocks at a point read off the arrays the region finds
(`iblk0`), what the one store leaves in the output's buffer as a function of the seven input blocks (`gateOut`), the
body's triple on arbitrary whole staging buffers (`sound_kernel0`), the pipeline's proof data (`dat0`) and its body
obligation (`body_obligation0`). Everything is stated at any float model `F` and at a parameter `V`, the buffer contents
when the region is entered.
-/

-- membership in a rectangle of long axes: the elaborator's structural look recurses once per coordinate
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the gate region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of `x`): its current staging buffer holds its block at every point, whether the pipeline
    fetched it there or not (not fetched, the block index has not moved), for any proof data whose array is `V`'s
    and whose body leaves the block in place; the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the block of `w1`): its current staging buffer holds its block at every point, whether the pipeline
    fetched it there or not (not fetched, the block index has not moved), for any proof data whose array is `V`'s
    and whose body leaves the block in place; the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the block of `w3`): its current staging buffer holds its block at every point, whether the pipeline
    fetched it there or not (not fetched, the block index has not moved), for any proof data whose array is `V`'s
    and whose body leaves the block in place; the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the factor `a1`): its current staging buffer holds its block at every point, whether the pipeline
    fetched it there or not (not fetched, the block index has not moved), for any proof data whose array is `V`'s
    and whose body leaves the block in place; the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the block of `b1`): its current staging buffer holds its block at every point, whether the pipeline
    fetched it there or not (not fetched, the block index has not moved), for any proof data whose array is `V`'s
    and whose body leaves the block in place; the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the factor `a3`): its current staging buffer holds its block at every point, whether the pipeline
    fetched it there or not (not fetched, the block index has not moved), for any proof data whose array is `V`'s
    and whose body leaves the block in place; the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the block of `b3`): its current staging buffer holds its block at every point, whether the pipeline
    fetched it there or not (not fetched, the block index has not moved), for any proof data whose array is `V`'s
    and whose body leaves the block in place; the window is uncut and never idle. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every access of the body is of a whole block: the rectangles of the loads, one per block shape, -/
abbrev xRect : Rect S1024x4096 := Rect.unit (s := S1024x4096) ![0, 0] S1024x4096.size inb_S1024x4096_S1024x4096_0_0
abbrev wRect : Rect S256x4096 := Rect.unit (s := S256x4096) ![0, 0] S256x4096.size inb_S256x4096_S256x4096_0_0
abbrev aRect : Rect S16x4096 := Rect.unit (s := S16x4096) ![0, 0] S16x4096.size inb_S16x4096_S16x4096_0_0
abbrev bRect : Rect S256x16 := Rect.unit (s := S256x16) ![0, 0] S256x16.size inb_S256x16_S256x16_0_0
/-- and the one store's rectangle, the whole output block. -/
abbrev gateRect : Rect S1024x256 := Rect.unit (s := S1024x256) ![0, 0] S1024x256.size inb_S1024x256_S1024x256_0_0

/-! ## What the body leaves in the output window's buffer -/

/-- The output's staging buffer after the body, from the seven input blocks `x, w1, w3, a1, b1, a3, b3`: its one
    store, whose payload is the product of the linear branch over `w3, a3, b3` and the gated branch over
    `w1, a1, b1`, rounded to bf16. -/
def gateOut (x0 : Vec F S1024x4096 .bf16) (x1 x2 : Vec F S256x4096 .bf16) (x3 : Vec F S16x4096 .bf16) (x4 : Vec F S256x16 .bf16)
    (x5 : Vec F S16x4096 .bf16) (x6 : Vec F S256x16 .bf16) : Vec F S1024x256 .bf16 :=
  View.canon [⟨gateRect, k0_pay1 (k0_pay3 (View.ld x0 xRect) (View.ld x2 wRect) (View.ld x5 aRect) (View.ld x6 bRect))
    (k0_pay4 (View.ld x0 xRect) (View.ld x1 wRect) (View.ld x3 aRect) (View.ld x4 bRect))⟩]

/-- The one store is of the whole block, so it covers the buffer. -/
theorem gateCover (p0 : Vec F S1024x256 .bf16) (y : S1024x256.Idx) :
    ∃ pc ∈ ([⟨gateRect, p0⟩] : List (View.Piece (Elt F) S1024x256 .bf16)), y ∈ pc.1.set :=
  View.cover_of_tiled [⟨gateRect, p0⟩] S1024x256.size (by rfl) y

/-! ## The body's triple -/
set_option maxHeartbeats 1000000 in
/-- The body on whole staging buffers, the seven inputs' at read contents `x0 … x6` and the output's at anything, runs to
    the continuation holding the inputs' as they were and the output's at `gateOut` of the inputs': it is its seven
    whole-block loads, a load of the output buffer whose value is not used, and the one store. -/
theorem sound_kernel0 (c : Dev nD) (E : Set ℕ) (i : grid0.Coords) (arg2 : Memref sig .tc .vmem S1024x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S16x4096 .bf16) (harg5 : arg5.IsWhole) (arg6 : Memref sig .tc .vmem S256x16 .bf16) (harg6 : arg6.IsWhole) (arg7 : Memref sig .tc .vmem S16x4096 .bf16) (harg7 : arg7.IsWhole) (arg8 : Memref sig .tc .vmem S256x16 .bf16) (harg8 : arg8.IsWhole) (arg9 : Memref sig .tc .vmem S1024x256 .bf16) (harg9 : arg9.IsWhole)
    (x0 : Vec F S1024x4096 .bf16) (x1 x2 : Vec F S256x4096 .bf16) (x3 : Vec F S16x4096 .bf16) (x4 : Vec F S256x16 .bf16) (x5 : Vec F S16x4096 .bf16) (x6 : Vec F S256x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gateOut x0 x1 x2 x3 x4 x5 x6)) -∗ K ⟨⟩))
      ⊢ wp frame (wpE (defs₀ (F := F)) Variants.none c none) E (cc0__gate_kernel i arg2 harg2 arg3 harg3 arg4 harg4 arg5 harg5 arg6 harg6 arg7 harg7 arg8 harg8 arg9 harg9) K := by
  simp only [cc0__gate_kernel_eq_skeleton]; unfold cc0__gate_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (gateCover _)

/-! ## The pipeline's proof data -/

/-- The proof data of the gate pipeline on core `c`: the arrays as the region finds them (`V`); after the body at point
    `t` each input's buffer still at its block and the output's at `gateOut` of the seven input blocks; the invariant is
    the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => gateOut (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = gateOut (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies; the invariant and the
    core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.DownShared.lean ====
/- What the three whole-body runs of the down-projection kernel (custom_call 1, grid 16 x 43) share: each window's
   block at a point read off the region-entry contents, the two branch conditions of the body in closed form over
   the grid (the reset at the first step of the hidden axis, the output store at its last step), where the output
   window is idle, the staging and scratch memrefs, and the region invariant with the two carried scratch
   accumulators owned at some contents. -/
import proofs.«104832_j13503377178799_1_alg».proof.Proof.Gen.KernelIdeal.Launch
import proofs.«104832_j13503377178799_1_alg».proof.Proof.Gen.KernelIdeal.Skeleton
import proofs.«104832_j13503377178799_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: unfetched, the block index
    has not moved; the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: unfetched, the block index
    has not moved; the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: unfetched, the block index
    has not moved; the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place: unfetched, the block index
    has not moved; the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (the reset of the two accumulators), from the grid coordinates:
    the hidden-axis step is 0. -/
abbrev cond1_0 (i : grid1.Coords) : Prop := (Scalar.cmpi .ne (Scalar.extui (Scalar.cmpi .eq (BitVec.ofNat 32 (i 1).val) 0#32)) 0#32) = 1#1
/-- It holds at the points ≡ 0 (mod 43). -/
theorem hcond1_0 : ∀ t : Fin cfg1.N, cond1_0 (grid1.coords t) ↔ t.val % 43 = 0 :=
  (by decide +kernel : ∀ t : Fin grid1.N, cond1_0 (grid1.coords t) ↔ t.val % 43 = 0)

/-- The condition of the body's second `scf.if` (the output store): the hidden-axis step is 42, the last. -/
abbrev cond1_1 (i : grid1.Coords) : Prop := k1_cond2 i = 1#1
/-- It holds at the points ≡ 42 (mod 43). -/
theorem hcond1_1 : ∀ t : Fin cfg1.N, cond1_1 (grid1.coords t) ↔ t.val % 43 = 42 :=
  (by decide +kernel : ∀ t : Fin grid1.N, cond1_1 (grid1.coords t) ↔ t.val % 43 = 42)

/-! ## Where the windows are idle -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- The output window is idle exactly where the second condition fails. -/
theorem idle1_4_iff (i : grid1.Coords) : cfg1.idle 4 i = true ↔ ¬cond1_1 i := by
  show (!(k1_cond2 i == 1#1)) = true ↔ ¬(k1_cond2 i = 1#1)
  simp only [Bool.not_eq_true', beq_eq_false_iff_ne, ne_eq]
/-- At the first step of the hidden axis the output is idle: the body stores nothing into it. -/
theorem idleAt1_4_First : ∀ t : Fin cfg1.N, cond1_0 (grid1.coords t) → ¬cond1_1 (grid1.coords t) → cfg1.idle 4 (grid1.coords t) = true :=
  fun t _ h1 => (idle1_4_iff _).mpr h1
/-- and the pipeline does not write its block back. -/
theorem noFlush1_4_First : ∀ t : Fin cfg1.N, cond1_0 (grid1.coords t) → ¬cond1_1 (grid1.coords t) → (cfg1.win 4).flush t = false :=
  fun t _ h1 => by
    rw [← Bool.not_eq_true, flush1_4 t, ← hcond1_1 t]; exact h1
/-- At a middle step the output is idle, -/
theorem idleAt1_4_Mid : ∀ t : Fin cfg1.N, ¬cond1_0 (grid1.coords t) → ¬cond1_1 (grid1.coords t) → cfg1.idle 4 (grid1.coords t) = true :=
  fun t _ h1 => (idle1_4_iff _).mpr h1
/-- and the pipeline does not write its block back. -/
theorem noFlush1_4_Mid : ∀ t : Fin cfg1.N, ¬cond1_0 (grid1.coords t) → ¬cond1_1 (grid1.coords t) → (cfg1.win 4).flush t = false :=
  fun t _ h1 => by
    rw [← Bool.not_eq_true, flush1_4 t, ← hcond1_1 t]; exact h1
/-- At the last step the output is live: the body stores into it. -/
theorem liveAt1_4_Last : ∀ t : Fin cfg1.N, ¬cond1_0 (grid1.coords t) → cond1_1 (grid1.coords t) → cfg1.idle 4 (grid1.coords t) = false :=
  fun t _ h1 => by
    rw [← Bool.not_eq_true, idle1_4_iff]; exact not_not_intro h1

/-! ## The staging and scratch memrefs -/

/-- One staging buffer of the output window, through which its contents are stated. -/
abbrev VO1_4 : View sig .tc .vmem S512x4096 .f32 := (Memref.whole cc1_stg4_0 : Memref sig .tc .vmem S512x4096 .f32).view
/-- Each window's current staging memref at point `t`, spelled as the pipeline passes it, and its wholeness. -/
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x16 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
/-- The two scratch operands: the accumulator of the down projection and the accumulator of the adapter's inner
    product, whole scoped buffers of the kernel's own, carried from point to point. -/
abbrev scM1_0 : Memref sig .tc .vmem S512x4096 .f32 := Memref.whole cc1_scratch0
abbrev scM1_1 : Memref sig .tc .vmem S512x16 .f32 := Memref.whole cc1_scratch1
/-- The same as views: what each holds is stated through them. -/
abbrev VS1_0 : View sig .tc .vmem S512x4096 .f32 := scM1_0.view
abbrev VS1_1 : View sig .tc .vmem S512x16 .f32 := scM1_1.view

/-- The region invariant with the scratch operands as memrefs owned at some contents: the other call's staging
    buffers at some contents each, the two accumulators, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Frame

end
-- ==== Proof.KernelIdeal.DownRunFirst.lean ====
/- The whole-body run of the down-projection kernel at the first step of the hidden axis: both accumulators are reset,
   then take this step's products; the output is not stored. -/
import proofs.«104832_j13503377178799_1_alg».proof.Proof.KernelIdeal.DownShared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two carried accumulators, as pieces (last store first), AT THE FIRST STEP of the hidden axis (the reset taken, the
    output store not taken), with the proof that on whole memrefs — the three streamed inputs at their contents, the
    unread fourth input and the idle output at contents handed back untouched, the two accumulators at anything — the body
    runs to the continuation holding the inputs and the output as they were and each accumulator with its pieces written:
    the reset stores zeros into both, then each is read back and stored with this step's product added. The printed
    function is its skeleton, which the symbolic run executes, each conditional decided by the case's hypotheses; the
    pieces are the witness the run finds. -/
noncomputable def kernelRun1_First (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) :
    Σ' (LS0 : List (View.Piece (Elt F) S512x4096 .f32)), { LS1 : List (View.Piece (Elt F) S512x16 .f32) //
      ∀ (x3 : Vec F S4096x16 .bf16) (xi4 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__down_kernel i arg2 harg2 arg3 harg3 arg4 harg4 arg5 harg5 arg6 harg6 arg7 harg7 arg8 harg8) K } := by
  refine ⟨?_, ?_, fun x3 xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Frame

end
-- ==== Proof.KernelIdeal.DownRunMid.lean ====
/- The whole-body run of the down-projection kernel at a middle step of the hidden axis: both accumulators take this
   step's products on top of what they held; the output is not stored. -/
import proofs.«104832_j13503377178799_1_alg».proof.Proof.KernelIdeal.DownRunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two carried accumulators, as pieces (last store first), AT A MIDDLE STEP of the hidden axis (neither the reset nor the output
    store taken), with the proof that on whole memrefs — the three streamed inputs at their contents, the unread fourth
    input and the idle output at contents handed back untouched, the two accumulators at what the step before left — the
    body runs to the continuation holding the inputs and the output as they were and each accumulator with its piece
    written: what it held with this step's product added. -/
noncomputable def kernelRun1_Mid (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) :
    Σ' (LS0 : List (View.Piece (Elt F) S512x4096 .f32)), { LS1 : List (View.Piece (Elt F) S512x16 .f32) //
      ∀ (x3 : Vec F S4096x16 .bf16) (xi4 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__down_kernel i arg2 harg2 arg3 harg3 arg4 harg4 arg5 harg5 arg6 harg6 arg7 harg7 arg8 harg8) K } := by
  refine ⟨?_, ?_, fun x3 xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Frame

end
-- ==== Proof.KernelIdeal.DownRunLast.lean ====
/- The whole-body run of the down-projection kernel at the last step of the hidden axis: both accumulators take this
   step's products, then the output is stored from them and the fourth input. -/
import proofs.«104832_j13503377178799_1_alg».proof.Proof.KernelIdeal.DownRunMid

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- What the body's stores leave in the two carried accumulators and in the output's staging memref, as pieces (last store first), AT THE LAST STEP of the hidden axis (the reset not taken,
    the output store taken), with the proof that on whole memrefs — the four inputs at their contents, the output at anything,
    the two accumulators at what the step before left — the body runs to the continuation holding the inputs as they were,
    each accumulator with its piece written, and the output's buffer with its piece written: the finished down-projection
    accumulator plus twice the adapter's second product. -/
noncomputable def kernelRun1_Last (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) :
    Σ' (L4 : List (View.Piece (Elt F) S512x4096 .f32)) (LS0 : List (View.Piece (Elt F) S512x4096 .f32)), { LS1 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__down_kernel i arg2 harg2 arg3 harg3 arg4 harg4 arg5 harg5 arg6 harg6 arg7 harg7 arg8 harg8) K } := by
  refine ⟨?_, ?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Frame

end
-- ==== Proof.KernelIdeal.DownBody.lean ====
import proofs.«104832_j13503377178799_1_alg».proof.Proof.KernelIdeal.DownRunLast

/-!
# The down-projection region, point by point

The second pallas_call walks a 16 × 43 grid: 16 row blocks of 512 rows, and for each of them the 43
blocks of 256 hidden columns. Two accumulators live in scratch memory and are carried from one step of
the hidden axis to the next: the 512 × 4096 partial product with the down-projection weight and the
512 × 16 partial product with the adapter's first factor. At the first hidden step both are reset to zero
and then updated; at every step they are updated; at the last hidden step they are combined into the
output block, which is the only moment the output window is stored and written back.

This module states what the output's staging buffer and the two accumulators hold after each grid point
(`outsAt1`, by recursion on the point: a middle or last step reads what the step before left), the
region's invariant (`PhiS1`: both accumulators owned at exactly those contents), the proof data of the
pipeline (`dat1`) and the body obligation (`body_obligation1`), over any contents `V` of the arrays at
the region's entry and any number model `F`.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the output's buffer and in the two accumulators -/

/-- At the first step of the hidden axis nothing is stored into the output block: the window is idle there and is not
    written back, so this value (no pieces, read back over arbitrary contents) is never consulted. -/
def out1_First_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) : Vec F S512x4096 .f32 :=
  VO1_4.read (Elt F) (VO1_4.writes (Elt F) VO1_4.junk [])

/-- The stores of the first step of the hidden axis into the 512 × 4096 accumulator are whole-block stores: they cover it. -/
theorem scover1_First_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) (y : S512x4096.Idx) :
    ∃ pc ∈ (kernelRun1_First c i arg2 harg2 arg3 harg3 arg4 harg4 arg5 harg5 arg6 harg6 arg7 harg7 arg8 harg8 hc0 hc1 x0 x1 x2).1, y ∈ pc.1.set :=
  View.cover_of_tiledL (kernelRun1_First c i arg2 harg2 arg3 harg3 arg4 harg4 arg5 harg5 arg6 harg6 arg7 harg7 arg8 harg8 hc0 hc1 x0 x1 x2).1 S512x4096.size (by sl_kernel_rfl) y

/-- What the first step of the hidden axis leaves in the 512 × 4096 accumulator. -/
def sout1_First_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) : Vec F S512x4096 .f32 :=
  VS1_0.read (Elt F) (VS1_0.writes (Elt F) VS1_0.junk (kernelRun1_First c i arg2 harg2 arg3 harg3 arg4 harg4 arg5 harg5 arg6 harg6 arg7 harg7 arg8 harg8 hc0 hc1 x0 x1 x2).1)

/-- The stores of the first step of the hidden axis into the 512 × 16 accumulator are whole-block stores: they cover it. -/
theorem scover1_First_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) (y : S512x16.Idx) :
    ∃ pc ∈ (kernelRun1_First c i arg2 harg2 arg3 harg3 arg4 harg4 arg5 harg5 arg6 harg6 arg7 harg7 arg8 harg8 hc0 hc1 x0 x1 x2).2.1, y ∈ pc.1.set :=
  View.cover_of_tiledL (kernelRun1_First c i arg2 harg2 arg3 harg3 arg4 harg4 arg5 harg5 arg6 harg6 arg7 harg7 arg8 harg8 hc0 hc1 x0 x1 x2).2.1 S512x16.size (by sl_kernel_rfl) y

/-- What the first step of the hidden axis leaves in the 512 × 16 accumulator. -/
def sout1_First_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) : Vec F S512x16 .f32 :=
  VS1_1.read (Elt F) (VS1_1.writes (Elt F) VS1_1.junk (kernelRun1_First c i arg2 harg2 arg3 harg3 arg4 harg4 arg5 harg5 arg6 harg6 arg7 harg7 arg8 harg8 hc0 hc1 x0 x1 x2).2.1)

/-- At a middle step of the hidden axis nothing is stored into the output block: the window is idle there and is not
    written back, so this value (no pieces, read back over arbitrary contents) is never consulted. -/
def out1_Mid_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) : Vec F S512x4096 .f32 :=
  VO1_4.read (Elt F) (VO1_4.writes (Elt F) VO1_4.junk [])

/-- The stores of a middle step of the hidden axis into the 512 × 4096 accumulator are whole-block stores: they cover it. -/
theorem scover1_Mid_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) (y : S512x4096.Idx) :
    ∃ pc ∈ (kernelRun1_Mid c i arg2 harg2 arg3 harg3 arg4 harg4 arg5 harg5 arg6 harg6 arg7 harg7 arg8 harg8 hc0 hc1 x0 x1 x2 xs0 xs1).1, y ∈ pc.1.set :=
  View.cover_of_tiledL (kernelRun1_Mid c i arg2 harg2 arg3 harg3 arg4 harg4 arg5 harg5 arg6 harg6 arg7 harg7 arg8 harg8 hc0 hc1 x0 x1 x2 xs0 xs1).1 S512x4096.size (by sl_kernel_rfl) y

/-- What a middle step of the hidden axis leaves in the 512 × 4096 accumulator. -/
def sout1_Mid_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) : Vec F S512x4096 .f32 :=
  VS1_0.read (Elt F) (VS1_0.writes (Elt F) VS1_0.junk (kernelRun1_Mid c i arg2 harg2 arg3 harg3 arg4 harg4 arg5 harg5 arg6 harg6 arg7 harg7 arg8 harg8 hc0 hc1 x0 x1 x2 xs0 xs1).1)

/-- The stores of a middle step of the hidden axis into the 512 × 16 accumulator are whole-block stores: they cover it. -/
theorem scover1_Mid_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) (y : S512x16.Idx) :
    ∃ pc ∈ (kernelRun1_Mid c i arg2 harg2 arg3 harg3 arg4 harg4 arg5 harg5 arg6 harg6 arg7 harg7 arg8 harg8 hc0 hc1 x0 x1 x2 xs0 xs1).2.1, y ∈ pc.1.set :=
  View.cover_of_tiledL (kernelRun1_Mid c i arg2 harg2 arg3 harg3 arg4 harg4 arg5 harg5 arg6 harg6 arg7 harg7 arg8 harg8 hc0 hc1 x0 x1 x2 xs0 xs1).2.1 S512x16.size (by sl_kernel_rfl) y

/-- What a middle step of the hidden axis leaves in the 512 × 16 accumulator. -/
def sout1_Mid_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) : Vec F S512x16 .f32 :=
  VS1_1.read (Elt F) (VS1_1.writes (Elt F) VS1_1.junk (kernelRun1_Mid c i arg2 harg2 arg3 harg3 arg4 harg4 arg5 harg5 arg6 harg6 arg7 harg7 arg8 harg8 hc0 hc1 x0 x1 x2 xs0 xs1).2.1)

/-- At the last step of the hidden axis the one store into the output block is of the whole block: its pieces cover it. -/
theorem cover1_Last_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) (y : S512x4096.Idx) :
    ∃ pc ∈ (kernelRun1_Last c i arg2 harg2 arg3 harg3 arg4 harg4 arg5 harg5 arg6 harg6 arg7 harg7 arg8 harg8 hc0 hc1 x0 x1 x2 x3 xs0 xs1).1, y ∈ pc.1.set :=
  View.cover_of_tiledL (kernelRun1_Last c i arg2 harg2 arg3 harg3 arg4 harg4 arg5 harg5 arg6 harg6 arg7 harg7 arg8 harg8 hc0 hc1 x0 x1 x2 x3 xs0 xs1).1 S512x4096.size (by sl_kernel_rfl) y

/-- What the last hidden step leaves in the output's staging buffer: the stored block. -/
def out1_Last_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) : Vec F S512x4096 .f32 :=
  VO1_4.read (Elt F) (VO1_4.writes (Elt F) VO1_4.junk (kernelRun1_Last c i arg2 harg2 arg3 harg3 arg4 harg4 arg5 harg5 arg6 harg6 arg7 harg7 arg8 harg8 hc0 hc1 x0 x1 x2 x3 xs0 xs1).1)

/-- The stores of the last step of the hidden axis into the 512 × 4096 accumulator are whole-block stores: they cover it. -/
theorem scover1_Last_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) (y : S512x4096.Idx) :
    ∃ pc ∈ (kernelRun1_Last c i arg2 harg2 arg3 harg3 arg4 harg4 arg5 harg5 arg6 harg6 arg7 harg7 arg8 harg8 hc0 hc1 x0 x1 x2 x3 xs0 xs1).2.1, y ∈ pc.1.set :=
  View.cover_of_tiledL (kernelRun1_Last c i arg2 harg2 arg3 harg3 arg4 harg4 arg5 harg5 arg6 harg6 arg7 harg7 arg8 harg8 hc0 hc1 x0 x1 x2 x3 xs0 xs1).2.1 S512x4096.size (by sl_kernel_rfl) y

/-- What the last step of the hidden axis leaves in the 512 × 4096 accumulator. -/
def sout1_Last_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) : Vec F S512x4096 .f32 :=
  VS1_0.read (Elt F) (VS1_0.writes (Elt F) VS1_0.junk (kernelRun1_Last c i arg2 harg2 arg3 harg3 arg4 harg4 arg5 harg5 arg6 harg6 arg7 harg7 arg8 harg8 hc0 hc1 x0 x1 x2 x3 xs0 xs1).2.1)

/-- The stores of the last step of the hidden axis into the 512 × 16 accumulator are whole-block stores: they cover it. -/
theorem scover1_Last_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) (y : S512x16.Idx) :
    ∃ pc ∈ (kernelRun1_Last c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_Last c i arg2 harg2 arg3 harg3 arg4 harg4 arg5 harg5 arg6 harg6 arg7 harg7 arg8 harg8 hc0 hc1 x0 x1 x2 x3 xs0 xs1).2.2.1 S512x16.size (by sl_kernel_rfl) y

/-- What the last step of the hidden axis leaves in the 512 × 16 accumulator. -/
def sout1_Last_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) : Vec F S512x16 .f32 :=
  VS1_1.read (Elt F) (VS1_1.writes (Elt F) VS1_1.junk (kernelRun1_Last c i arg2 harg2 arg3 harg3 arg4 harg4 arg5 harg5 arg6 harg6 arg7 harg7 arg8 harg8 hc0 hc1 x0 x1 x2 x3 xs0 xs1).2.2.1)

/-! ## What the output and the accumulators hold after each point -/

/-- THE ACCUMULATION. After the body at position `n` of the grid: the output window's staging buffer, the
    512 × 4096 accumulator and the 512 × 16 accumulator. The closed forms of the two conditions select the case
    at `n`; a middle or last step runs over what position `n - 1` left in the two accumulators (nothing writes the
    scratch between two points). No point is both a first and a last hidden step (43 > 1). -/
def outsAt1 (c : Dev nD) : (n : ℕ) → n < cfg1.N → Vec F S512x4096 .f32 × Vec F S512x4096 .f32 × Vec F S512x16 .f32
  | 0, hn => (out1_First_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_First_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_First_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (out1_First_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_First_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_First_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_Last_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_Last_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_Last_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_Mid_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_Mid_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_Mid_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a first hidden step: that case's contents (the accumulators are reset, so nothing earlier is read). -/
theorem outsAt1_First (c : Dev nD) (t : Fin cfg1.N) (h0 : t.val % 43 = 0) (h1 : ¬t.val % 43 = 42) :
    outsAt1 V c t.val t.isLt = (out1_First_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_First_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_First_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle hidden step: that case's contents, over what the point before left in the accumulators. -/
theorem outsAt1_Mid (c : Dev nD) (t : Fin cfg1.N) (h0 : ¬t.val % 43 = 0) (h1 : ¬t.val % 43 = 42) :
    outsAt1 V c t.val t.isLt = (out1_Mid_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_Mid_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_Mid_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last hidden step: that case's contents, over what the point before left in the accumulators. -/
theorem outsAt1_Last (c : Dev nD) (t : Fin cfg1.N) (h0 : ¬t.val % 43 = 0) (h1 : t.val % 43 = 42) :
    outsAt1 V c t.val t.isLt = (out1_Last_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_Last_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_Last_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- What this region holds of the core's scoped memory and never looks at: the fourteen staging buffers of the
    first call, each whole at some contents, and the generator register at some state. -/
def rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)) ∗ (∃ r, prngReg c r))

/-- The core's scoped memory outside this call's own staging buffers, with the two accumulators held as `P0` and
    `P1` say. -/
def scoped1With (c : Dev nD) (P0 P1 : sProp 𝕄) : sProp 𝕄 :=
  iprop(rest1 (F := F) c ∗ P0 ∗ P1)

/-- The class's invariant splits into the untouched rest and the two accumulators at some contents, -/
theorem PhiA1_open (c : Dev nD) :
    (Pipeline.ΦA spec1 c : sProp 𝕄) ⊢ scoped1With c iprop(∃ d, owns (c : Thread nD τ) scM1_0 fullShare d) iprop(∃ d, owns (c : Thread nD τ) scM1_1 fullShare d) := by
  rw [PhiA1_eq]; unfold scoped1With rest1
  iintro ⟨⟨HR0, HR1, HR2, HR3, HR4, HR5, HR6, HR7, HR8, HR9, HR10, HR11, HR12, HR13, HS0, HS1⟩, Hg⟩
  isplitr [HS0 HS1]
  · isplitr [Hg]
    swap; · iexact Hg
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    iexact HR13
  isplitl [HS0]; · iexact HS0
  iexact HS1

/-- and is put back together from them. -/
theorem PhiA1_close (c : Dev nD) :
    scoped1With c iprop(∃ d, owns (c : Thread nD τ) scM1_0 fullShare d) iprop(∃ d, owns (c : Thread nD τ) scM1_1 fullShare d) ⊢ (Pipeline.ΦA spec1 c : sProp 𝕄) := by
  rw [PhiA1_eq]; unfold scoped1With rest1
  iintro ⟨⟨⟨HR0, HR1, HR2, HR3, HR4, HR5, HR6, HR7, HR8, HR9, HR10, HR11, HR12, HR13⟩, Hg⟩, HS0, HS1⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HS0]; · iexact HS0
  iexact HS1

/-- `scoped1With` is monotone in what it says of the two accumulators: the rest rides along. -/
theorem scoped1With_mono (c : Dev nD) {P0 P1 Q0 Q1 : sProp 𝕄} (h0 : P0 ⊢ Q0) (h1 : P1 ⊢ Q1) :
    scoped1With (F := F) c P0 P1 ⊢ scoped1With (F := F) c Q0 Q1 :=
  Idealize.SL.BI.sep_mono (Idealize.SL.BI.Entails.refl _) (Idealize.SL.BI.sep_mono h0 h1)

/-- The region invariant before position `n`. Before the first point of the grid it is the class's invariant
    (both accumulators at anything). Afterwards both accumulators are owned at exactly what the point before left in
    them (`outsAt1`'s second and third components); the first call's staging buffers and the generator register
    ride along untouched. -/
def PhiS1 (c : Dev nD) : (n : ℕ) → n ≤ cfg1.N → sProp 𝕄
  | 0, _ => Pipeline.ΦA spec1 c
  | n + 1, hn => scoped1With c (owns (c : Thread nD τ) scM1_0 fullShare ((outsAt1 V c n hn).2.1)) (owns (c : Thread nD τ) scM1_1 fullShare ((outsAt1 V c n hn).2.2))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = scoped1With c (owns (c : Thread nD τ) scM1_0 fullShare ((outsAt1 V c n hn).2.1)) (owns (c : Thread nD τ) scM1_1 fullShare ((outsAt1 V c n hn).2.2)) := rfl

/-- Before a point that is not the first of the grid: the accumulators at what the point before left. -/
theorem PhiS1_pos (c : Dev nD) (n : ℕ) (h : n ≤ cfg1.N) (hz : n ≠ 0) :
    PhiS1 V c n h = scoped1With c (owns (c : Thread nD τ) scM1_0 fullShare ((outsAt1 V c (n - 1) (by omega)).2.1)) (owns (c : Thread nD τ) scM1_1 fullShare ((outsAt1 V c (n - 1) (by omega)).2.2)) := by
  cases n with
  | zero => exact absurd rfl hz
  | succ n => rfl

/-- At any position the invariant gives both accumulators at SOME contents: what a first hidden step needs (it
    overwrites them whole), and what the region hands back at its end. -/
theorem PhiS1_forget (c : Dev nD) (n : ℕ) (h : n ≤ cfg1.N) :
    PhiS1 V c n h ⊢ scoped1With c iprop(∃ d, owns (c : Thread nD τ) scM1_0 fullShare d) iprop(∃ d, owns (c : Thread nD τ) scM1_1 fullShare d) := by
  cases n with
  | zero => exact PhiA1_open c
  | succ n =>
    refine scoped1With_mono c ?_ ?_
    · iintro H; iexists _; iexact H
    · iintro H; iexists _; iexact H

/-! ## The pipeline's proof data -/

/-- The proof data of the second call's pipeline on core `c`: the arrays as the region finds them (`V`); after the
    body at point `t` each input's buffer still at its block and the output's at `outsAt1`'s first component; the
    invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' staging buffers hold their blocks (`before1_W`); the closed forms say which
    case the point is in. At a first hidden step the invariant is only asked for the accumulators at SOME contents
    (`PhiS1_forget`: at the grid's first point that is the class's invariant, later what the row block before left):
    the reset overwrites them. At a middle or last step the invariant hands over the accumulators at what the point
    before left (`PhiS1_pos`), which is what `outsAt1` runs the case over. Each case's run then applies; the
    accumulators come back with their pieces written, which cover them, so they are owned at this point's contents
    (`PhiS1_succ`); the output's buffer comes back untouched where it is idle and with its covering store at a last
    step; the first call's staging buffers and the generator register are framed; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [PhiS1_castSucc V c t]
  by_cases h0 : t.val % 43 = 0
  · by_cases h1 : t.val % 43 = 42
    · exfalso; omega
    · rw [Dat.leavesExact_idle (dat1 V c) 4 t (idleAt1_4_First t ((hcond1_0 t).mpr h0) (fun h => h1 ((hcond1_1 t).mp h))) (noFlush1_4_First t ((hcond1_0 t).mpr h0) (fun h => h1 ((hcond1_1 t).mp h)))]
      rw [outsAt1_First V c t h0 h1]
      unfold sout1_First_0 sout1_First_1; (try dsimp only)
      refine (sep_mono_left (PhiS1_forget V c _ _)).trans ?_
      unfold scoped1With
      iintro ⟨⟨HR, HS0, HS1⟩, Ho, ⟨%d0, H0⟩, ⟨%d1, H1⟩, ⟨%d2, H2⟩, ⟨%d3, H3⟩, ⟨%d4, H4⟩⟩
      iapply ((kernelRun1_First c (grid1.coords t) _ _ _ _ _ _ _ _ _ _ _ _ _ _ ((hcond1_0 t).mpr h0) (fun h => h1 ((hcond1_1 t).mp h)) (iblk1 V c 0 t) (iblk1 V c 1 t) (iblk1 V c 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1]
      · isplitl [HR]; · iexact HR
        isplitl [HS0]
        · unfold owns; iexists _; isplitr
          swap; · iexact HS0
          ipureintro; exact View.read_writes_of_cover _ _ _ _ _ (scover1_First_0 c _ _ _ _ _ _ _ _ _ _ _ _ _ _ _ _ _ _ _ _)
        · unfold owns; iexists _; isplitr
          swap; · iexact HS1
          ipureintro; exact View.read_writes_of_cover _ _ _ _ _ (scover1_First_1 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 43 = 42
    · rw [show (dat1 V c).leavesExact 4 t = owns (c : Thread nD τ) (ms1_4 t) fullShare ((dat1 V c).after 4 t) from by
        unfold Dat.leavesExact; rw [liveAt1_4_Last t (fun h => h0 ((hcond1_0 t).mp h)) ((hcond1_1 t).mpr h1)], after1_4]
      rw [outsAt1_Last V c t h0 h1]
      unfold out1_Last_4 sout1_Last_0 sout1_Last_1; (try dsimp only)
      rw [PhiS1_pos V c _ _ hz]
      unfold scoped1With
      iintro ⟨⟨HR, HS0, HS1⟩, Ho, ⟨%d0, H0⟩, ⟨%d1, H1⟩, ⟨%d2, H2⟩, ⟨%d3, H3⟩, ⟨%d4, H4⟩⟩
      iapply ((kernelRun1_Last c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1]
      · isplitl [HR]; · iexact HR
        isplitl [HS0]
        · unfold owns; iexists _; isplitr
          swap; · iexact HS0
          ipureintro; exact View.read_writes_of_cover _ _ _ _ _ (scover1_Last_0 c _ _ _ _ _ _ _ _ _ _ _ _ _ _ _ _ _ _ _ _ _ _ _)
        · unfold owns; iexists _; isplitr
          swap; · iexact HS1
          ipureintro; exact View.read_writes_of_cover _ _ _ _ _ (scover1_Last_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_Last_4 c _ _ _ _ _ _ _ _ _ _ _ _ _ _ _ _ _ _ _ _ _ _ _)
    · rw [Dat.leavesExact_idle (dat1 V c) 4 t (idleAt1_4_Mid t (fun h => h0 ((hcond1_0 t).mp h)) (fun h => h1 ((hcond1_1 t).mp h))) (noFlush1_4_Mid t (fun h => h0 ((hcond1_0 t).mp h)) (fun h => h1 ((hcond1_1 t).mp h)))]
      rw [outsAt1_Mid V c t h0 h1]
      unfold sout1_Mid_0 sout1_Mid_1; (try dsimp only)
      rw [PhiS1_pos V c _ _ hz]
      unfold scoped1With
      iintro ⟨⟨HR, HS0, HS1⟩, Ho, ⟨%d0, H0⟩, ⟨%d1, H1⟩, ⟨%d2, H2⟩, ⟨%d3, H3⟩, ⟨%d4, H4⟩⟩
      iapply ((kernelRun1_Mid c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1]
      · isplitl [HR]; · iexact HR
        isplitl [HS0]
        · unfold owns; iexists _; isplitr
          swap; · iexact HS0
          ipureintro; exact View.read_writes_of_cover _ _ _ _ _ (scover1_Mid_0 c _ _ _ _ _ _ _ _ _ _ _ _ _ _ _ _ _ _ _ _ _ _)
        · unfold owns; iexists _; isplitr
          swap; · iexact HS1
          ipureintro; exact View.read_writes_of_cover _ _ _ _ _ (scover1_Mid_1 c _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the accumulators hold is forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  exact (PhiS1_forget V c _ _).trans (PhiA1_close c)

/-- The same after the last point. -/
theorem hout1 (c : Dev nD) : (dat1 V c).Φ (Fin.last cfg1.N) ⊢ Pipeline.ΦA spec1 c :=
  Phi_out1 V c _

end Cert.KernelIdeal.Frame

end
-- ==== Proof.KernelIdeal.TwoRegions.lean ====
/-
  The two kernel regions run one after the other: the gate kernel writes the gated hidden rows into one array, the
  down-projection kernel reads that array and writes the result rows. Between the regions a core holds every
  unscoped buffer whole: the arrays the host lines before the regions made, then the gate kernel's output array at
  what its 344 write-backs leave, then the down kernel's output array at what its 16 write-backs leave. Each region
  takes its windows' arrays out of those buffers at entry and puts them back at exit; the generator register and the
  core's empty debt ride along. Nothing is owed between cores and neither kernel has a semaphore of its own.
-/
import proofs.«104832_j13503377178799_1_alg».proof.Proof.KernelIdeal.GateBody
import proofs.«104832_j13503377178799_1_alg».proof.Proof.KernelIdeal.DownBody
import proofs.«104832_j13503377178799_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the regions' boundaries -/

/-- What the gate kernel finds: the launch memory after the host lines before the regions. -/
abbrev atGate : (c : Dev nD) → (b : Ref sig .tc) → Buf (Elt F) ((c : Thread nD τ).loc b) := fun c b => V1 m c b

/-- The gated hidden rows: the gate kernel's output array after its last point. -/
def gateArr (c : Dev nD) : Buf (Elt F) ((c : Thread nD τ).loc main_v11) := (dat0 (atGate m) c).arrAt 7 cfg0.N

/-- What the down kernel finds: the same buffers with the gated rows in place. -/
def midVal (c : Dev nD) : Valuation τ sig (Elt F) := Function.update (V1 m c) main_v11 (gateArr m c)
abbrev atDown : (c : Dev nD) → (b : Ref sig .tc) → Buf (Elt F) ((c : Thread nD τ).loc b) := fun c b => midVal m c b

/-- The result rows: the down kernel's output array after its last point. -/
def downArr (c : Dev nD) : Buf (Elt F) ((c : Thread nD τ).loc main_v12) := (dat1 (atDown m) c).arrAt 4 cfg1.N

/-- What the regions leave in the arrays they write, as the conditional run wants it: a family over every
    reference, read only at the two output arrays. -/
def outs : Outs (F := F) := fun _ r c =>
  if h : r = main_v11 then h ▸ gateArr m c
  else if h' : r = main_v12 then h' ▸ downArr m c
  else m ((c : Thread nD τ).loc r)

theorem outs_gate (c : Dev nD) : outs m 2 main_v11 c = gateArr m c := by
  unfold outs; rw [dif_pos rfl]
theorem outs_down (c : Dev nD) : outs m 3 main_v12 c = downArr m c := by
  unfold outs; rw [dif_neg (by decide), dif_pos rfl]

theorem V2_eq (c : Dev nD) : V2 m (outs m) c = midVal m c := by
  show Function.update (V1 m c) main_v11 (outs m 2 main_v11 c) = _
  rw [outs_gate]; rfl

/-! ## What each region's exit contents are, buffer by buffer -/

/-- After the gate region each of its arrays holds what the pipeline leaves: an input as entered, the output the
    gated rows. -/
theorem exit0_arr (c : Dev nD) (w : Fin cfg0.W) : (dat0 (atGate m) c).arrAt w cfg0.N = V2 m (outs m) c (Pipeline.arrRef spec0 w) :=
  match w with
  | ⟨0, _⟩ => ((dat0 (atGate m) c).arrAt_in 0 rfl _).trans ((A_eq0 (atGate m) c 0).trans (V2_of m (outs m) c _ (by decide)).symm)
  | ⟨1, _⟩ => ((dat0 (atGate m) c).arrAt_in 1 rfl _).trans ((A_eq0 (atGate m) c 1).trans (V2_of m (outs m) c _ (by decide)).symm)
  | ⟨2, _⟩ => ((dat0 (atGate m) c).arrAt_in 2 rfl _).trans ((A_eq0 (atGate m) c 2).trans (V2_of m (outs m) c _ (by decide)).symm)
  | ⟨3, _⟩ => ((dat0 (atGate m) c).arrAt_in 3 rfl _).trans ((A_eq0 (atGate m) c 3).trans (V2_of m (outs m) c _ (by decide)).symm)
  | ⟨4, _⟩ => ((dat0 (atGate m) c).arrAt_in 4 rfl _).trans ((A_eq0 (atGate m) c 4).trans (V2_of m (outs m) c _ (by decide)).symm)
  | ⟨5, _⟩ => ((dat0 (atGate m) c).arrAt_in 5 rfl _).trans ((A_eq0 (atGate m) c 5).trans (V2_of m (outs m) c _ (by decide)).symm)
  | ⟨6, _⟩ => ((dat0 (atGate m) c).arrAt_in 6 rfl _).trans ((A_eq0 (atGate m) c 6).trans (V2_of m (outs m) c _ (by decide)).symm)
  | ⟨7, _⟩ => by
    rw [V2_eq]
    show gateArr m c = Function.update (V1 m c) (Proc.devRef .tc main_v11) (gateArr m c) (Proc.devRef .tc main_v11)
    rw [Function.update_self]

/-- Every other buffer is as entered. -/
theorem exit0_rest (c : Dev nD) : ∀ b : Ref sig .tc, b ∉ Finset.univ.image (Pipeline.arrRef spec0) → V2 m (outs m) c b = V1 m c b :=
  fun b hb => V2_of m (outs m) c b (by
    intro h
    rw [List.mem_singleton] at h
    subst h
    exact hb (Finset.mem_image.mpr ⟨7, Finset.mem_univ _, rfl⟩))

/-- After the down region each of its arrays holds what the pipeline leaves: an input as entered (the gated rows
    among them), the output the result rows. -/
theorem exit1_arr (c : Dev nD) (w : Fin cfg1.W) : (dat1 (atDown m) c).arrAt w cfg1.N = V3 m (outs m) c (Pipeline.arrRef spec1 w) :=
  match w with
  | ⟨0, _⟩ => ((dat1 (atDown m) c).arrAt_in 0 rfl _).trans ((A_eq1 (atDown m) c 0).trans ((congrFun (V2_eq m c) _).symm.trans (V3_of m (outs m) c _ (by decide)).symm))
  | ⟨1, _⟩ => ((dat1 (atDown m) c).arrAt_in 1 rfl _).trans ((A_eq1 (atDown m) c 1).trans ((congrFun (V2_eq m c) _).symm.trans (V3_of m (outs m) c _ (by decide)).symm))
  | ⟨2, _⟩ => ((dat1 (atDown m) c).arrAt_in 2 rfl _).trans ((A_eq1 (atDown m) c 2).trans ((congrFun (V2_eq m c) _).symm.trans (V3_of m (outs m) c _ (by decide)).symm))
  | ⟨3, _⟩ => ((dat1 (atDown m) c).arrAt_in 3 rfl _).trans ((A_eq1 (atDown m) c 3).trans ((congrFun (V2_eq m c) _).symm.trans (V3_of m (outs m) c _ (by decide)).symm))
  | ⟨4, _⟩ => by
    show downArr m c = Function.update (V2 m (outs m) c) (Proc.devRef .tc main_v12) (outs m 3 main_v12 c) (Proc.devRef .tc main_v12)
    rw [Function.update_self, outs_down]

theorem exit1_rest (c : Dev nD) : ∀ b : Ref sig .tc, b ∉ Finset.univ.image (Pipeline.arrRef spec1) → V3 m (outs m) c b = V2 m (outs m) c b :=
  fun b hb => V3_of m (outs m) c b (by
    intro h
    rw [List.mem_singleton] at h
    subst h
    exact hb (Finset.mem_image.mpr ⟨4, Finset.mem_univ _, rfl⟩))

/-! ## The regions' proof data and the thread state -/

/-- Both pipelines' proof data, each at its region's entry contents: a literal match on the pipeline's index. -/
def pdats : (p : Fin 2) → (c : Dev nD) → Dat τ (Elt F) Unit ℕ (Pipeline.UD sig nD τ) ℕ (cfgs p) c
  | ⟨0, _⟩ => fun c => dat0 (atGate m) c
  | ⟨1, _⟩ => fun c => dat1 (atDown m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's empty debt. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

-- a library lemma stated over the pinned configuration unifies with the printed one only when unification may unfold
-- plain definitions in a metavariable's type
set_option backward.isDefEq.respectTransparency.types false in
/-- THE GATE REGION over the thread state: entered with every unscoped buffer at what the host lines left, left with
    the gated rows in place. Its arrays are split out of the unscoped buffers and put back at the exit contents; the
    generator register goes into the class invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atGate m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (fun b => V1 m c b) (fun b => V2 m (outs m) c b) ((pdats m 0 c).arrAt · cfg0.N) (fun w => exit0_arr m c w) (exit0_rest m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- THE DOWN-PROJECTION REGION over the thread state: entered with the gated rows in place, left with the result rows
    in place. Its invariant carries the two accumulators from point to point; before the first point and after the
    last it is the class invariant, the accumulators at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atDown m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (fun b => V2 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (atDown m) c)
    unfold Pipeline.ΦA
    iintro ⟨Hp, -, Hr⟩
    isplitl [Hr]; · iexact Hr
    iexact Hp
  hout c := by
    rw [Pipeline.ownSems0_none]
    refine (hout1 (atDown m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (fun b => V2 m (outs m) c b) (fun b => V3 m (outs m) c b) ((pdats m 1 c).arrAt · cfg1.N) (fun w => exit1_arr m c w) (exit1_rest m c)
    rw [Pipeline.unscopedBufs_held] at hjoin
    iintro ⟨Ha, HO, HY, Hrest⟩
    imodintro
    isplitl [Ha Hrest]
    · iapply hjoin; isplitl [Ha] <;> iassumption
    isplitl [HY]
    · iexact HY
    unfold Pipeline.Dat.owesAt Pipeline.owesWithin
    icases HO with ⟨%W, -, HO⟩; iexists W; iexact HO

/-! ## The frame -/

/-- Every weakly fair execution of @main ends, without a fault, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m embL () 𝒱₀ L lv (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Frame

end
-- ==== Proof.RunValue.lean ====
/-
  The run of the two regions read at the result array as well: every weakly fair execution of the kernel's program
  ends with the result at what the last host line (laying the 8192 rows back out) makes of the down-projection
  kernel's output array, and with every argument array as launched.
-/
import proofs.«104832_j13503377178799_1_alg».proof.Proof.KernelIdeal.TwoRegions
import proofs.«104832_j13503377178799_1_alg».proof.Proof.KernelIdeal.RegionsRun

noncomputable section

namespace Cert.KernelIdeal.RunValue

open Cert.KernelIdeal Cert.KernelIdeal.Gen Cert.KernelIdeal.Frame
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem run_main : θ_run defs (onTc (τ := τ) (main (F := F))) ⟨m, fun _ => 0, ρ⟩ (fun r => ∀ c : Dev nD,
      r.2.mem ((c.tc : Thread nD τ).loc main_v13) = V4 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Cert.KernelIdeal.GenP.run_cond m embL () 𝒱₀ L lv (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.RunValue

end
-- ==== Proof.HostValue.lean ====
/-
  What the host lines around the two kernel regions compute, read on the extended reals: before the regions the
  input is laid out as 8192 rows and every array is narrowed to bf16, which changes nothing there (a change of
  float format is the identity on the extended reals); after them the 8192 result rows are laid back out as
  [4, 2048, 4096].
-/
import proofs.«104832_j13503377178799_1_alg».proof.Proof.Gen.KernelIdeal.Regions
import Idealize.ShloMosaic.Lib.StableHlo.Run
import Idealize.ShloMosaic.Lib.ValueIdx

noncomputable section

namespace Cert.KernelIdeal.HostValue

open Cert.KernelIdeal Cert.KernelIdeal.Gen
open Idealize.ShloMosaic Idealize.ShloMosaic.TcCoe Idealize.SL.Sem

variable (m : (ℓ : Loc nD τ sig) → Buf (Elt Ideal) ℓ) (outs : Outs (F := Ideal))

/-- The rows the gate kernel reads: the input's positions, row-major. -/
theorem rows (c : Dev nD) : (V1 m c main_v1 : S8192x4096.Idx → EReal)
    = shapeCast S8192x4096 (m ((c : Thread nD τ).loc main_arg0)) Facts₀.shapeCasts_S4x2048x4096_S8192x4096 := by
  dsimp only [V1, V0, hostOps0]; after_results; rfl

theorem w1 (c : Dev nD) : (V1 m c main_v2 : S11008x4096.Idx → EReal) = m ((c : Thread nD τ).loc main_arg1) := by
  dsimp only [V1, V0, hostOps0]; after_results; rfl
theorem w3 (c : Dev nD) : (V1 m c main_v3 : S11008x4096.Idx → EReal) = m ((c : Thread nD τ).loc main_arg2) := by
  dsimp only [V1, V0, hostOps0]; after_results; rfl
theorem w2 (c : Dev nD) : (V1 m c main_v4 : S4096x11008.Idx → EReal) = m ((c : Thread nD τ).loc main_arg3) := by
  dsimp only [V1, V0, hostOps0]; after_results; rfl
theorem a1 (c : Dev nD) : (V1 m c main_v5 : S16x4096.Idx → EReal) = m ((c : Thread nD τ).loc main_arg4) := by
  dsimp only [V1, V0, hostOps0]; after_results; rfl
theorem b1 (c : Dev nD) : (V1 m c main_v6 : S11008x16.Idx → EReal) = m ((c : Thread nD τ).loc main_arg5) := by
  dsimp only [V1, V0, hostOps0]; after_results; rfl
theorem a3 (c : Dev nD) : (V1 m c main_v7 : S16x4096.Idx → EReal) = m ((c : Thread nD τ).loc main_arg6) := by
  dsimp only [V1, V0, hostOps0]; after_results; rfl
theorem b3 (c : Dev nD) : (V1 m c main_v8 : S11008x16.Idx → EReal) = m ((c : Thread nD τ).loc main_arg7) := by
  dsimp only [V1, V0, hostOps0]; after_results; rfl
theorem a2 (c : Dev nD) : (V1 m c main_v9 : S16x11008.Idx → EReal) = m ((c : Thread nD τ).loc main_arg8) := by
  dsimp only [V1, V0, hostOps0]; after_results; rfl
theorem b2 (c : Dev nD) : (V1 m c main_v10 : S4096x16.Idx → EReal) = m ((c : Thread nD τ).loc main_arg9) := by
  dsimp only [V1, V0, hostOps0]; after_results; rfl

/-- The result: the down kernel's output rows laid back out. -/
theorem result (c : Dev nD) : (V4 m outs c main_v13 : S4x2048x4096.Idx → EReal)
    = shapeCast S4x2048x4096 (V3 m outs c main_v12 : S8192x4096.Idx → EReal) Facts₀.shapeCasts_S8192x4096_S4x2048x4096 := by
  dsimp only [V4, hostOps2]; after_results; rfl

end Cert.KernelIdeal.HostValue

end
-- ==== Proof.Spec.lean ====
/-
  The mathematics both programs compute, on the extended reals.

  A linear layer with a low-rank adapter maps a row x_p (K entries) to, for each output o,
      Σ_d x_p[d] · w[o, d]  +  (Σ_r (Σ_d x_p[d] · a[r, d]) · b[o, r]) · 2,
  the base product plus the rank-R product scaled by alpha / r = 2. The feed-forward block applies two such
  layers to the same rows, gates one by the other through silu (v · logistic v), and applies a third layer to
  the gated rows. The rows are the 4 × 2048 positions of the input laid out row-major as 8192 rows.

  Nothing here needs finiteness: only sums, products and the one-argument logistic appear, each side applying
  them in the same order to the same operands; what differs between the two programs is the grouping of the
  sums over the hidden axis, and addition on the extended reals is commutative and associative.
-/
import Idealize.ShloMosaic.PureOps.Ideal
import Idealize.ShloMosaic.Lib.ValueIdx
import Idealize.ShloMosaic.Lib.Pipeline.Value

noncomputable section

open scoped BigOperators

namespace Cert.LoraFfn

open Idealize.ShloMosaic Idealize.ShloMosaic.ValueIdx

/-- The adapters' scale alpha / r = 2, as the binary32 literal both programs print. -/
def two : EReal := Ideal.ofBits .f32 0x40000000#32

/-- silu: v · logistic v. -/
def silu (v : EReal) : EReal := v * Ideal.logistic v

variable {M K N R : ℕ} {φx φw φa φb : FTy}

/-- One entry of a linear layer with its low-rank adapter: row p of x against output o. -/
def linAt (x : FVec Ideal ⟨2, ![M, K]⟩ φx) (w : FVec Ideal ⟨2, ![N, K]⟩ φw) (a : FVec Ideal ⟨2, ![R, K]⟩ φa)
    (b : FVec Ideal ⟨2, ![N, R]⟩ φb) (p : Fin M) (o : Fin N) : EReal :=
  (∑ d : Fin K, x (ix2 p d) * w (ix2 o d)) + (∑ r : Fin R, (∑ d : Fin K, x (ix2 p d) * a (ix2 r d)) * b (ix2 o r)) * two

/-- The layer as an array [M, N]. -/
def lin (x : FVec Ideal ⟨2, ![M, K]⟩ φx) (w : FVec Ideal ⟨2, ![N, K]⟩ φw) (a : FVec Ideal ⟨2, ![R, K]⟩ φa)
    (b : FVec Ideal ⟨2, ![N, R]⟩ φb) : FVec Ideal ⟨2, ![M, N]⟩ .f32 :=
  fun i => linAt x w a b (i 0) (i 1)

theorem lin_apply (x : FVec Ideal ⟨2, ![M, K]⟩ φx) (w : FVec Ideal ⟨2, ![N, K]⟩ φw) (a : FVec Ideal ⟨2, ![R, K]⟩ φa)
    (b : FVec Ideal ⟨2, ![N, R]⟩ φb) (p : Fin M) (o : Fin N) : lin x w a b (ix2 p o) = linAt x w a b p o := rfl

/-- The gated hidden rows: silu of the first layer times the second layer, entry by entry. -/
def gate (x : FVec Ideal ⟨2, ![M, K]⟩ φx) (w1 w3 : FVec Ideal ⟨2, ![N, K]⟩ φw) (a1 a3 : FVec Ideal ⟨2, ![R, K]⟩ φa)
    (b1 b3 : FVec Ideal ⟨2, ![N, R]⟩ φb) : FVec Ideal ⟨2, ![M, N]⟩ .f32 :=
  fun i => silu (linAt x w1 a1 b1 (i 0) (i 1)) * linAt x w3 a3 b3 (i 0) (i 1)

theorem gate_apply (x : FVec Ideal ⟨2, ![M, K]⟩ φx) (w1 w3 : FVec Ideal ⟨2, ![N, K]⟩ φw) (a1 a3 : FVec Ideal ⟨2, ![R, K]⟩ φa)
    (b1 b3 : FVec Ideal ⟨2, ![N, R]⟩ φb) (p : Fin M) (o : Fin N) :
    gate x w1 w3 a1 a3 b1 b3 (ix2 p o) = silu (linAt x w1 a1 b1 p o) * linAt x w3 a3 b3 p o := rfl

/-- The whole block on the 8192 rows: the third layer applied to the gated rows. -/
def ffnRows (x : FVec Ideal ⟨2, ![8192, 4096]⟩ .f32) (w1 w3 : FVec Ideal ⟨2, ![11008, 4096]⟩ .f32)
    (w2 : FVec Ideal ⟨2, ![4096, 11008]⟩ .f32) (a1 : FVec Ideal ⟨2, ![16, 4096]⟩ .f32) (b1 : FVec Ideal ⟨2, ![11008, 16]⟩ .f32)
    (a3 : FVec Ideal ⟨2, ![16, 4096]⟩ .f32) (b3 : FVec Ideal ⟨2, ![11008, 16]⟩ .f32)
    (a2 : FVec Ideal ⟨2, ![16, 11008]⟩ .f32) (b2 : FVec Ideal ⟨2, ![4096, 16]⟩ .f32) : FVec Ideal ⟨2, ![8192, 4096]⟩ .f32 :=
  lin (gate x w1 w3 a1 a3 b1 b3) w2 a2 b2

/-- The block on the input as given, [4, 2048, 4096]: its 8192 positions taken row-major as rows, and the rows of
    the result laid back out as [4, 2048, 4096]. -/
def ffn (x : FVec Ideal ⟨3, ![4, 2048, 4096]⟩ .f32) (w1 w3 : FVec Ideal ⟨2, ![11008, 4096]⟩ .f32)
    (w2 : FVec Ideal ⟨2, ![4096, 11008]⟩ .f32) (a1 : FVec Ideal ⟨2, ![16, 4096]⟩ .f32) (b1 : FVec Ideal ⟨2, ![11008, 16]⟩ .f32)
    (a3 : FVec Ideal ⟨2, ![16, 4096]⟩ .f32) (b3 : FVec Ideal ⟨2, ![11008, 16]⟩ .f32)
    (a2 : FVec Ideal ⟨2, ![16, 11008]⟩ .f32) (b2 : FVec Ideal ⟨2, ![4096, 16]⟩ .f32)
    (hin : (⟨3, ![4, 2048, 4096]⟩ : Shape).ShapeCasts ⟨2, ![8192, 4096]⟩)
    (hout : (⟨2, ![8192, 4096]⟩ : Shape).ShapeCasts ⟨3, ![4, 2048, 4096]⟩) : FVec Ideal ⟨3, ![4, 2048, 4096]⟩ .f32 :=
  shapeCast ⟨3, ![4, 2048, 4096]⟩ (ffnRows (shapeCast ⟨2, ![8192, 4096]⟩ x hin) w1 w3 w2 a1 b1 a3 b3 a2 b2) hout

/-- A sum over the hidden axis taken block by block: 43 blocks of 256 (11008 = 43 · 256). Addition on the
    extended reals is commutative and associative, so the grouping does not matter. -/
theorem sum_blocks (f : Fin 11008 → EReal) :
    (∑ h : Fin 11008, f h) = ∑ k : Fin 43, ∑ j : Fin 256, f ⟨256 * k.val + j.val, by have := k.isLt; have := j.isLt; omega⟩ := by
  -- pairs (k, j) enumerate Fin (43 * 256) by (k, j) ↦ j + 256 * k; sum over the pairs, then split the pair sum
  rw [← Fintype.sum_prod_type' (f := fun (k : Fin 43) (j : Fin 256) =>
    f ⟨256 * k.val + j.val, by have := k.isLt; have := j.isLt; omega⟩)]
  rw [← (finProdFinEquiv (m := 43) (n := 256)).sum_comp]
  refine Finset.sum_congr rfl (fun p _ => ?_)
  congr 1
  apply Fin.ext
  simp [finProdFinEquiv]
  omega

end Cert.LoraFfn

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.GatePayload.lean ====
/-
  The gate kernel's block payload read at an entry.

  One grid point of the gate kernel holds 1024 rows of x and 256 hidden columns. For each of the two
  adapted layers it forms the base product x · wᵀ, the low-rank product (x · aᵀ) · bᵀ scaled by 2, and their sum;
  it then multiplies silu of the first layer's entry by the second layer's entry. Every product is a plain
  row-by-column contraction into a zero accumulator, every transpose swaps the two coordinates, and the
  changes of format are the identity on the extended reals, so entry (p, q) of the payload is entry (p, q) of
  the specification's gate on the block's operands.
-/
import proofs.«104832_j13503377178799_1_alg».proof.Proof.Gen.KernelIdeal.Skeleton
import proofs.«104832_j13503377178799_1_alg».proof.Proof.Spec
import proofs.«104832_j13503377178799_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.GateValue

open Cert.KernelIdeal Cert.KernelIdeal.Gen Idealize.ShloMosaic Idealize.ShloMosaic.ValueIdx

/-- A matrix transposed, read at (k, q): the matrix at (q, k). -/
theorem transpose_swap_apply {A B : ℕ} {α : Type} (x : (⟨2, ![A, B]⟩ : Shape).Idx → α)
    (h : (⟨2, ![A, B]⟩ : Shape).Transposes [1, 0] ⟨2, ![B, A]⟩) (k : Fin B) (q : Fin A) :
    transpose ⟨2, ![B, A]⟩ [1, 0] x h (ix2 k q) = x (ix2 q k) :=
  transpose_apply [1, 0] x h (ix2 k q) (ix2 q k) (fun b => match b with | ⟨0, _⟩ => rfl | ⟨1, _⟩ => rfl)

/-- The three products of a layer are plain row-by-column contractions. -/
theorem plain_base : PlainDot.IsPlain dot_S1024x4096_S4096x256_S1024x256_1_0_0_1_n_n := ⟨rfl, rfl, rfl, rfl, rfl, rfl⟩

theorem plain_down : PlainDot.IsPlain dot_S1024x4096_S4096x16_S1024x16_1_0_0_1_n_n := ⟨rfl, rfl, rfl, rfl, rfl, rfl⟩

theorem plain_up : PlainDot.IsPlain dot_S1024x16_S16x256_S1024x256_1_0_0_1_n_n := ⟨rfl, rfl, rfl, rfl, rfl, rfl⟩

/-- One adapted layer of the block at (p, q): the base product plus the scaled low-rank product. -/
theorem lin_block (x : FVec Ideal S1024x4096 .bf16) (w : FVec Ideal S256x4096 .bf16) (a : FVec Ideal S16x4096 .bf16)
    (b : FVec Ideal S256x16 .bf16) (p : Fin 1024) (q : Fin 256) :
    addf (matmul dot_S1024x4096_S4096x256_S1024x256_1_0_0_1_n_n none x
            (transpose S4096x256 [1, 0] w transposes_S256x4096_p1_0_S4096x256) (constant S1024x256 .f32 0x00000000#32))
        (mulf (matmul dot_S1024x16_S16x256_S1024x256_1_0_0_1_n_n none
                (truncf .bf16 (matmul dot_S1024x4096_S4096x16_S1024x16_1_0_0_1_n_n none x
                    (transpose S4096x16 [1, 0] a transposes_S16x4096_p1_0_S4096x16) (constant S1024x16 .f32 0x00000000#32)) bitsLt_bf16_f32)
                (transpose S16x256 [1, 0] b transposes_S256x16_p1_0_S16x256) (constant S1024x256 .f32 0x00000000#32))
            (broadcast S1024x256 (Scalar.ofBits .f32 0x40000000#32))) (ix2 p q)
      = Cert.LoraFfn.linAt (φx := .bf16) (φw := .bf16) (φa := .bf16) (φb := .bf16) x w a b p q := by
  have hbase : matmul dot_S1024x4096_S4096x256_S1024x256_1_0_0_1_n_n none x
      (transpose S4096x256 [1, 0] w transposes_S256x4096_p1_0_S4096x256) (constant S1024x256 .f32 0x00000000#32) (ix2 p q)
      = ∑ d : Fin 4096, x (ix2 p d) * w (ix2 q d) := by
    refine (PlainDot.matmul_zero_apply plain_base none x _ p q).trans ?_
    exact Finset.sum_congr rfl fun d _ => by rw [transpose_swap_apply]
  have hdown : ∀ r : Fin 16, (truncf .bf16 (matmul dot_S1024x4096_S4096x16_S1024x16_1_0_0_1_n_n none x
      (transpose S4096x16 [1, 0] a transposes_S16x4096_p1_0_S4096x16) (constant S1024x16 .f32 0x00000000#32)) bitsLt_bf16_f32 :
        FVec Ideal S1024x16 .bf16) (ix2 p r) = ∑ d : Fin 4096, x (ix2 p d) * a (ix2 r d) := by
    intro r
    rw [truncf_apply]
    refine (PlainDot.matmul_zero_apply plain_down none x _ p r).trans ?_
    exact Finset.sum_congr rfl fun d _ => by rw [transpose_swap_apply]
  have hup : matmul dot_S1024x16_S16x256_S1024x256_1_0_0_1_n_n none
      (truncf .bf16 (matmul dot_S1024x4096_S4096x16_S1024x16_1_0_0_1_n_n none x
          (transpose S4096x16 [1, 0] a transposes_S16x4096_p1_0_S4096x16) (constant S1024x16 .f32 0x00000000#32)) bitsLt_bf16_f32)
      (transpose S16x256 [1, 0] b transposes_S256x16_p1_0_S16x256) (constant S1024x256 .f32 0x00000000#32) (ix2 p q)
      = ∑ r : Fin 16, (∑ d : Fin 4096, x (ix2 p d) * a (ix2 r d)) * b (ix2 q r) := by
    refine (PlainDot.matmul_zero_apply plain_up none _ _ p q).trans ?_
    exact Finset.sum_congr rfl fun r _ => by rw [hdown r, transpose_swap_apply]
  rw [addf_apply, mulf_apply, broadcast_apply, hbase, hup]
  rfl

/-- The block's payload at (p, q): silu of the first layer's entry times the second layer's entry. -/
theorem gate_payload (x0 : Vec Ideal S1024x4096 .bf16) (x1 x2 : Vec Ideal S256x4096 .bf16) (x3 : Vec Ideal S16x4096 .bf16)
    (x4 : Vec Ideal S256x16 .bf16) (x5 : Vec Ideal S16x4096 .bf16) (x6 : Vec Ideal S256x16 .bf16) (p : Fin 1024) (q : Fin 256) :
    k0_pay1 (k0_pay3 x0 x2 x5 x6) (k0_pay4 x0 x1 x3 x4) (ix2 p q)
      = Cert.LoraFfn.silu (Cert.LoraFfn.linAt (φx := .bf16) (φw := .bf16) (φa := .bf16) (φb := .bf16) x0 x1 x3 x4 p q)
          * Cert.LoraFfn.linAt (φx := .bf16) (φw := .bf16) (φa := .bf16) (φb := .bf16) x0 x2 x5 x6 p q := by
  have e1 := lin_block x0 x1 x3 x4 p q
  have e2 := lin_block x0 x2 x5 x6 p q
  unfold k0_pay1 k0_pay3 k0_pay4 k0_pay2
  simp only [shapeCast_self]
  unfold Cert.LoraFfn.silu
  rw [← e1, ← e2]
  rfl

end Cert.KernelIdeal.GateValue

end
-- ==== Proof.GateValue.lean ====
/-
  The gate region's output array.

  The gate kernel runs over an 8 × 43 grid; point (i, j) stores block (i, j) of the output, 1024 rows by 256
  hidden columns, computed from rows 1024 i … of x, rows 256 j … of the two weights and of the two up factors,
  and the two down factors whole. Each block entry is the specification's gate at the corresponding entry of
  the arrays, and the 8 × 43 blocks tile the 8192 × 11008 output, so after the last point the output array is
  the specification's gate of the seven input arrays.
-/
import proofs.«104832_j13503377178799_1_alg».proof.Proof.KernelIdeal.GateBody
import proofs.«104832_j13503377178799_1_alg».proof.Proof.GatePayload
import Idealize.ShloMosaic.Lib.Pipeline.Value
import Idealize.ShloMosaic.Lib.Decide

noncomputable section

open scoped BigOperators

namespace Cert.KernelIdeal.GateValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => match a with | ⟨0, _⟩ => rfl | ⟨1, _⟩ => rfl

/-- The output buffer after the body at (p, q): silu of the first layer's entry times the second layer's entry,
    on the seven input blocks. -/
theorem gateOut_apply (x0 : Vec Ideal S1024x4096 .bf16) (x1 x2 : Vec Ideal S256x4096 .bf16) (x3 : Vec Ideal S16x4096 .bf16)
    (x4 : Vec Ideal S256x16 .bf16) (x5 : Vec Ideal S16x4096 .bf16) (x6 : Vec Ideal S256x16 .bf16) (p : Fin 1024) (q : Fin 256) :
    gateOut (F := Ideal) x0 x1 x2 x3 x4 x5 x6 (ix2 p q)
      = Cert.LoraFfn.silu (Cert.LoraFfn.linAt (φx := .bf16) (φw := .bf16) (φa := .bf16) (φb := .bf16) x0 x1 x3 x4 p q)
          * Cert.LoraFfn.linAt (φx := .bf16) (φw := .bf16) (φa := .bf16) (φb := .bf16) x0 x2 x5 x6 p q := by
  unfold gateOut
  rw [View.canon_unit_zero hz]
  simp only [View.ld_unit_zero (S := S1024x4096) hz, View.ld_unit_zero (S := S256x4096) hz,
    View.ld_unit_zero (S := S16x4096) hz, View.ld_unit_zero (S := S256x16) hz]
  exact gate_payload x0 x1 x2 x3 x4 x5 x6 p q

/-- The printed index maps over the grid: point t = 43 i + j is at row block i and hidden block j. -/
theorem idx_facts : ∀ t : Fin cfg0.N,
    win0_7.index t (0 : Fin 2) = t.val / 43 ∧ win0_7.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = 0
    ∧ win0_4.index t (0 : Fin 2) = t.val % 43 ∧ win0_4.index t (1 : Fin 2) = 0
    ∧ win0_5.index t (0 : Fin 2) = 0 ∧ win0_5.index t (1 : Fin 2) = 0
    ∧ win0_6.index t (0 : Fin 2) = t.val % 43 ∧ win0_6.index t (1 : Fin 2) = 0 :=
  (by decide +kernel : ∀ t : Fin grid0.N, _)

/-- One adapted layer's entry depends on the operands' rows only: equal rows, equal entries. -/
theorem linAt_rows {M K N R M' N' : ℕ} (x : FVec Ideal ⟨2, ![M, K]⟩ .bf16) (w : FVec Ideal ⟨2, ![N, K]⟩ .bf16)
    (a : FVec Ideal ⟨2, ![R, K]⟩ .bf16) (b : FVec Ideal ⟨2, ![N, R]⟩ .bf16)
    (X : FVec Ideal ⟨2, ![M', K]⟩ .bf16) (W : FVec Ideal ⟨2, ![N', K]⟩ .bf16)
    (A : FVec Ideal ⟨2, ![R, K]⟩ .bf16) (B : FVec Ideal ⟨2, ![N', R]⟩ .bf16)
    (p : Fin M) (q : Fin N) (r : Fin M') (h : Fin N')
    (hx : ∀ d, x (ix2 p d) = X (ix2 r d)) (hw : ∀ d, w (ix2 q d) = W (ix2 h d))
    (ha : ∀ ρ d, a (ix2 ρ d) = A (ix2 ρ d)) (hb : ∀ ρ, b (ix2 q ρ) = B (ix2 h ρ)) :
    Cert.LoraFfn.linAt x w a b p q = Cert.LoraFfn.linAt X W A B r h := by
  unfold Cert.LoraFfn.linAt
  simp only [hx, hw, ha, hb]

/-- Point t = 43 i + j holds rows 1024 i … 1024 i + 1023 of x and of the output, -/
def rowOf (t : Fin cfg0.N) (p : Fin 1024) : Fin 8192 :=
  ⟨1024 * (t.val / 43) + p.val, by have := t.isLt; have : cfg0.N = 344 := N_0; have := p.isLt; omega⟩

/-- and hidden columns 256 j … 256 j + 255. -/
def hidOf (t : Fin cfg0.N) (q : Fin 256) : Fin 11008 :=
  ⟨256 * (t.val % 43) + q.val, by have := q.isLt; omega⟩

/-- An entry of the output window's block at point t, in the output array. -/
theorem out_emb (t : Fin cfg0.N) (p : Fin 1024) (q : Fin 256) :
    ((cfg0.win 7).blk t).view.emb (ix2 p q) = (ix2 (rowOf t p) (hidOf t q) : S8192x11008.Idx) := by
  obtain ⟨e0, e1, -⟩ := idx_facts t
  funext a; apply Fin.ext
  match a with
  | ⟨0, _⟩ => show win0_7.index t (0 : Fin 2) * 1024 + 1 * p.val = 1024 * (t.val / 43) + p.val; rw [e0]; omega
  | ⟨1, _⟩ => show win0_7.index t (1 : Fin 2) * 256 + 1 * q.val = 256 * (t.val % 43) + q.val; rw [e1]; omega

/-- The seven input blocks at point t, read off their arrays. -/
theorem x_block (c : Dev nD) (t : Fin cfg0.N) (p : Fin 1024) (d : Fin 4096) :
    (iblk0 V c 0 t : Vec Ideal S1024x4096 .bf16) (ix2 p d) = (V c main_v1 : S8192x4096.Idx → EReal) (ix2 (rowOf t p) d) := by
  obtain ⟨-, -, e0, e1, -⟩ := idx_facts t
  unfold iblk0
  show (V c main_v1 : S8192x4096.Idx → EReal) (((cfg0.win 0).blk t).view.emb (ix2 p d)) = _
  refine congrArg _ (funext fun a => Fin.ext ?_)
  match a with
  | ⟨0, _⟩ => show win0_0.index t (0 : Fin 2) * 1024 + 1 * p.val = 1024 * (t.val / 43) + p.val; rw [e0]; omega
  | ⟨1, _⟩ => show win0_0.index t (1 : Fin 2) * 4096 + 1 * d.val = d.val; rw [e1]; omega

theorem w1_block (c : Dev nD) (t : Fin cfg0.N) (q : Fin 256) (d : Fin 4096) :
    (iblk0 V c 1 t : Vec Ideal S256x4096 .bf16) (ix2 q d) = (V c main_v2 : S11008x4096.Idx → EReal) (ix2 (hidOf t q) d) := by
  obtain ⟨-, -, -, -, e0, e1, -⟩ := idx_facts t
  unfold iblk0
  show (V c main_v2 : S11008x4096.Idx → EReal) (((cfg0.win 1).blk t).view.emb (ix2 q d)) = _
  refine congrArg _ (funext fun a => Fin.ext ?_)
  match a with
  | ⟨0, _⟩ => show win0_1.index t (0 : Fin 2) * 256 + 1 * q.val = 256 * (t.val % 43) + q.val; rw [e0]; omega
  | ⟨1, _⟩ => show win0_1.index t (1 : Fin 2) * 4096 + 1 * d.val = d.val; rw [e1]; omega

theorem w3_block (c : Dev nD) (t : Fin cfg0.N) (q : Fin 256) (d : Fin 4096) :
    (iblk0 V c 2 t : Vec Ideal S256x4096 .bf16) (ix2 q d) = (V c main_v3 : S11008x4096.Idx → EReal) (ix2 (hidOf t q) d) := by
  obtain ⟨-, -, -, -, -, -, e0, e1, -⟩ := idx_facts t
  unfold iblk0
  show (V c main_v3 : S11008x4096.Idx → EReal) (((cfg0.win 2).blk t).view.emb (ix2 q d)) = _
  refine congrArg _ (funext fun a => Fin.ext ?_)
  match a with
  | ⟨0, _⟩ => show win0_2.index t (0 : Fin 2) * 256 + 1 * q.val = 256 * (t.val % 43) + q.val; rw [e0]; omega
  | ⟨1, _⟩ => show win0_2.index t (1 : Fin 2) * 4096 + 1 * d.val = d.val; rw [e1]; omega

theorem a1_block (c : Dev nD) (t : Fin cfg0.N) (r : Fin 16) (d : Fin 4096) :
    (iblk0 V c 3 t : Vec Ideal S16x4096 .bf16) (ix2 r d) = (V c main_v5 : S16x4096.Idx → EReal) (ix2 r d) := by
  obtain ⟨-, -, -, -, -, -, -, -, e0, e1, -⟩ := idx_facts t
  unfold iblk0
  show (V c main_v5 : S16x4096.Idx → EReal) (((cfg0.win 3).blk t).view.emb (ix2 r d)) = _
  refine congrArg _ (funext fun a => Fin.ext ?_)
  match a with
  | ⟨0, _⟩ => show win0_3.index t (0 : Fin 2) * 16 + 1 * r.val = r.val; rw [e0]; omega
  | ⟨1, _⟩ => show win0_3.index t (1 : Fin 2) * 4096 + 1 * d.val = d.val; rw [e1]; omega

theorem b1_block (c : Dev nD) (t : Fin cfg0.N) (q : Fin 256) (r : Fin 16) :
    (iblk0 V c 4 t : Vec Ideal S256x16 .bf16) (ix2 q r) = (V c main_v6 : S11008x16.Idx → EReal) (ix2 (hidOf t q) r) := by
  obtain ⟨-, -, -, -, -, -, -, -, -, -, e0, e1, -⟩ := idx_facts t
  unfold iblk0
  show (V c main_v6 : S11008x16.Idx → EReal) (((cfg0.win 4).blk t).view.emb (ix2 q r)) = _
  refine congrArg _ (funext fun a => Fin.ext ?_)
  match a with
  | ⟨0, _⟩ => show win0_4.index t (0 : Fin 2) * 256 + 1 * q.val = 256 * (t.val % 43) + q.val; rw [e0]; omega
  | ⟨1, _⟩ => show win0_4.index t (1 : Fin 2) * 16 + 1 * r.val = r.val; rw [e1]; omega

theorem a3_block (c : Dev nD) (t : Fin cfg0.N) (r : Fin 16) (d : Fin 4096) :
    (iblk0 V c 5 t : Vec Ideal S16x4096 .bf16) (ix2 r d) = (V c main_v7 : S16x4096.Idx → EReal) (ix2 r d) := by
  obtain ⟨-, -, -, -, -, -, -, -, -, -, -, -, e0, e1, -⟩ := idx_facts t
  unfold iblk0
  show (V c main_v7 : S16x4096.Idx → EReal) (((cfg0.win 5).blk t).view.emb (ix2 r d)) = _
  refine congrArg _ (funext fun a => Fin.ext ?_)
  match a with
  | ⟨0, _⟩ => show win0_5.index t (0 : Fin 2) * 16 + 1 * r.val = r.val; rw [e0]; omega
  | ⟨1, _⟩ => show win0_5.index t (1 : Fin 2) * 4096 + 1 * d.val = d.val; rw [e1]; omega

theorem b3_block (c : Dev nD) (t : Fin cfg0.N) (q : Fin 256) (r : Fin 16) :
    (iblk0 V c 6 t : Vec Ideal S256x16 .bf16) (ix2 q r) = (V c main_v8 : S11008x16.Idx → EReal) (ix2 (hidOf t q) r) := by
  obtain ⟨-, -, -, -, -, -, -, -, -, -, -, -, -, -, e0, e1⟩ := idx_facts t
  unfold iblk0
  show (V c main_v8 : S11008x16.Idx → EReal) (((cfg0.win 6).blk t).view.emb (ix2 q r)) = _
  refine congrArg _ (funext fun a => Fin.ext ?_)
  match a with
  | ⟨0, _⟩ => show win0_6.index t (0 : Fin 2) * 256 + 1 * q.val = 256 * (t.val % 43) + q.val; rw [e0]; omega
  | ⟨1, _⟩ => show win0_6.index t (1 : Fin 2) * 16 + 1 * r.val = r.val; rw [e1]; omega

/-- The specification's gate on the seven arrays the region finds. -/
abbrev gateOf (c : Dev nD) : S8192x11008.Idx → EReal :=
  Cert.LoraFfn.gate (φx := .bf16) (φw := .bf16) (φa := .bf16) (φb := .bf16) (V c main_v1) (V c main_v2) (V c main_v3)
    (V c main_v5) (V c main_v7) (V c main_v6) (V c main_v8)

/-- What point t writes back is block t of the gate of the arrays. -/
theorem flushed_eq (c : Dev nD) (t : Fin cfg0.N) :
    (dat0 (F := Ideal) V c).flushed 7 t = ((cfg0.win 7).blk t).view.read (Elt Ideal) (gateOf V c) := by
  show (cfg0.win 7).cut (grid0.coords t) ((dat0 V c).after 7 t) = _
  rw [after0_7]
  funext j
  obtain ⟨p, q, rfl⟩ : ∃ (p : Fin 1024) (q : Fin 256), j = ix2 p q := ⟨j 0, j 1, eq_ix2 j⟩
  refine (gateOut_apply _ _ _ _ _ _ _ p q).trans ?_
  show _ = gateOf V c (((cfg0.win 7).blk t).view.emb (ix2 p q))
  rw [out_emb]
  refine Eq.trans ?_ (Cert.LoraFfn.gate_apply _ _ _ _ _ _ _ (rowOf t p) (hidOf t q)).symm
  exact congrArg₂ (· * ·)
    (congrArg Cert.LoraFfn.silu (linAt_rows _ _ _ _ _ _ _ _ p q (rowOf t p) (hidOf t q)
      (x_block V c t p) (w1_block V c t q) (a1_block V c t) (b1_block V c t q)))
    (linAt_rows _ _ _ _ _ _ _ _ p q (rowOf t p) (hidOf t q)
      (x_block V c t p) (w3_block V c t q) (a3_block V c t) (b3_block V c t q))

/-- An index of the output array is in point t's block iff each coordinate is in the block's range. -/
theorem mem_blk (t : Fin cfg0.N) (i : S8192x11008.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v11).slice (win0_7.rect t)).set ↔ _
  rw [View.set_slice_whole, Rect.mem_set_unit]
  exact Iff.rfl

/-- The output array after the gate region: the specification's gate of the seven arrays the region finds. -/
theorem gate_array (c : Dev nD) :
    (dat0 (F := Ideal) V c).arrAt 7 cfg0.N
      = Cert.LoraFfn.gate (φx := .bf16) (φw := .bf16) (φa := .bf16) (φb := .bf16) (V c main_v1) (V c main_v2) (V c main_v3)
          (V c main_v5) (V c main_v7) (V c main_v6) (V c main_v8) := by
  refine (dat0 (F := Ideal) V c).arrAt_eq_of_cover 7 (gateOf V c) (fun t _ => flushed_eq V c t) fun i => ?_
  have hi0 : (i 0).val < 8192 := (i 0).isLt
  have hi1 : (i 1).val < 11008 := (i 1).isLt
  have hN : cfg0.N = 344 := N_0
  refine ⟨⟨43 * ((i 0).val / 1024) + (i 1).val / 256, by omega⟩, flush0_7 _, ?_⟩
  rw [mem_blk]
  obtain ⟨e0, e1, -⟩ := idx_facts ⟨43 * ((i 0).val / 1024) + (i 1).val / 256, by omega⟩
  intro a
  match a with
  | ⟨0, _⟩ =>
    show win0_7.index _ (0 : Fin 2) * 1024 ≤ (i 0).val ∧ (i 0).val < win0_7.index _ (0 : Fin 2) * 1024 + 1024
    rw [e0]; dsimp only; omega
  | ⟨1, _⟩ =>
    show win0_7.index _ (1 : Fin 2) * 256 ≤ (i 1).val ∧ (i 1).val < win0_7.index _ (1 : Fin 2) * 256 + 256
    rw [e1]; dsimp only; omega

end Cert.KernelIdeal.GateValue

end
-- ==== Proof.DownBlocks.lean ====
/-
  Where the down-projection kernel's blocks sit in their arrays.

  Grid point t = 43 · i + k is row block i (512 rows of the 8192) at step k of the hidden axis (256 of the 11008
  columns). At that point the kernel sees rows 512 i … of the gated activations g restricted to columns 256 k …,
  the same columns of every row of w2 and of a2, all of b2, and rows 512 i … of the output. Each statement below
  reads one block at an entry as the array at the entry's place; the last two say that what the kernel leaves in
  the output block is written back where it belongs and that these blocks fill the output.
-/
import proofs.«104832_j13503377178799_1_alg».proof.Proof.KernelIdeal.DownShared
import Idealize.ShloMosaic.Lib.ValueIdx
import Idealize.ShloMosaic.Lib.Pipeline.Value

noncomputable section

namespace Cert.KernelIdeal.DownValue

open Idealize.ShloMosaic Idealize.ShloMosaic.TcCoe Idealize.SL.Sem
open Cert.KernelIdeal Cert.KernelIdeal.Gen Cert.KernelIdeal.Frame Idealize.ShloMosaic.ValueIdx

variable {F : FTy → Type} [FloatOps F]
variable (V : (c : Dev nD) → (b : Ref sig .tc) → Buf (Elt F) ((c : Thread nD τ).loc b))

/-! ## The block indices over the grid -/

/-- The g block moves with both grid axes: row block t / 43, column block t % 43. -/
theorem idx_g : ∀ t : Fin cfg1.N, win1_0.index t 0 = t.val / 43 ∧ win1_0.index t 1 = t.val % 43 :=
  (by decide +kernel : ∀ t : Fin grid1.N, win1_0.index t 0 = t.val / 43 ∧ win1_0.index t 1 = t.val % 43)
/-- The w2 block keeps all rows and moves along the hidden axis. -/
theorem idx_w : ∀ t : Fin cfg1.N, win1_1.index t 0 = 0 ∧ win1_1.index t 1 = t.val % 43 :=
  (by decide +kernel : ∀ t : Fin grid1.N, win1_1.index t 0 = 0 ∧ win1_1.index t 1 = t.val % 43)
/-- The a2 block likewise. -/
theorem idx_a : ∀ t : Fin cfg1.N, win1_2.index t 0 = 0 ∧ win1_2.index t 1 = t.val % 43 :=
  (by decide +kernel : ∀ t : Fin grid1.N, win1_2.index t 0 = 0 ∧ win1_2.index t 1 = t.val % 43)
/-- b2 is one block. -/
theorem idx_b : ∀ t : Fin cfg1.N, win1_3.index t 0 = 0 ∧ win1_3.index t 1 = 0 :=
  (by decide +kernel : ∀ t : Fin grid1.N, win1_3.index t 0 = 0 ∧ win1_3.index t 1 = 0)
/-- The output block moves with the row axis only. -/
theorem idx_o : ∀ t : Fin cfg1.N, win1_4.index t 0 = t.val / 43 ∧ win1_4.index t 1 = 0 :=
  (by decide +kernel : ∀ t : Fin grid1.N, win1_4.index t 0 = t.val / 43 ∧ win1_4.index t 1 = 0)

/-! ## The blocks and the arrays, at their literal types -/

abbrev gblk (c : Dev nD) (t : Fin cfg1.N) : Vec F S512x256 .bf16 := iblk1 V c 0 t
abbrev wblk (c : Dev nD) (t : Fin cfg1.N) : Vec F S4096x256 .bf16 := iblk1 V c 1 t
abbrev ablk (c : Dev nD) (t : Fin cfg1.N) : Vec F S16x256 .bf16 := iblk1 V c 2 t
abbrev bblk (c : Dev nD) (t : Fin cfg1.N) : Vec F S4096x16 .bf16 := iblk1 V c 3 t
abbrev garr (c : Dev nD) : Vec F S8192x11008 .bf16 := V c main_v11
abbrev warr (c : Dev nD) : Vec F S4096x11008 .bf16 := V c main_v4
abbrev aarr (c : Dev nD) : Vec F S16x11008 .bf16 := V c main_v9
abbrev barr (c : Dev nD) : Vec F S4096x16 .bf16 := V c main_v10

/-- Entry (p, j) of the g block at point t is entry (512 (t / 43) + p, 256 (t % 43) + j) of g. -/
theorem gblk_apply (c : Dev nD) (t : Fin cfg1.N) (p : Fin 512) (j : Fin 256) (P : Fin 8192) (h : Fin 11008)
    (hP : P.val = 512 * (t.val / 43) + p.val) (hh : h.val = 256 * (t.val % 43) + j.val) :
    gblk V c t (ix2 p j) = garr V c (ix2 P h) := by
  unfold gblk iblk1
  rw [View.read_apply]
  show (V c main_v11 : Vec F S8192x11008 .bf16) _ = _
  refine congrArg (V c main_v11 : Vec F S8192x11008 .bf16) ?_
  obtain ⟨e0, e1⟩ := idx_g t
  funext a
  apply Fin.ext
  match a with
  | ⟨0, _⟩ => show win1_0.index t 0 * 512 + 1 * p.val = P.val; rw [e0, hP]; omega
  | ⟨1, _⟩ => show win1_0.index t 1 * 256 + 1 * j.val = h.val; rw [e1, hh]; omega

/-- Entry (q, j) of the w2 block at point t is entry (q, 256 (t % 43) + j) of w2. -/
theorem wblk_apply (c : Dev nD) (t : Fin cfg1.N) (q : Fin 4096) (j : Fin 256) (h : Fin 11008)
    (hh : h.val = 256 * (t.val % 43) + j.val) :
    wblk V c t (ix2 q j) = warr V c (ix2 q h) := by
  unfold wblk iblk1
  rw [View.read_apply]
  show (V c main_v4 : Vec F S4096x11008 .bf16) _ = _
  refine congrArg (V c main_v4 : Vec F S4096x11008 .bf16) ?_
  obtain ⟨e0, e1⟩ := idx_w t
  funext a
  apply Fin.ext
  match a with
  | ⟨0, _⟩ => show win1_1.index t 0 * 4096 + 1 * q.val = q.val; rw [e0]; omega
  | ⟨1, _⟩ => show win1_1.index t 1 * 256 + 1 * j.val = h.val; rw [e1, hh]; omega

/-- Entry (r, j) of the a2 block at point t is entry (r, 256 (t % 43) + j) of a2. -/
theorem ablk_apply (c : Dev nD) (t : Fin cfg1.N) (r : Fin 16) (j : Fin 256) (h : Fin 11008)
    (hh : h.val = 256 * (t.val % 43) + j.val) :
    ablk V c t (ix2 r j) = aarr V c (ix2 r h) := by
  unfold ablk iblk1
  rw [View.read_apply]
  show (V c main_v9 : Vec F S16x11008 .bf16) _ = _
  refine congrArg (V c main_v9 : Vec F S16x11008 .bf16) ?_
  obtain ⟨e0, e1⟩ := idx_a t
  funext a
  apply Fin.ext
  match a with
  | ⟨0, _⟩ => show win1_2.index t 0 * 16 + 1 * r.val = r.val; rw [e0]; omega
  | ⟨1, _⟩ => show win1_2.index t 1 * 256 + 1 * j.val = h.val; rw [e1, hh]; omega

/-- The b2 block is b2. -/
theorem bblk_apply (c : Dev nD) (t : Fin cfg1.N) (q : Fin 4096) (r : Fin 16) :
    bblk V c t (ix2 q r) = barr V c (ix2 q r) := by
  unfold bblk iblk1
  rw [View.read_apply]
  show (V c main_v10 : Vec F S4096x16 .bf16) _ = _
  refine congrArg (V c main_v10 : Vec F S4096x16 .bf16) ?_
  obtain ⟨e0, e1⟩ := idx_b t
  funext a
  apply Fin.ext
  match a with
  | ⟨0, _⟩ => show win1_3.index t 0 * 4096 + 1 * q.val = q.val; rw [e0]; omega
  | ⟨1, _⟩ => show win1_3.index t 1 * 16 + 1 * r.val = r.val; rw [e1]; omega

/-! ## The output block in the output array -/

/-- A [512, 4096] block whose entry (p, q) is entry (512 (t / 43) + p, q) of a whole array G is, written back at
    point t, the block of G the pipeline's rectangle names there. -/
theorem out_block_eq (t : Fin cfg1.N) (G : Vec F S8192x4096 .f32) (o : Vec F S512x4096 .f32)
    (ho : ∀ (p : Fin 512) (q : Fin 4096) (P : Fin 8192), P.val = 512 * (t.val / 43) + p.val → o (ix2 p q) = G (ix2 P q)) :
    (cfg1.win 4).cut (grid1.coords t) o = ((cfg1.win 4).blk t).view.read (Elt F) G := by
  funext j
  have hj0 : (j 0).val < 512 := (j 0).isLt
  have hj1 : (j 1).val < 4096 := (j 1).isLt
  have hN : cfg1.N = 688 := N_1
  have hP : 512 * (t.val / 43) + (j 0).val < 8192 := by have := t.isLt; omega
  obtain ⟨e0, e1⟩ := idx_o t
  have el : (cfg1.win 4).xinj (grid1.coords t) j = ix2 (⟨(j 0).val, hj0⟩ : Fin 512) (⟨(j 1).val, hj1⟩ : Fin 4096) :=
    funext fun a => Fin.ext (by
      match a with
      | ⟨0, _⟩ => rfl
      | ⟨1, _⟩ => rfl)
  have er : ((cfg1.win 4).blk t).view.emb j
      = ix2 (⟨512 * (t.val / 43) + (j 0).val, hP⟩ : Fin 8192) (⟨(j 1).val, hj1⟩ : Fin 4096) :=
    funext fun a => Fin.ext (by
      match a with
      | ⟨0, _⟩ => show win1_4.index t 0 * 512 + 1 * (j 0).val = 512 * (t.val / 43) + (j 0).val; rw [e0]; omega
      | ⟨1, _⟩ => show win1_4.index t 1 * 4096 + 1 * (j 1).val = (j 1).val; rw [e1]; omega)
  show o ((cfg1.win 4).xinj (grid1.coords t) j) = (G : Vec F S8192x4096 .f32) (((cfg1.win 4).blk t).view.emb j)
  rw [el, er]
  exact ho _ _ _ rfl

/-- Every entry of the output array lies in the block of a point at the last step of the hidden axis: row r is in
    the block of point 43 (r / 512) + 42. -/
theorem out_cover (i : S8192x4096.Idx) :
    ∃ t : Fin cfg1.N, (cfg1.win 4).flush t = true ∧ i ∈ ((cfg1.win 4).blk t).view.set := by
  have h0 : (i 0).val < 8192 := (i 0).isLt
  have h1 : (i 1).val < 4096 := (i 1).isLt
  have hN : cfg1.N = 688 := N_1
  obtain ⟨t, ht⟩ : ∃ t : Fin cfg1.N, t.val = 43 * ((i 0).val / 512) + 42 := ⟨⟨43 * ((i 0).val / 512) + 42, by rw [hN]; omega⟩, rfl⟩
  refine ⟨t, (flush1_4 t).mpr (by rw [ht]; omega), ?_⟩
  show i ∈ ((View.whole main_v12).slice (win1_4.rect t)).set
  rw [View.set_slice_whole, Rect.mem_set_unit]
  obtain ⟨e0, e1⟩ := idx_o t
  intro a
  match a with
  | ⟨0, _⟩ =>
    show win1_4.index t 0 * 512 ≤ (i 0).val ∧ (i 0).val < win1_4.index t 0 * 512 + 512
    rw [e0, ht]
    omega
  | ⟨1, _⟩ =>
    show win1_4.index t 1 * 4096 ≤ (i 1).val ∧ (i 1).val < win1_4.index t 1 * 4096 + 4096
    rw [e1]
    omega

end Cert.KernelIdeal.DownValue

end
-- ==== Proof.DownPayload.lean ====
/-
  The arithmetic of the down-projection kernel's body, read entry by entry on the extended reals.

  The body keeps two running sums over the blocks of the hidden axis: a [512, 4096] block of the base
  product g · w2ᵀ and a [512, 16] block of the low-rank product g · a2ᵀ. At the first block both are set to
  zero; every block adds its 256 columns' worth of products; at the last block the result is the base sum plus
  the low-rank sum carried through b2ᵀ and scaled by two.

  The second half is the mathematics of that accumulation with no program in sight: a sum over the 11008 hidden
  columns taken 256 at a time, the partial sums after each block, and the step from one partial sum to the next.
-/
import proofs.«104832_j13503377178799_1_alg».proof.Proof.Gen.KernelIdeal.Skeleton
import proofs.«104832_j13503377178799_1_alg».proof.Proof.Spec
import proofs.«104832_j13503377178799_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.DownValue

open Idealize.ShloMosaic Cert.KernelIdeal Cert.KernelIdeal.Gen Idealize.ShloMosaic.ValueIdx

/-- A rank-2 transpose read at an entry: entry (a, b) of the transposed array is entry (b, a) of the operand. -/
theorem transpose2_apply {A B : ℕ} {α : Type} (x : (⟨2, ![B, A]⟩ : Shape).Idx → α)
    (h : (⟨2, ![B, A]⟩ : Shape).Transposes [1, 0] ⟨2, ![A, B]⟩) (a : Fin A) (b : Fin B) :
    transpose ⟨2, ![A, B]⟩ [1, 0] x h (ix2 a b) = x (ix2 b a) :=
  transpose_apply [1, 0] x h (ix2 a b) (ix2 b a) (fun c => by
    match c with
    | ⟨0, _⟩ => rfl
    | ⟨1, _⟩ => rfl)

/-- At the first block the base accumulator is set to zero. -/
theorem reset_main : (k1_pay1 (F := Ideal)) = fun _ => 0 := by
  unfold k1_pay1
  refine (shapeCast_self _ _).trans ?_
  funext i
  exact Ideal.ofBits_zero_f32

/-- At the first block the low-rank accumulator is set to zero. -/
theorem reset_low : (k1_pay2 (F := Ideal)) = fun _ => 0 := by
  unfold k1_pay2
  refine (shapeCast_self _ _).trans ?_
  funext i
  exact Ideal.ofBits_zero_f32

theorem plain_main : PlainDot.IsPlain dot_S512x256_S256x4096_S512x4096_1_0_0_1_n_n := ⟨rfl, rfl, rfl, rfl, rfl, rfl⟩
theorem plain_low : PlainDot.IsPlain dot_S512x256_S256x16_S512x16_1_0_0_1_n_n := ⟨rfl, rfl, rfl, rfl, rfl, rfl⟩
theorem plain_out : PlainDot.IsPlain dot_S512x16_S16x4096_S512x4096_1_0_0_1_n_n := ⟨rfl, rfl, rfl, rfl, rfl, rfl⟩

/-- One block's step of the base accumulator: the 256 products of row p of the g block with row q of the w2 block. -/
theorem acc_main (x0 : Vec Ideal S512x256 .bf16) (x1 : Vec Ideal S4096x256 .bf16) (s : Vec Ideal S512x4096 .f32)
    (p : Fin 512) (q : Fin 4096) :
    k1_pay4 x0 x1 s (ix2 p q) = s (ix2 p q) + ∑ j : Fin 256, x0 (ix2 p j) * x1 (ix2 q j) := by
  unfold k1_pay4 k1_pay3
  refine (congrFun (shapeCast_self _ _) (ix2 p q)).trans ?_
  refine congrArg (s (ix2 p q) + ·) ?_
  refine (PlainDot.matmul_zero_apply plain_main none _ _ p q).trans ?_
  refine Finset.sum_congr rfl fun j _ => ?_
  refine congrArg₂ (· * ·) (congrFun (shapeCast_self _ _) (ix2 p j)) ?_
  refine (transpose2_apply _ _ j q).trans ?_
  exact congrFun (shapeCast_self _ _) (ix2 q j)

/-- One block's step of the low-rank accumulator: the 256 products of row p of the g block with row r of the a2 block. -/
theorem acc_low (x0 : Vec Ideal S512x256 .bf16) (x2 : Vec Ideal S16x256 .bf16) (s : Vec Ideal S512x16 .f32)
    (p : Fin 512) (r : Fin 16) :
    k1_pay5 x0 x2 s (ix2 p r) = s (ix2 p r) + ∑ j : Fin 256, x0 (ix2 p j) * x2 (ix2 r j) := by
  unfold k1_pay5 k1_pay3
  refine (congrFun (shapeCast_self _ _) (ix2 p r)).trans ?_
  refine congrArg (s (ix2 p r) + ·) ?_
  refine (PlainDot.matmul_zero_apply plain_low none _ _ p r).trans ?_
  refine Finset.sum_congr rfl fun j _ => ?_
  refine congrArg₂ (· * ·) (congrFun (shapeCast_self _ _) (ix2 p j)) ?_
  refine (transpose2_apply _ _ j r).trans ?_
  exact congrFun (shapeCast_self _ _) (ix2 r j)

/-- The last block's result: the base sum plus the low-rank sum carried through b2 and scaled by two. -/
theorem final_out (x3 : Vec Ideal S4096x16 .bf16) (s1 : Vec Ideal S512x16 .f32) (s0 : Vec Ideal S512x4096 .f32)
    (p : Fin 512) (q : Fin 4096) :
    k1_pay6 x3 s1 s0 (ix2 p q) = s0 (ix2 p q) + (∑ r : Fin 16, s1 (ix2 p r) * x3 (ix2 q r)) * Cert.LoraFfn.two := by
  unfold k1_pay6
  refine congrArg (s0 (ix2 p q) + ·) ?_
  refine congrArg (· * Cert.LoraFfn.two) ?_
  refine (PlainDot.matmul_zero_apply plain_out none _ _ p q).trans ?_
  refine Finset.sum_congr rfl fun r _ => ?_
  refine congrArg (s1 (ix2 p r) * ·) ?_
  refine (transpose2_apply _ _ r q).trans ?_
  exact congrFun (shapeCast_self _ _) (ix2 q r)

/-! ## The accumulation over the blocks of the hidden axis

The 11008 hidden columns come in 43 blocks of 256. A sum over all of them is built up block by block: start from
zero, add block 0's share, then block 1's, and so on; after the last block it is the whole sum. -/

/-- Column j of block k of the hidden axis. -/
def hcol (k : Fin 43) (j : Fin 256) : Fin 11008 :=
  ⟨256 * k.val + j.val, by have := k.isLt; have := j.isLt; omega⟩

theorem hcol_val (k : Fin 43) (j : Fin 256) : (hcol k j).val = 256 * k.val + j.val := rfl

/-- Block k's share of a sum over the hidden axis. -/
def blockSum (f : Fin 11008 → EReal) (k : Fin 43) : EReal := ∑ j : Fin 256, f (hcol k j)

/-- The shares of the blocks before the n-th, added up. -/
def partialSum (f : Fin 11008 → EReal) (n : ℕ) : EReal :=
  ∑ k ∈ Finset.univ.filter (fun k : Fin 43 => k.val < n), blockSum f k

/-- Before any block the running sum is zero. -/
theorem partialSum_zero (f : Fin 11008 → EReal) : partialSum f 0 = 0 := by
  unfold partialSum
  rw [Finset.filter_false_of_mem (fun k _ => Nat.not_lt_zero _), Finset.sum_empty]

/-- One step of the accumulation: block k's share joins the shares of the blocks before it. -/
theorem partialSum_succ (f : Fin 11008 → EReal) (k : Fin 43) :
    partialSum f (k.val + 1) = partialSum f k.val + blockSum f k := by
  unfold partialSum
  have h : Finset.univ.filter (fun k' : Fin 43 => k'.val < k.val + 1)
      = insert k (Finset.univ.filter (fun k' : Fin 43 => k'.val < k.val)) := by
    ext k'
    simp only [Finset.mem_filter, Finset.mem_univ, true_and, Finset.mem_insert]
    constructor
    · intro h
      rcases Nat.lt_succ_iff_lt_or_eq.mp h with h | h
      · exact Or.inr h
      · exact Or.inl (Fin.ext h)
    · rintro (rfl | h)
      · exact Nat.lt_succ_self _
      · exact Nat.lt_succ_of_lt h
  rw [h, Finset.sum_insert (by simp), add_comm]

/-- The first step, from the zero the reset leaves. -/
theorem partialSum_one (f : Fin 11008 → EReal) : partialSum f 1 = 0 + blockSum f 0 := by
  have h : partialSum f (0 + 1) = partialSum f 0 + blockSum f 0 := partialSum_succ f 0
  rw [partialSum_zero] at h
  exact h

/-- After the last block the running sum is the sum over the whole hidden axis. -/
theorem partialSum_all (f : Fin 11008 → EReal) : partialSum f 43 = ∑ h : Fin 11008, f h := by
  unfold partialSum
  rw [Finset.filter_true_of_mem (fun k _ => k.isLt), Cert.LoraFfn.sum_blocks f]
  rfl

end Cert.KernelIdeal.DownValue

end
-- ==== Proof.DownValue.lean ====
/-
  The value of the down-projection region: what its output array holds when the region ends.

  The region walks 16 row blocks of 512 rows and, for each, the 43 blocks of 256 hidden columns. Two running
  sums are carried through the hidden steps of a row block: for row P and output column q the base sum of
  g(P, h) · w2(q, h), and for row P and adapter rank r the low-rank sum of g(P, h) · a2(r, h), each over the hidden
  columns h seen so far. After step k they are the partial sums over the first k + 1 blocks; after the last step
  they are the sums over the whole hidden axis, and the block stored then is, entry by entry, the linear layer with
  its low-rank adapter: base sum plus (the low-rank sums against b2) times two. Those blocks are written back at
  the last steps only and fill the output array.
-/
import proofs.«104832_j13503377178799_1_alg».proof.Proof.KernelIdeal.DownBody
import proofs.«104832_j13503377178799_1_alg».proof.Proof.DownBlocks
import proofs.«104832_j13503377178799_1_alg».proof.Proof.DownPayload

set_option maxRecDepth 16384

noncomputable section

open scoped BigOperators

namespace Cert.KernelIdeal.DownValue

open Idealize.ShloMosaic Idealize.ShloMosaic.TcCoe Idealize.ShloMosaic.Tactic Idealize.SL.Sem
open Cert.KernelIdeal Cert.KernelIdeal.Gen Cert.KernelIdeal.Frame Idealize.ShloMosaic.ValueIdx

/-! ## What each case of the body leaves, as the body's arithmetic of what it loaded -/

section Pieces

variable {F : FTy → Type} [FloatOps F]

theorem hz : (![0, 0] : Fin 2 → Nat) = fun _ => 0 := funext fun a => by fin_cases a <;> rfl

/-- First hidden step, base accumulator: reset to zero, then this block's products added. -/
theorem piece_First_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) :
    sout1_First_0 c i arg2 harg2 arg3 harg3 arg4 harg4 arg5 harg5 arg6 harg6 arg7 harg7 arg8 harg8 hc0 hc1 x0 x1 x2 = k1_pay4 x0 x1 (k1_pay1 (F := F)) := by
  unfold sout1_First_0
  rw [View.read_writes_eq_canon _ _ _ (scover1_First_0 c i arg2 harg2 arg3 harg3 arg4 harg4 arg5 harg5 arg6 harg6 arg7 harg7 arg8 harg8 hc0 hc1 x0 x1 x2)]
  unfold kernelRun1_First
  dsimp only
  sl_unfold_words
  rw [View.canon_cons_unit_zero (S := S512x4096) hz]
  simp only [View.readAt_eq_ld, harg2.read_unread, harg3.read_unread, View.ld_unit_zero (S := S512x256) hz, View.ld_unit_zero (S := S4096x256) hz, View.readCov_unit_zero (S := S512x4096) _ hz]

/-- First hidden step, low-rank accumulator: reset to zero, then this block's products added. -/
theorem piece_First_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : cond1_0 i) (hc1 : ¬cond1_1 i)
    (x0 : Vec F S512x256 .bf16) (x1 : Vec F S4096x256 .bf16) (x2 : Vec F S16x256 .bf16) :
    sout1_First_1 c i arg2 harg2 arg3 harg3 arg4 harg4 arg5 harg5 arg6 harg6 arg7 harg7 arg8 harg8 hc0 hc1 x0 x1 x2 = k1_pay5 x0 x2 (k1_pay2 (F := F)) := by
  unfold sout1_First_1
  rw [View.read_writes_eq_canon _ _ _ (scover1_First_1 c i arg2 harg2 arg3 harg3 arg4 harg4 arg5 harg5 arg6 harg6 arg7 harg7 arg8 harg8 hc0 hc1 x0 x1 x2)]
  unfold kernelRun1_First
  dsimp only
  sl_unfold_words
  rw [View.canon_cons_unit_zero (S := S512x16) hz]
  simp only [View.readAt_eq_ld, harg2.read_unread, harg4.read_unread, View.ld_unit_zero (S := S512x256) hz, View.ld_unit_zero (S := S16x256) hz, View.readCov_unit_zero (S := S512x16) _ hz]

/-- A middle hidden step, base accumulator: what the step before left, plus this block's products. -/
theorem piece_Mid_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) :
    sout1_Mid_0 c i arg2 harg2 arg3 harg3 arg4 harg4 arg5 harg5 arg6 harg6 arg7 harg7 arg8 harg8 hc0 hc1 x0 x1 x2 xs0 xs1 = k1_pay4 x0 x1 xs0 := by
  unfold sout1_Mid_0
  rw [View.read_writes_eq_canon _ _ _ (scover1_Mid_0 c i arg2 harg2 arg3 harg3 arg4 harg4 arg5 harg5 arg6 harg6 arg7 harg7 arg8 harg8 hc0 hc1 x0 x1 x2 xs0 xs1)]
  unfold kernelRun1_Mid
  dsimp only
  sl_unfold_words
  rw [View.canon_unit_zero hz]
  simp only [View.readAt_eq_ld, harg2.read_unread, harg3.read_unread, harg7.read_unread, View.ld_unit_zero (S := S512x256) hz, View.ld_unit_zero (S := S4096x256) hz, View.ld_unit_zero (S := S512x4096) hz]

/-- A middle hidden step, low-rank accumulator. -/
theorem piece_Mid_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : ¬cond1_1 i)
    (x0 : Vec F S512x256 .bf16) (x1 : Vec F S4096x256 .bf16) (x2 : Vec F S16x256 .bf16) (xs0 : Vec F S512x4096 .f32) (xs1 : Vec F S512x16 .f32) :
    sout1_Mid_1 c i arg2 harg2 arg3 harg3 arg4 harg4 arg5 harg5 arg6 harg6 arg7 harg7 arg8 harg8 hc0 hc1 x0 x1 x2 xs0 xs1 = k1_pay5 x0 x2 xs1 := by
  unfold sout1_Mid_1
  rw [View.read_writes_eq_canon _ _ _ (scover1_Mid_1 c i arg2 harg2 arg3 harg3 arg4 harg4 arg5 harg5 arg6 harg6 arg7 harg7 arg8 harg8 hc0 hc1 x0 x1 x2 xs0 xs1)]
  unfold kernelRun1_Mid
  dsimp only
  sl_unfold_words
  rw [View.canon_unit_zero hz]
  simp only [View.readAt_eq_ld, harg2.read_unread, harg4.read_unread, harg8.read_unread, View.ld_unit_zero (S := S512x256) hz, View.ld_unit_zero (S := S16x256) hz, View.ld_unit_zero (S := S512x16) hz]

/-- The last hidden step, base accumulator: as at a middle step. -/
theorem piece_Last_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) :
    sout1_Last_0 c i arg2 harg2 arg3 harg3 arg4 harg4 arg5 harg5 arg6 harg6 arg7 harg7 arg8 harg8 hc0 hc1 x0 x1 x2 x3 xs0 xs1 = k1_pay4 x0 x1 xs0 := by
  unfold sout1_Last_0
  rw [View.read_writes_eq_canon _ _ _ (scover1_Last_0 c i arg2 harg2 arg3 harg3 arg4 harg4 arg5 harg5 arg6 harg6 arg7 harg7 arg8 harg8 hc0 hc1 x0 x1 x2 x3 xs0 xs1)]
  unfold kernelRun1_Last
  dsimp only
  sl_unfold_words
  rw [View.canon_unit_zero hz]
  simp only [View.readAt_eq_ld, harg2.read_unread, harg3.read_unread, harg7.read_unread, View.ld_unit_zero (S := S512x256) hz, View.ld_unit_zero (S := S4096x256) hz, View.ld_unit_zero (S := S512x4096) hz]

/-- The last hidden step, low-rank accumulator: as at a middle step. -/
theorem piece_Last_1 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) :
    sout1_Last_1 c i arg2 harg2 arg3 harg3 arg4 harg4 arg5 harg5 arg6 harg6 arg7 harg7 arg8 harg8 hc0 hc1 x0 x1 x2 x3 xs0 xs1 = k1_pay5 x0 x2 xs1 := by
  unfold sout1_Last_1
  rw [View.read_writes_eq_canon _ _ _ (scover1_Last_1 c i arg2 harg2 arg3 harg3 arg4 harg4 arg5 harg5 arg6 harg6 arg7 harg7 arg8 harg8 hc0 hc1 x0 x1 x2 x3 xs0 xs1)]
  unfold kernelRun1_Last
  dsimp only
  sl_unfold_words
  rw [View.canon_unit_zero hz]
  simp only [View.readAt_eq_ld, harg2.read_unread, harg4.read_unread, harg8.read_unread, View.ld_unit_zero (S := S512x256) hz, View.ld_unit_zero (S := S16x256) hz, View.ld_unit_zero (S := S512x16) hz]

/-- The last hidden step, the output block: the closing arithmetic of b2 and the two accumulators just updated. -/
theorem piece_Last_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S4096x16 .bf16) (harg5 : arg5.IsWhole) (arg6 : Memref sig .tc .vmem S512x4096 .f32) (harg6 : arg6.IsWhole) (arg7 : Memref sig .tc .vmem S512x4096 .f32) (harg7 : arg7.IsWhole) (arg8 : Memref sig .tc .vmem S512x16 .f32) (harg8 : arg8.IsWhole) (hc0 : ¬cond1_0 i) (hc1 : cond1_1 i)
    (x0 : Vec F S512x256 .bf16) (x1 : Vec F S4096x256 .bf16) (x2 : Vec F S16x256 .bf16) (x3 : Vec F S4096x16 .bf16) (xs0 : Vec F S512x4096 .f32) (xs1 : Vec F S512x16 .f32) :
    out1_Last_4 c i arg2 harg2 arg3 harg3 arg4 harg4 arg5 harg5 arg6 harg6 arg7 harg7 arg8 harg8 hc0 hc1 x0 x1 x2 x3 xs0 xs1 = k1_pay6 x3 (k1_pay5 x0 x2 xs1) (k1_pay4 x0 x1 xs0) := by
  unfold out1_Last_4
  rw [View.read_writes_eq_canon _ _ _ (cover1_Last_4 c i arg2 harg2 arg3 harg3 arg4 harg4 arg5 harg5 arg6 harg6 arg7 harg7 arg8 harg8 hc0 hc1 x0 x1 x2 x3 xs0 xs1)]
  unfold kernelRun1_Last
  dsimp only
  sl_unfold_words
  rw [View.canon_unit_zero hz]
  simp only [View.readAt_eq_ld, harg2.read_unread, harg3.read_unread, harg4.read_unread, harg5.read_unread, harg7.read_unread, harg8.read_unread, View.ld_unit_zero (S := S512x256) hz, View.ld_unit_zero (S := S4096x256) hz, View.ld_unit_zero (S := S16x256) hz, View.ld_unit_zero (S := S4096x16) hz, View.ld_unit_zero (S := S512x4096) hz, View.ld_unit_zero (S := S512x16) hz, View.readCov_unit_zero (S := S512x16) _ hz, View.readCov_unit_zero (S := S512x4096) _ hz]

end Pieces

/-! ## The accumulators and the output block after a point, from the point before -/

section Points

variable {F : FTy → Type} [FloatOps F]
variable (V : (c : Dev nD) → (b : Ref sig .tc) → Buf (Elt F) ((c : Thread nD τ).loc b))

/-- After a first hidden step the base accumulator is zero plus this block's products. -/
theorem first_main (c : Dev nD) (t : Fin cfg1.N) (h0 : t.val % 43 = 0) (h1 : ¬t.val % 43 = 42) :
    (outsAt1 V c t.val t.isLt).2.1 = k1_pay4 (gblk V c t) (wblk V c t) (k1_pay1 (F := F)) := by
  rw [outsAt1_First V c t h0 h1]
  dsimp only
  exact piece_First_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t)

/-- After a first hidden step the low-rank accumulator is zero plus this block's products. -/
theorem first_low (c : Dev nD) (t : Fin cfg1.N) (h0 : t.val % 43 = 0) (h1 : ¬t.val % 43 = 42) :
    (outsAt1 V c t.val t.isLt).2.2 = k1_pay5 (gblk V c t) (ablk V c t) (k1_pay2 (F := F)) := by
  rw [outsAt1_First V c t h0 h1]
  dsimp only
  exact piece_First_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t)

/-- After a middle hidden step the base accumulator is what the point before left plus this block's products. -/
theorem mid_main (c : Dev nD) (t : Fin cfg1.N) (h0 : ¬t.val % 43 = 0) (h1 : ¬t.val % 43 = 42) :
    (outsAt1 V c t.val t.isLt).2.1 = k1_pay4 (gblk V c t) (wblk V c t) (outsAt1 V c (t.val - 1) (Nat.lt_of_le_of_lt (Nat.sub_le _ _) t.isLt)).2.1 := by
  rw [outsAt1_Mid V c t h0 h1]
  dsimp only
  exact piece_Mid_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After a middle hidden step the low-rank accumulator likewise. -/
theorem mid_low (c : Dev nD) (t : Fin cfg1.N) (h0 : ¬t.val % 43 = 0) (h1 : ¬t.val % 43 = 42) :
    (outsAt1 V c t.val t.isLt).2.2 = k1_pay5 (gblk V c t) (ablk V c t) (outsAt1 V c (t.val - 1) (Nat.lt_of_le_of_lt (Nat.sub_le _ _) t.isLt)).2.2 := by
  rw [outsAt1_Mid V c t h0 h1]
  dsimp only
  exact piece_Mid_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After the last hidden step the base accumulator is what the point before left plus this block's products. -/
theorem last_main (c : Dev nD) (t : Fin cfg1.N) (h0 : ¬t.val % 43 = 0) (h1 : t.val % 43 = 42) :
    (outsAt1 V c t.val t.isLt).2.1 = k1_pay4 (gblk V c t) (wblk V c t) (outsAt1 V c (t.val - 1) (Nat.lt_of_le_of_lt (Nat.sub_le _ _) t.isLt)).2.1 := by
  rw [outsAt1_Last V c t h0 h1]
  dsimp only
  exact piece_Last_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- After the last hidden step the low-rank accumulator likewise. -/
theorem last_low (c : Dev nD) (t : Fin cfg1.N) (h0 : ¬t.val % 43 = 0) (h1 : t.val % 43 = 42) :
    (outsAt1 V c t.val t.isLt).2.2 = k1_pay5 (gblk V c t) (ablk V c t) (outsAt1 V c (t.val - 1) (Nat.lt_of_le_of_lt (Nat.sub_le _ _) t.isLt)).2.2 := by
  rw [outsAt1_Last V c t h0 h1]
  dsimp only
  exact piece_Last_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- The block stored at the last hidden step: the body's closing arithmetic of b2 and the two accumulators as
    this step leaves them. -/
theorem last_out (c : Dev nD) (t : Fin cfg1.N) (h0 : ¬t.val % 43 = 0) (h1 : t.val % 43 = 42) :
    (outsAt1 V c t.val t.isLt).1 = k1_pay6 (bblk V c t) (outsAt1 V c t.val t.isLt).2.2 (outsAt1 V c t.val t.isLt).2.1 := by
  rw [last_main V c t h0 h1, last_low V c t h0 h1, outsAt1_Last V c t h0 h1]
  dsimp only
  exact piece_Last_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

end Points

/-! ## The running sums are the partial sums over the hidden blocks -/

section Value

variable (V : (c : Dev nD) → (b : Ref sig .tc) → Buf (Elt Ideal) ((c : Thread nD τ).loc b))

/-- The terms of the base sum for row P and output column q, along the hidden axis. -/
def baseTerm (c : Dev nD) (P : Fin 8192) (q : Fin 4096) : Fin 11008 → EReal :=
  fun h => garr V c (ix2 P h) * warr V c (ix2 q h)

/-- The terms of the low-rank sum for row P and rank r, along the hidden axis. -/
def lowTerm (c : Dev nD) (P : Fin 8192) (r : Fin 16) : Fin 11008 → EReal :=
  fun h => garr V c (ix2 P h) * aarr V c (ix2 r h)

/-- The products a point adds to the base accumulator are its hidden block's share of the base sum. -/
theorem block_main (c : Dev nD) (t : Fin cfg1.N) (k : Fin 43) (hk : k.val = t.val % 43) (p : Fin 512) (q : Fin 4096)
    (P : Fin 8192) (hP : P.val = 512 * (t.val / 43) + p.val) :
    (∑ j : Fin 256, gblk V c t (ix2 p j) * wblk V c t (ix2 q j)) = blockSum (baseTerm V c P q) k := by
  unfold blockSum baseTerm
  refine Finset.sum_congr rfl fun j _ => ?_
  exact congrArg₂ (· * ·) (gblk_apply V c t p j P (hcol k j) hP (by rw [hcol_val, hk]))
    (wblk_apply V c t q j (hcol k j) (by rw [hcol_val, hk]))

/-- The products a point adds to the low-rank accumulator are its hidden block's share of the low-rank sum. -/
theorem block_low (c : Dev nD) (t : Fin cfg1.N) (k : Fin 43) (hk : k.val = t.val % 43) (p : Fin 512) (r : Fin 16)
    (P : Fin 8192) (hP : P.val = 512 * (t.val / 43) + p.val) :
    (∑ j : Fin 256, gblk V c t (ix2 p j) * ablk V c t (ix2 r j)) = blockSum (lowTerm V c P r) k := by
  unfold blockSum lowTerm
  refine Finset.sum_congr rfl fun j _ => ?_
  exact congrArg₂ (· * ·) (gblk_apply V c t p j P (hcol k j) hP (by rw [hcol_val, hk]))
    (ablk_apply V c t r j (hcol k j) (by rw [hcol_val, hk]))

/-- What the two accumulators hold after the point at position n: for the rows of its row block, the partial sums
    over the hidden blocks up to and including its own. -/
def AccAt (c : Dev nD) (n : ℕ) (hn : n < cfg1.N) : Prop :=
  (∀ (p : Fin 512) (q : Fin 4096) (P : Fin 8192), P.val = 512 * (n / 43) + p.val →
      (outsAt1 V c n hn).2.1 (ix2 p q) = partialSum (baseTerm V c P q) (n % 43 + 1))
  ∧ (∀ (p : Fin 512) (r : Fin 16) (P : Fin 8192), P.val = 512 * (n / 43) + p.val →
      (outsAt1 V c n hn).2.2 (ix2 p r) = partialSum (lowTerm V c P r) (n % 43 + 1))

/-- At a first hidden step: zero plus the first block's share. -/
theorem accAt_first (c : Dev nD) (t : Fin cfg1.N) (h0 : t.val % 43 = 0) : AccAt V c t.val t.isLt := by
  have h1 : ¬t.val % 43 = 42 := by omega
  refine ⟨fun p q P hP => ?_, fun p r P hP => ?_⟩
  · rw [first_main V c t h0 h1, h0]
    refine (acc_main (gblk V c t) (wblk V c t) (k1_pay1 (F := Ideal)) p q).trans ?_
    rw [block_main V c t 0 h0.symm p q P hP, reset_main]
    exact (partialSum_one _).symm
  · rw [first_low V c t h0 h1, h0]
    refine (acc_low (gblk V c t) (ablk V c t) (k1_pay2 (F := Ideal)) p r).trans ?_
    rw [block_low V c t 0 h0.symm p r P hP, reset_low]
    exact (partialSum_one _).symm

/-- At any later hidden step: the partial sum the point before left, plus this block's share. -/
theorem accAt_step (c : Dev nD) (t : Fin cfg1.N) (h0 : ¬t.val % 43 = 0)
    (ih : AccAt V c (t.val - 1) (Nat.lt_of_le_of_lt (Nat.sub_le _ _) t.isLt)) : AccAt V c t.val t.isLt := by
  have hk : t.val % 43 < 43 := Nat.mod_lt _ (by decide)
  have hd : (t.val - 1) / 43 = t.val / 43 := by omega
  have hm : (t.val - 1) % 43 + 1 = t.val % 43 := by omega
  obtain ⟨ihm, ihl⟩ := ih
  have em : ∀ s : Vec Ideal S512x4096 .f32, (outsAt1 V c t.val t.isLt).2.1 = k1_pay4 (gblk V c t) (wblk V c t) s →
      s = (outsAt1 V c (t.val - 1) (Nat.lt_of_le_of_lt (Nat.sub_le _ _) t.isLt)).2.1 → ∀ (p : Fin 512) (q : Fin 4096) (P : Fin 8192), P.val = 512 * (t.val / 43) + p.val →
      (outsAt1 V c t.val t.isLt).2.1 (ix2 p q) = partialSum (baseTerm V c P q) (t.val % 43 + 1) := by
    intro s e es p q P hP
    rw [e]
    refine (acc_main (gblk V c t) (wblk V c t) s p q).trans ?_
    rw [block_main V c t ⟨t.val % 43, hk⟩ rfl p q P hP, es, ihm p q P (by rw [hd]; exact hP), hm]
    exact (partialSum_succ _ ⟨t.val % 43, hk⟩).symm
  have el : ∀ s : Vec Ideal S512x16 .f32, (outsAt1 V c t.val t.isLt).2.2 = k1_pay5 (gblk V c t) (ablk V c t) s →
      s = (outsAt1 V c (t.val - 1) (Nat.lt_of_le_of_lt (Nat.sub_le _ _) t.isLt)).2.2 → ∀ (p : Fin 512) (r : Fin 16) (P : Fin 8192), P.val = 512 * (t.val / 43) + p.val →
      (outsAt1 V c t.val t.isLt).2.2 (ix2 p r) = partialSum (lowTerm V c P r) (t.val % 43 + 1) := by
    intro s e es p r P hP
    rw [e]
    refine (acc_low (gblk V c t) (ablk V c t) s p r).trans ?_
    rw [block_low V c t ⟨t.val % 43, hk⟩ rfl p r P hP, es, ihl p r P (by rw [hd]; exact hP), hm]
    exact (partialSum_succ _ ⟨t.val % 43, hk⟩).symm
  by_cases h1 : t.val % 43 = 42
  · exact ⟨em _ (last_main V c t h0 h1) rfl, el _ (last_low V c t h0 h1) rfl⟩
  · exact ⟨em _ (mid_main V c t h0 h1) rfl, el _ (mid_low V c t h0 h1) rfl⟩

/-- After every point the accumulators hold the partial sums: by induction along the grid. -/
theorem accAt (c : Dev nD) : ∀ (n : ℕ) (hn : n < cfg1.N), AccAt V c n hn
  | 0, hn => accAt_first V c ⟨0, hn⟩ (Nat.zero_mod _)
  | n + 1, hn => by
    by_cases h0 : (n + 1) % 43 = 0
    · exact accAt_first V c ⟨n + 1, hn⟩ h0
    · exact accAt_step V c ⟨n + 1, hn⟩ h0 (accAt c n (Nat.lt_of_succ_lt hn))

/-! ## The stored block and the output array -/

/-- An entry of the block stored at a last hidden step is the linear layer with its adapter at that row and column. -/
theorem out_entry (c : Dev nD) (t : Fin cfg1.N) (h1 : t.val % 43 = 42) (p : Fin 512) (q : Fin 4096) (P : Fin 8192)
    (hP : P.val = 512 * (t.val / 43) + p.val) :
    (outsAt1 V c t.val t.isLt).1 (ix2 p q) = Cert.LoraFfn.linAt (φx := .bf16) (φw := .bf16) (φa := .bf16) (φb := .bf16) (garr V c) (warr V c) (aarr V c) (barr V c) P q := by
  have h0 : ¬t.val % 43 = 0 := by omega
  have e43 : t.val % 43 + 1 = 43 := by omega
  obtain ⟨hm, hl⟩ := accAt V c t.val t.isLt
  rw [last_out V c t h0 h1]
  refine (final_out (bblk V c t) (outsAt1 V c t.val t.isLt).2.2 (outsAt1 V c t.val t.isLt).2.1 p q).trans ?_
  unfold Cert.LoraFfn.linAt
  rw [hm p q P hP, e43, partialSum_all]
  refine congrArg₂ (· + ·) rfl (congrArg (· * Cert.LoraFfn.two) (Finset.sum_congr rfl fun r _ => ?_))
  rw [hl p r P hP, e43, partialSum_all, bblk_apply V c t q r]
  rfl

/-- What a last hidden step writes back is its block of the layer's whole result. -/
theorem flushed_eq (c : Dev nD) (t : Fin cfg1.N) (hf : (cfg1.win 4).flush t = true) :
    (dat1 V c).flushed 4 t
      = ((cfg1.win 4).blk t).view.read (Elt Ideal) (Cert.LoraFfn.lin (φx := .bf16) (φw := .bf16) (φa := .bf16) (φb := .bf16) (garr V c) (warr V c) (aarr V c) (barr V c)) := by
  have h1 : t.val % 43 = 42 := (flush1_4 t).mp hf
  show (cfg1.win 4).cut (grid1.coords t) ((dat1 V c).after 4 t) = _
  rw [after1_4]
  exact out_block_eq t (Cert.LoraFfn.lin (φx := .bf16) (φw := .bf16) (φa := .bf16) (φb := .bf16) (garr V c) (warr V c) (aarr V c) (barr V c)) (outsAt1 V c t.val t.isLt).1 fun p q P hP =>
    (out_entry V c t h1 p q P hP).trans (Cert.LoraFfn.lin_apply (φx := .bf16) (φw := .bf16) (φa := .bf16) (φb := .bf16) (garr V c) (warr V c) (aarr V c) (barr V c) P q).symm

/-- THE REGION'S RESULT: the output array ends holding the third linear layer, with its low-rank adapter, of the
    gated rows. -/
theorem down_array (c : Dev nD) :
    (Cert.KernelIdeal.Frame.dat1 (F := Ideal) V c).arrAt 4 cfg1.N
      = Cert.LoraFfn.lin (φx := .bf16) (φw := .bf16) (φa := .bf16) (φb := .bf16) (V c main_v11) (V c main_v4) (V c main_v9) (V c main_v10) :=
  (dat1 V c).arrAt_eq_of_cover 4 (Cert.LoraFfn.lin (φx := .bf16) (φw := .bf16) (φa := .bf16) (φb := .bf16) (garr V c) (warr V c) (aarr V c) (barr V c)) (flushed_eq V c) out_cover

end Value

end Cert.KernelIdeal.DownValue

end
-- ==== Proof.Bridge.lean ====
import proofs.«104832_j13503377178799_1_alg».proof.Proof.HostValue
import proofs.«104832_j13503377178799_1_alg».proof.Proof.GateValue
import proofs.«104832_j13503377178799_1_alg».proof.Proof.DownValue
import proofs.«104832_j13503377178799_1_alg».proof.Proof.KernelIdeal.TwoRegions
import proofs.«104832_j13503377178799_1_alg».proof.Proof.Spec

/-!
# The kernel program's result is the specification

Read on the extended reals, the kernel program is four stages. The host lines before the kernels take the input's
4 × 2048 positions as 8192 rows (narrowing every array to bf16 changes nothing there). The gate kernel leaves in its
output array the gated hidden rows of those rows. The down-projection kernel, which finds that array among its
operands, leaves the third layer of the gated rows. The last host line lays the 8192 result rows back out as
[4, 2048, 4096]. The specification is the same four stages composed, so the result array is the specification of the
ten launch arrays.
-/

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ)

/-! ## The specification from its stages -/

/-- The specification is its four stages composed: the input's positions taken as 8192 rows, the gated hidden rows,
    the third layer applied to them, and the result rows laid back out. An array narrowed to another float format is
    the same array of extended reals, so the stages may be given at any formats. -/
theorem ffn_of_stages (x : S4x2048x4096.Idx → EReal) (w1 w3 : S11008x4096.Idx → EReal) (w2 : S4096x11008.Idx → EReal)
    (a1 : S16x4096.Idx → EReal) (b1 : S11008x16.Idx → EReal) (a3 : S16x4096.Idx → EReal) (b3 : S11008x16.Idx → EReal)
    (a2 : S16x11008.Idx → EReal) (b2 : S4096x16.Idx → EReal)
    (hin : (⟨3, ![4, 2048, 4096]⟩ : Shape).ShapeCasts ⟨2, ![8192, 4096]⟩)
    (hout : (⟨2, ![8192, 4096]⟩ : Shape).ShapeCasts ⟨3, ![4, 2048, 4096]⟩)
    (rows : S8192x4096.Idx → EReal) (hrows : rows = shapeCast S8192x4096 x hin)
    (hidden : S8192x11008.Idx → EReal)
    (hhidden : hidden = Cert.LoraFfn.gate (φx := .bf16) (φw := .bf16) (φa := .bf16) (φb := .bf16) rows w1 w3 a1 a3 b1 b3)
    (out : S8192x4096.Idx → EReal)
    (hout' : out = Cert.LoraFfn.lin (φx := .bf16) (φw := .bf16) (φa := .bf16) (φb := .bf16) hidden w2 a2 b2)
    (res : S4x2048x4096.Idx → EReal) (hres : res = shapeCast S4x2048x4096 out hout) :
    res = Cert.LoraFfn.ffn x w1 w3 w2 a1 b1 a3 b3 a2 b2 hin hout := by
  subst hrows hhidden hout' hres
  rfl

/-! ## The buffers the down kernel finds -/

/-- The down kernel finds the gated rows where the gate kernel left them, -/
theorem mid_v11 (c : Dev nD) : Frame.midVal m c main_v11 = Frame.gateArr m c := by
  unfold Frame.midVal; exact Function.update_self _ _ _
/-- and the third layer's weight and adapter factors as the host lines made them. -/
theorem mid_v4 (c : Dev nD) : Frame.midVal m c main_v4 = V1 m c main_v4 := by
  unfold Frame.midVal; exact Function.update_of_ne (StableHlo.devRef_ne_of_ne (by decide)) _ _
theorem mid_v9 (c : Dev nD) : Frame.midVal m c main_v9 = V1 m c main_v9 := by
  unfold Frame.midVal; exact Function.update_of_ne (StableHlo.devRef_ne_of_ne (by decide)) _ _
theorem mid_v10 (c : Dev nD) : Frame.midVal m c main_v10 = V1 m c main_v10 := by
  unfold Frame.midVal; exact Function.update_of_ne (StableHlo.devRef_ne_of_ne (by decide)) _ _

/-- After both regions the down kernel's output array holds what its write-backs left. -/
theorem v3_down (c : Dev nD) : V3 m (Frame.outs m) c main_v12 = Frame.downArr m c := by
  show Function.update (V2 m (Frame.outs m) c) (Proc.devRef .tc main_v12) (Frame.outs m 3 main_v12 c) (Proc.devRef .tc main_v12) = _
  rw [Function.update_self, Frame.outs_down]

/-! ## The stages -/

/-- The gated hidden rows: the specification's gate of the 8192 rows and the launch's first two layers. -/
theorem hidden_eq (c : Dev nD) : (Frame.gateArr m c : S8192x11008.Idx → EReal)
    = Cert.LoraFfn.gate (φx := .bf16) (φw := .bf16) (φa := .bf16) (φb := .bf16) (V1 m c main_v1 : S8192x4096.Idx → EReal)
        (m ((c : Thread nD τ).loc main_arg1)) (m ((c : Thread nD τ).loc main_arg2)) (m ((c : Thread nD τ).loc main_arg4)) (m ((c : Thread nD τ).loc main_arg6)) (m ((c : Thread nD τ).loc main_arg5)) (m ((c : Thread nD τ).loc main_arg7)) := by
  calc (Frame.gateArr m c : S8192x11008.Idx → EReal)
      = Cert.LoraFfn.gate (φx := .bf16) (φw := .bf16) (φa := .bf16) (φb := .bf16) (V1 m c main_v1 : S8192x4096.Idx → EReal)
          (V1 m c main_v2 : S11008x4096.Idx → EReal) (V1 m c main_v3 : S11008x4096.Idx → EReal) (V1 m c main_v5 : S16x4096.Idx → EReal)
          (V1 m c main_v7 : S16x4096.Idx → EReal) (V1 m c main_v6 : S11008x16.Idx → EReal) (V1 m c main_v8 : S11008x16.Idx → EReal) :=
        GateValue.gate_array (Frame.atGate m) c
    _ = _ := by rw [HostValue.w1 m c, HostValue.w3 m c, HostValue.a1 m c, HostValue.a3 m c, HostValue.b1 m c, HostValue.b3 m c]

/-- The result rows: the third layer of the gated hidden rows. -/
theorem out_eq (c : Dev nD) : (Frame.downArr m c : S8192x4096.Idx → EReal)
    = Cert.LoraFfn.lin (φx := .bf16) (φw := .bf16) (φa := .bf16) (φb := .bf16) (Frame.gateArr m c : S8192x11008.Idx → EReal)
        (m ((c : Thread nD τ).loc main_arg3)) (m ((c : Thread nD τ).loc main_arg8)) (m ((c : Thread nD τ).loc main_arg9)) := by
  calc (Frame.downArr m c : S8192x4096.Idx → EReal)
      = Cert.LoraFfn.lin (φx := .bf16) (φw := .bf16) (φa := .bf16) (φb := .bf16) (Frame.midVal m c main_v11 : S8192x11008.Idx → EReal)
          (Frame.midVal m c main_v4 : S4096x11008.Idx → EReal) (Frame.midVal m c main_v9 : S16x11008.Idx → EReal) (Frame.midVal m c main_v10 : S4096x16.Idx → EReal) :=
        DownValue.down_array (Frame.atDown m) c
    _ = Cert.LoraFfn.lin (φx := .bf16) (φw := .bf16) (φa := .bf16) (φb := .bf16) (Frame.gateArr m c : S8192x11008.Idx → EReal)
          (V1 m c main_v4 : S4096x11008.Idx → EReal) (V1 m c main_v9 : S16x11008.Idx → EReal) (V1 m c main_v10 : S4096x16.Idx → EReal) := by
        rw [mid_v11, mid_v4, mid_v9, mid_v10]
    _ = _ := by rw [HostValue.w2 m c, HostValue.a2 m c, HostValue.b2 m c]

/-! ## The result -/

/-- The kernel program's result array is the specification of the ten launch arrays. -/
theorem result_eq (c : Dev nD) (hin : (⟨3, ![4, 2048, 4096]⟩ : Shape).ShapeCasts ⟨2, ![8192, 4096]⟩)
    (hout : (⟨2, ![8192, 4096]⟩ : Shape).ShapeCasts ⟨3, ![4, 2048, 4096]⟩) :
    (V4 m (Frame.outs m) c main_v13 : S4x2048x4096.Idx → EReal)
      = Cert.LoraFfn.ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) hin hout :=
  ffn_of_stages _ _ _ _ _ _ _ _ _ _ hin hout
    (V1 m c main_v1) (HostValue.rows m c)
    (Frame.gateArr m c) (hidden_eq m c)
    (Frame.downArr m c) (out_eq m c)
    _ ((HostValue.result m (Frame.outs m) c).trans (by rw [v3_down]))

end Cert.KernelIdeal.Bridge

end
-- ==== Proof.RefValue.lean ====
import proofs.«104832_j13503377178799_1_alg».proof.Proof.Gen.ReferenceIdeal.Run
import proofs.«104832_j13503377178799_1_alg».proof.Proof.Gen.ReferenceIdeal.Read
import proofs.«104832_j13503377178799_1_alg».proof.Proof.Spec

/-!
  The reference program's result, read index by index, is the specification.

  At a position (b, s) of the input and an output o the reference computes three layers of the form
      Σ_d u[b, s, d] · w[o, d]  +  (Σ_r (Σ_d u[b, s, d] · a[r, d]) · b[o, r]) · 2,
  the second gated by silu of the first, the third applied to the gated values. The specification computes the
  same expression on row 2048 · b + s of the input taken as 8192 rows: the two are matched sum by sum, the only
  work being the identification of the indices.
-/

noncomputable section

open scoped BigOperators

namespace Cert.ReferenceIdeal.RefValue

open Cert.ReferenceIdeal Cert.ReferenceIdeal.Read Idealize.ShloMosaic Idealize.ShloMosaic.ValueIdx

/-! ## Rows and positions -/

/-- Position (b, s) of a [4, 2048, K] array is row 2048 · b + s of the array taken as 8192 rows. -/
theorem rows_apply {α : Type} {K : ℕ} (u : (⟨3, ![4, 2048, K]⟩ : Shape).Idx → α)
    (h : (⟨3, ![4, 2048, K]⟩ : Shape).ShapeCasts ⟨2, ![8192, K]⟩) (b : Fin 4) (s : Fin 2048) (p : Fin 8192)
    (hp : p.val = 2048 * b.val + s.val) (d : Fin K) :
    shapeCast ⟨2, ![8192, K]⟩ u h (ix2 p d) = u (ix3 b s d) :=
  shapeCast_apply u h _ _ (by
    rw [Shape.rowMajor_val_three, Shape.rowMajor_val_two]
    show (b.val * 2048 + s.val) * K + d.val = p.val * K + d.val
    rw [hp, Nat.mul_comm 2048 b.val])

/-- Row 2048 · b + s of an [8192, K] array is position (b, s) of the array laid out as [4, 2048, K]. -/
theorem unrows_apply {α : Type} {K : ℕ} (v : (⟨2, ![8192, K]⟩ : Shape).Idx → α)
    (h : (⟨2, ![8192, K]⟩ : Shape).ShapeCasts ⟨3, ![4, 2048, K]⟩) (b : Fin 4) (s : Fin 2048) (p : Fin 8192)
    (hp : p.val = 2048 * b.val + s.val) (d : Fin K) :
    shapeCast ⟨3, ![4, 2048, K]⟩ v h (ix3 b s d) = v (ix2 p d) :=
  shapeCast_apply v h _ _ (by
    rw [Shape.rowMajor_val_three, Shape.rowMajor_val_two]
    show p.val * K + d.val = (b.val * 2048 + s.val) * K + d.val
    rw [hp, Nat.mul_comm 2048 b.val])

/-! ## The indices the reference's products read at -/

section indices
variable (b : Fin 4) (s : Fin 2048)

theorem l0 (o : Fin 11008) (k : Fin 4096) : lidx_main_v0 (ix3 b s o) k = ix3 b s k :=
  funext fun a => match a with | ⟨0, _⟩ => rfl | ⟨1, _⟩ => rfl | ⟨2, _⟩ => rfl
theorem r0 (o : Fin 11008) (k : Fin 4096) : ridx_main_v0 (ix3 b s o) k = ix2 o k :=
  funext fun a => match a with | ⟨0, _⟩ => rfl | ⟨1, _⟩ => rfl
theorem l1 (r : Fin 16) (k : Fin 4096) : lidx_main_v1 (ix3 b s r) k = ix3 b s k :=
  funext fun a => match a with | ⟨0, _⟩ => rfl | ⟨1, _⟩ => rfl | ⟨2, _⟩ => rfl
theorem r1 (r : Fin 16) (k : Fin 4096) : ridx_main_v1 (ix3 b s r) k = ix2 r k :=
  funext fun a => match a with | ⟨0, _⟩ => rfl | ⟨1, _⟩ => rfl
theorem l2 (o : Fin 11008) (k : Fin 16) : lidx_main_v2 (ix3 b s o) k = ix3 b s k :=
  funext fun a => match a with | ⟨0, _⟩ => rfl | ⟨1, _⟩ => rfl | ⟨2, _⟩ => rfl
theorem r2 (o : Fin 11008) (k : Fin 16) : ridx_main_v2 (ix3 b s o) k = ix2 o k :=
  funext fun a => match a with | ⟨0, _⟩ => rfl | ⟨1, _⟩ => rfl

theorem l6 (o : Fin 11008) (k : Fin 4096) : lidx_main_v6 (ix3 b s o) k = ix3 b s k :=
  funext fun a => match a with | ⟨0, _⟩ => rfl | ⟨1, _⟩ => rfl | ⟨2, _⟩ => rfl
theorem r6 (o : Fin 11008) (k : Fin 4096) : ridx_main_v6 (ix3 b s o) k = ix2 o k :=
  funext fun a => match a with | ⟨0, _⟩ => rfl | ⟨1, _⟩ => rfl
theorem l7 (r : Fin 16) (k : Fin 4096) : lidx_main_v7 (ix3 b s r) k = ix3 b s k :=
  funext fun a => match a with | ⟨0, _⟩ => rfl | ⟨1, _⟩ => rfl | ⟨2, _⟩ => rfl
theorem r7 (r : Fin 16) (k : Fin 4096) : ridx_main_v7 (ix3 b s r) k = ix2 r k :=
  funext fun a => match a with | ⟨0, _⟩ => rfl | ⟨1, _⟩ => rfl
theorem l8 (o : Fin 11008) (k : Fin 16) : lidx_main_v8 (ix3 b s o) k = ix3 b s k :=
  funext fun a => match a with | ⟨0, _⟩ => rfl | ⟨1, _⟩ => rfl | ⟨2, _⟩ => rfl
theorem r8 (o : Fin 11008) (k : Fin 16) : ridx_main_v8 (ix3 b s o) k = ix2 o k :=
  funext fun a => match a with | ⟨0, _⟩ => rfl | ⟨1, _⟩ => rfl

theorem l14 (o : Fin 4096) (k : Fin 11008) : lidx_main_v14 (ix3 b s o) k = ix3 b s k :=
  funext fun a => match a with | ⟨0, _⟩ => rfl | ⟨1, _⟩ => rfl | ⟨2, _⟩ => rfl
theorem r14 (o : Fin 4096) (k : Fin 11008) : ridx_main_v14 (ix3 b s o) k = ix2 o k :=
  funext fun a => match a with | ⟨0, _⟩ => rfl | ⟨1, _⟩ => rfl
theorem l15 (r : Fin 16) (k : Fin 11008) : lidx_main_v15 (ix3 b s r) k = ix3 b s k :=
  funext fun a => match a with | ⟨0, _⟩ => rfl | ⟨1, _⟩ => rfl | ⟨2, _⟩ => rfl
theorem r15 (r : Fin 16) (k : Fin 11008) : ridx_main_v15 (ix3 b s r) k = ix2 r k :=
  funext fun a => match a with | ⟨0, _⟩ => rfl | ⟨1, _⟩ => rfl
theorem l16 (o : Fin 4096) (k : Fin 16) : lidx_main_v16 (ix3 b s o) k = ix3 b s k :=
  funext fun a => match a with | ⟨0, _⟩ => rfl | ⟨1, _⟩ => rfl | ⟨2, _⟩ => rfl
theorem r16 (o : Fin 4096) (k : Fin 16) : ridx_main_v16 (ix3 b s o) k = ix2 o k :=
  funext fun a => match a with | ⟨0, _⟩ => rfl | ⟨1, _⟩ => rfl

end indices

/-! ## The three layers at a position -/

/-- The binary32 literal 1.0 is the real number one. -/
theorem one_eq : Ideal.ofBits .f32 0x3F800000#32 = 1 := by
  simp [Ideal.ofBits, Ideal.ieee, -EReal.coe_mul]; norm_num

/-- silu as the reference spells it, v · (1 / (1 + exp (-v))), is the specification's silu. -/
theorem silu_eq (v : Ideal .f32) :
    FloatOps.mulf v (FloatOps.hostDivf (FloatOps.ofBits (F := Ideal) .f32 0x3F800000#32)
      (FloatOps.addf (FloatOps.ofBits (F := Ideal) .f32 0x3F800000#32) (FloatOps.hostUnary .exp (FloatOps.hostNegf v))))
      = Cert.LoraFfn.silu v := by
  rw [Ideal.ofBits_def, one_eq]
  rfl

section layers
variable (x : FVec Ideal S4x2048x4096 .f32)
  (hin : (⟨3, ![4, 2048, 4096]⟩ : Shape).ShapeCasts ⟨2, ![8192, 4096]⟩)
  (b : Fin 4) (s : Fin 2048) (p : Fin 8192)

set_option maxHeartbeats 50000 in
/-- The first layer at position (b, s) and hidden unit o is the specification's layer on row 2048 · b + s. -/
theorem first_at (hp : p.val = 2048 * b.val + s.val) (w : FVec Ideal S11008x4096 .f32) (a : FVec Ideal S16x4096 .f32)
    (bb : FVec Ideal S11008x16 .f32) (o : Fin 11008) :
    val_main_v5 (F := Ideal) x w a bb (ix3 b s o)
      = Cert.LoraFfn.linAt (shapeCast ⟨2, ![8192, 4096]⟩ x hin) w a bb p o := by
  rw [val_main_v5_apply, val_main_v0_apply, val_main_v4_apply, val_main_v2_apply, val_main_v3_apply, val_main_cst_apply]
  unfold Cert.LoraFfn.linAt Cert.LoraFfn.two
  simp only [val_main_v1_apply, l0, r0, l1, r1, l2, r2, rows_apply x hin b s p hp, Ideal.addf_def, Ideal.mulf_def, Ideal.ofBits_def]

set_option maxHeartbeats 50000 in
/-- The second layer likewise. -/
theorem second_at (hp : p.val = 2048 * b.val + s.val) (w : FVec Ideal S11008x4096 .f32) (a : FVec Ideal S16x4096 .f32)
    (bb : FVec Ideal S11008x16 .f32) (o : Fin 11008) :
    val_main_v11 (F := Ideal) x w a bb (ix3 b s o)
      = Cert.LoraFfn.linAt (shapeCast ⟨2, ![8192, 4096]⟩ x hin) w a bb p o := by
  rw [val_main_v11_apply, val_main_v6_apply, val_main_v10_apply, val_main_v8_apply, val_main_v9_apply, val_main_cst_0_apply]
  unfold Cert.LoraFfn.linAt Cert.LoraFfn.two
  simp only [val_main_v7_apply, l6, r6, l7, r7, l8, r8, rows_apply x hin b s p hp, Ideal.addf_def, Ideal.mulf_def, Ideal.ofBits_def]

set_option maxHeartbeats 50000 in
/-- The gated hidden value at position (b, s) and hidden unit o is the specification's on row 2048 · b + s. -/
theorem gate_at (hp : p.val = 2048 * b.val + s.val) (w1 w3 : FVec Ideal S11008x4096 .f32) (a1 : FVec Ideal S16x4096 .f32)
    (b1 : FVec Ideal S11008x16 .f32) (a3 : FVec Ideal S16x4096 .f32) (b3 : FVec Ideal S11008x16 .f32) (o : Fin 11008) :
    val_main_v13 (F := Ideal) x w1 w3 a1 b1 a3 b3 (ix3 b s o)
      = Cert.LoraFfn.gate (shapeCast ⟨2, ![8192, 4096]⟩ x hin) w1 w3 a1 a3 b1 b3 (ix2 p o) := by
  rw [val_main_v13_apply, val_main_v12_apply, val_main_call0_v5_apply, val_main_call0_v4_apply, val_main_call0_cst_0_apply,
    val_main_call0_v3_apply, val_main_call0_v2_apply, val_main_call0_cst_apply, val_main_call0_v1_apply, val_main_call0_v0_apply,
    silu_eq, first_at x hin b s p hp, second_at x hin b s p hp, Cert.LoraFfn.gate_apply, Ideal.mulf_def]

set_option maxHeartbeats 50000 in
/-- The third layer, applied to the gated values, at position (b, s) and output o. -/
theorem third_at (hp : p.val = 2048 * b.val + s.val) (w1 w3 : FVec Ideal S11008x4096 .f32) (w2 : FVec Ideal S4096x11008 .f32)
    (a1 : FVec Ideal S16x4096 .f32) (b1 : FVec Ideal S11008x16 .f32) (a3 : FVec Ideal S16x4096 .f32)
    (b3 : FVec Ideal S11008x16 .f32) (a2 : FVec Ideal S16x11008 .f32) (b2 : FVec Ideal S4096x16 .f32) (o : Fin 4096) :
    val_main_v19 (F := Ideal) x w1 w3 w2 a1 b1 a3 b3 a2 b2 (ix3 b s o)
      = Cert.LoraFfn.linAt (Cert.LoraFfn.gate (shapeCast ⟨2, ![8192, 4096]⟩ x hin) w1 w3 a1 a3 b1 b3) w2 a2 b2 p o := by
  rw [val_main_v19_apply, val_main_v14_apply, val_main_v18_apply, val_main_v16_apply, val_main_v17_apply, val_main_cst_1_apply]
  unfold Cert.LoraFfn.linAt Cert.LoraFfn.two
  simp only [val_main_v15_apply, l14, r14, l15, r15, l16, r16, gate_at x hin b s p hp, Ideal.addf_def, Ideal.mulf_def, Ideal.ofBits_def]

end layers

/-! ## The reference is the specification -/

/-- The reference's result, as the last stage of its operations over the ten argument arrays, is the
    specification's block: both are the same sums at every index. -/
theorem ref_eq (x : FVec Ideal S4x2048x4096 .f32) (w1 w3 : FVec Ideal S11008x4096 .f32) (w2 : FVec Ideal S4096x11008 .f32)
    (a1 : FVec Ideal S16x4096 .f32) (b1 : FVec Ideal S11008x16 .f32) (a3 : FVec Ideal S16x4096 .f32)
    (b3 : FVec Ideal S11008x16 .f32) (a2 : FVec Ideal S16x11008 .f32) (b2 : FVec Ideal S4096x16 .f32)
    (hin : (⟨3, ![4, 2048, 4096]⟩ : Shape).ShapeCasts ⟨2, ![8192, 4096]⟩)
    (hout : (⟨2, ![8192, 4096]⟩ : Shape).ShapeCasts ⟨3, ![4, 2048, 4096]⟩) :
    val_main_v19 (F := Ideal) x w1 w3 w2 a1 b1 a3 b3 a2 b2 = Cert.LoraFfn.ffn x w1 w3 w2 a1 b1 a3 b3 a2 b2 hin hout := by
  funext i
  obtain ⟨b, s, o, rfl⟩ : ∃ (b : Fin 4) (s : Fin 2048) (o : Fin 4096), i = ix3 b s o := ⟨i 0, i 1, i 2, eq_ix3 i⟩
  have hlt : 2048 * b.val + s.val < 8192 := by have := b.isLt; have := s.isLt; omega
  unfold Cert.LoraFfn.ffn Cert.LoraFfn.ffnRows
  rw [unrows_apply _ hout b s ⟨2048 * b.val + s.val, hlt⟩ rfl o, Cert.LoraFfn.lin_apply]
  exact third_at x hin b s ⟨2048 * b.val + s.val, hlt⟩ rfl w1 w3 w2 a1 b1 a3 b3 a2 b2 o

end Cert.ReferenceIdeal.RefValue

end
-- ==== Proof.lean ====
/-
  The proof of `Cert.Claim`: the kernel program and its reading on the extended reals run and leave their
  arguments as launched; so does the reference; and on the extended reals the kernel program and the reference end
  with the same result.

  The kernel program is two kernel regions between host lines. The gate kernel computes, block by block over an
  8 × 43 grid, silu(x·w1ᵀ + 2·(x·a1ᵀ)·b1ᵀ) · (x·w3ᵀ + 2·(x·a3ᵀ)·b3ᵀ) on the 8192 rows of the input; the down kernel
  accumulates over the 43 blocks of the hidden axis the base product h·w2ᵀ and the rank-16 projection h·a2ᵀ of the
  gated rows h, and at the last block stores the first plus 2·(h·a2ᵀ)·b2ᵀ. The reference computes the same three
  layers with whole-array products. On the extended reals every change of float format is the identity and
  addition is commutative and associative, so both are the specification
  `Cert.LoraFfn.ffn` of the ten argument arrays: the kernel program's result by the two regions' output arrays and
  the host lines around them, the reference's by reading its operations index by index. The preservation claim is
  empty: the idealized program is the kernel program's own text.
-/
import proofs.«104832_j13503377178799_1_alg».proof.Defs
import proofs.«104832_j13503377178799_1_alg».proof.Proof.Gen.Kernel
import proofs.«104832_j13503377178799_1_alg».proof.Proof.Gen.KernelIdeal
import proofs.«104832_j13503377178799_1_alg».proof.Proof.Gen.ReferenceIdeal
import proofs.«104832_j13503377178799_1_alg».proof.Proof.Gen.Pre_finite_inputs
import proofs.«104832_j13503377178799_1_alg».proof.Proof.Gen.ReferenceIdeal.Run
import proofs.«104832_j13503377178799_1_alg».proof.Proof.Gen.ReferenceIdeal.Read
import proofs.«104832_j13503377178799_1_alg».proof.Proof.Kernel.TwoRegions
import proofs.«104832_j13503377178799_1_alg».proof.Proof.KernelIdeal.TwoRegions
import proofs.«104832_j13503377178799_1_alg».proof.Proof.RunValue
import proofs.«104832_j13503377178799_1_alg».proof.Proof.Bridge
import proofs.«104832_j13503377178799_1_alg».proof.Proof.RefValue
import proofs.«104832_j13503377178799_1_alg».proof.Proof.Spec
import Idealize.ShloMosaic.Adequacy
import Idealize.ShloMosaic.Init

noncomputable section

namespace Cert.Proof

open Idealize.ShloMosaic Idealize.SL.Sem

/-- The 4 × 2048 positions of the input are its 8192 rows, and back. -/
theorem rows_cast : (⟨3, ![4, 2048, 4096]⟩ : Shape).ShapeCasts ⟨2, ![8192, 4096]⟩ :=
  Cert.KernelIdeal.Facts₀.shapeCasts_S4x2048x4096_S8192x4096
theorem unrows_cast : (⟨2, ![8192, 4096]⟩ : Shape).ShapeCasts ⟨3, ![4, 2048, 4096]⟩ :=
  Cert.KernelIdeal.Facts₀.shapeCasts_S8192x4096_S4x2048x4096

/-- The kernel program as printed runs and leaves its arguments as launched. -/
theorem frame_k : Cert.frame_Kernel := fun m ρ _ => Cert.Kernel.Frame.frame m ρ

/-- So does its reading on the extended reals. -/
theorem frame_ki : Cert.frame_KernelIdeal := fun m ρ _ => Cert.KernelIdeal.Frame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories that agree on the ten arguments, both programs end with the
    specification of the kernel memory's arguments in their result arrays: the kernel program by its two regions'
    output arrays and the host lines around them, the reference by its operations read index by index. -/
theorem algebraic : Cert.algebraic_KernelIdeal_ReferenceIdeal := by
  intro m ρ m' ρ' _ hagree
  refine ⟨fun c => Cert.LoraFfn.ffn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      rows_cast unrows_cast, ?_, ?_⟩
  · exact (θ_run Cert.KernelIdeal.defs _ _).mono
      (fun _ h c => ⟨(h c).1.trans (Cert.KernelIdeal.Bridge.result_eq m c rows_cast unrows_cast), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v19_eq m' c).trans ?_
    refine (Cert.ReferenceIdeal.RefValue.ref_eq _ _ _ _ _ _ _ _ _ _ rows_cast unrows_cast).trans ?_
    obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
